-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50001x128 : Shape := ⟨2, ![50001, 128]⟩
abbrev S50000x300 : Shape := ⟨2, ![50000, 300]⟩
abbrev S128x300 : Shape := ⟨2, ![128, 300]⟩
abbrev S128 : Shape := ⟨1, ![128]⟩
abbrev S128x256 : Shape := ⟨2, ![128, 256]⟩
abbrev S1650000 : Shape := ⟨1, ![1650000]⟩
abbrev S_ : Shape := ⟨0, ![]⟩

class Facts : Prop where
  bcast_S_S50001x128 : S_.BroadcastsInDim S50001x128 (![] : Fin 0 → Fin S50001x128.rank)
  reducesTo_S50001x128_S_d0_1 : S50001x128.ReducesTo [0, 1] S_
  h_S_ : 0 < S_.numel
  bcast_S_S50000x300 : S_.BroadcastsInDim S50000x300 (![] : Fin 0 → Fin S50000x300.rank)
  reducesTo_S50000x300_S_d0_1 : S50000x300.ReducesTo [0, 1] S_
  bcast_S_S128x300 : S_.BroadcastsInDim S128x300 (![] : Fin 0 → Fin S128x300.rank)
  reducesTo_S128x300_S_d0_1 : S128x300.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S128x256 .f32) (main_arg5 : FVec F S128 .f32) (main_arg6 : FVec F S128x256 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x256 .f32 := Host.absf main_arg4
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg6
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg7 main_v33

def fn {F : FTy → Type} [FloatOps F] (main_arg0 : FVec F S50001x128 .f32) (main_arg1 : FVec F S50000x300 .f32) (main_arg2 : FVec F S128x300 .f32) (main_arg3 : FVec F S128 .f32) (main_arg4 : FVec F S128x256 .f32) (main_arg5 : FVec F S128 .f32) (main_arg6 : FVec F S128x256 .f32) (main_arg7 : FVec F S128 .f32) (main_arg8 : IVec S1650000 32) (main_arg9 : IVec S1650000 32) : IVec S_ 1 :=
  let main_v0 : FVec F S50001x128 .f32 := Host.absf main_arg0
  let main_cst : FVec F S_ .f32 := constant S_ .f32 0x7F800000#32
  let main_v1 : FVec F S50001x128 .f32 := broadcastInDim S50001x128 ![] bcast_S_S50001x128 main_cst
  let main_v2 : IVec S50001x128 1 := cmpf .olt main_v0 main_v1
  let main_c : IVec S_ 1 := constantI S_ 1 1#1
  let main_v3 : IVec S_ 1 := (fun x v => Host.reduce IntOp.andi x v reducesTo_S50001x128_S_d0_1 h_S_) main_v2 main_c
  let main_v4 : FVec F S50000x300 .f32 := Host.absf main_arg1
  let main_cst_0 : FVec F S_ .f32 := constant S_ .f32 0x7F800000#32
  let main_v5 : FVec F S50000x300 .f32 := broadcastInDim S50000x300 ![] bcast_S_S50000x300 main_cst_0
  let main_v6 : IVec S50000x300 1 := cmpf .olt main_v4 main_v5
  let main_c_1 : IVec S_ 1 := constantI S_ 1 1#1
  let main_v7 : IVec S_ 1 := (fun x v => Host.reduce IntOp.andi x v reducesTo_S50000x300_S_d0_1 h_S_) main_v6 main_c_1
  let main_v8 : IVec S_ 1 := andi main_v3 main_v7
  let main_v9 : FVec F S128x300 .f32 := Host.absf main_arg2
  let main_cst_2 : FVec F S_ .f32 := constant S_ .f32 0x7F800000#32
  let main_v10 : FVec F S128x300 .f32 := broadcastInDim S128x300 ![] bcast_S_S128x300 main_cst_2
  let main_v11 : IVec S128x300 1 := cmpf .olt main_v9 main_v10
  let main_c_3 : IVec S_ 1 := constantI S_ 1 1#1
  let main_v12 : IVec S_ 1 := (fun x v => Host.reduce IntOp.andi x v reducesTo_S128x300_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S50001x128 : Shape := ⟨2, ![50001, 128]⟩
abbrev S50000x300 : Shape := ⟨2, ![50000, 300]⟩
abbrev S128x300 : Shape := ⟨2, ![128, 300]⟩
abbrev S128 : Shape := ⟨1, ![128]⟩
abbrev S128x256 : Shape := ⟨2, ![128, 256]⟩
abbrev S1650000 : Shape := ⟨1, ![1650000]⟩
abbrev S50000x128 : Shape := ⟨2, ![50000, 128]⟩
abbrev S300x128 : Shape := ⟨2, ![300, 128]⟩
abbrev S2000x300 : Shape := ⟨2, ![2000, 300]⟩
abbrev S2000x128 : Shape := ⟨2, ![2000, 128]⟩
abbrev S1x128 : Shape := ⟨2, ![1, 128]⟩
abbrev S_ : Shape := ⟨0, ![]⟩
abbrev S50000 : Shape := ⟨1, ![50000]⟩
abbrev S1650000x1 : Shape := ⟨2, ![1650000, 1]⟩
abbrev S50000x1 : Shape := ⟨2, ![50000, 1]⟩
abbrev S1650000x128 : Shape := ⟨2, ![1650000, 128]⟩
abbrev S256x128 : Shape := ⟨2, ![256, 128]⟩
abbrev S128x128 : Shape := ⟨2, ![128, 128]⟩
abbrev S2000x1 : Shape := ⟨2, ![2000, 1]⟩
abbrev S2000 : Shape := ⟨1, ![2000]⟩

abbrev nBuf : Space → Nat
  | .hbm => 54
  | .vmem => 30
  | .smem => 0
  | _ => 0

abbrev bufTy : (tb : Table) → Fin (tcTables nBuf tb) → BufTy
  | .hbm, ⟨0, _⟩ => ⟨S50001x128, .f32⟩
  | .hbm, ⟨1, _⟩ => ⟨S50000x300, .f32⟩
  | .hbm, ⟨2, _⟩ => ⟨S128x300, .f32⟩
  | .hbm, ⟨3, _⟩ => ⟨S128, .f32⟩
  | .hbm, ⟨4, _⟩ => ⟨S128x256, .f32⟩
  | .hbm, ⟨5, _⟩ => ⟨S128, .f32⟩
  | .hbm, ⟨6, _⟩ => ⟨S128x256, .f32⟩
  | .hbm, ⟨7, _⟩ => ⟨S128, .f32⟩
  | .hbm, ⟨8, _⟩ => ⟨S1650000, .i32⟩
  | .hbm, ⟨9, _⟩ => ⟨S1650000, .i32⟩
  | .hbm, ⟨10, _⟩ => ⟨S50000x128, .f32⟩
  | .hbm, ⟨11, _⟩ => ⟨S300x128, .f32⟩
  | .hbm, ⟨12, _⟩ => ⟨S50000x128, .f32⟩
  | .hbm, ⟨13, _⟩ => ⟨S_, .f32⟩
  | .hbm, ⟨14, _⟩ => ⟨S1650000, .f32⟩
  | .hbm, ⟨15, _⟩ => ⟨S_, .f32⟩
  | .hbm, ⟨16, _⟩ => ⟨S50000, .f32⟩
  | .hbm, ⟨17, _⟩ => ⟨S1650000x1, .i32⟩
  | .hbm, ⟨18, _⟩ => ⟨S50000, .f32⟩
  | .hbm, ⟨19, _⟩ => ⟨S50000x1, .f32⟩
  | .hbm, ⟨20, _⟩ => ⟨S_, .i32⟩
  | .hbm, ⟨21, _⟩ => ⟨S1650000, .i32⟩
  | .hbm, ⟨22, _⟩ => ⟨S1650000, .i1⟩
  | .hbm, ⟨23, _⟩ => ⟨S_, .i32⟩
  | .hbm, ⟨24, _⟩ => ⟨S1650000, .i32⟩
  | .hbm, ⟨25, _⟩ => ⟨S1650000, .i32⟩
  | .hbm, ⟨26, _⟩ => ⟨S1650000, .i32⟩
  | .hbm, ⟨27, _⟩ => ⟨S1650000x1, .i32⟩
  | .hbm, ⟨28, _⟩ => ⟨S1650000x128, .f32⟩
  | .hbm, ⟨29, _⟩ => ⟨S_, .f32⟩
  | .hbm, ⟨30, _⟩ => ⟨S50000x128, .f32⟩
  | .hbm, ⟨31, _⟩ => ⟨S1650000x1, .i32⟩
  | .hbm, ⟨32, _⟩ => ⟨S50000x128, .f32⟩
  | .hbm, ⟨33, _⟩ => ⟨S256x128, .f32⟩
  | .hbm, ⟨34, _⟩ => ⟨S128x128, .f32⟩
  | .hbm, ⟨35, _⟩ => ⟨S128x128, .f32⟩
  | .hbm, ⟨36, _⟩ => ⟨S50000x128, .f32⟩
  | .hbm, ⟨37, _⟩ => ⟨S_, .i32⟩
  | .hbm, ⟨38, _⟩ => ⟨S1650000, .i32⟩
  | .hbm, ⟨39, _⟩ => ⟨S1650000, .i1⟩
  | .hbm, ⟨40, _⟩ => ⟨S_, .i32⟩
  | .hbm, ⟨41, _⟩ => ⟨S1650000, .i32⟩
  | .hbm, ⟨42, _⟩ => ⟨S1650000, .i32⟩
  | .hbm, ⟨43, _⟩ => ⟨S1650000, .i32⟩
  | .hbm, ⟨44, _⟩ => ⟨S1650000x1, .i32⟩
  | .hbm, ⟨45, _⟩ => ⟨S1650000x128, .f32⟩
  | .hbm, ⟨46, _⟩ => ⟨S_, .f32⟩
  | .hbm, ⟨47, _⟩ => ⟨S50000x128, .f32⟩
  | .hbm, ⟨48, _⟩ => ⟨S1650000x1, .i32⟩
  | .hbm, ⟨49, _⟩ => ⟨S50000x128, .f32⟩
  | .hbm, ⟨50, _⟩ => ⟨S256x128, .f32⟩
  | .hbm, ⟨51, _⟩ => ⟨S128x128, .f32⟩
  | .hbm, ⟨52, _⟩ => ⟨S128x128, .f32⟩
  | .hbm, ⟨53, _⟩ => ⟨S50000x128, .f32⟩
  | .local _ .vmem, ⟨0, _⟩ => ⟨S2000x300, .f32⟩
  | .local _ .vmem, ⟨1, _⟩ => ⟨S2000x300, .f32⟩
  | .local _ .vmem, ⟨2, _⟩ => ⟨S2000x128, .f32⟩
  | .local _ .vmem, ⟨3, _⟩ => ⟨S2000x128, .f32⟩
  | .local _ .vmem, ⟨4, _⟩ => ⟨S300x128, .f32⟩
  | .local _ .vmem, ⟨5, _⟩ => ⟨S128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x1, .f32⟩
  | .local _ .vmem, ⟨13, _⟩ => ⟨S2000x1, .f32⟩
  | .local _ .vmem, ⟨14, _⟩ => ⟨S128x128, .f32⟩
  | .local _ .vmem, ⟨15, _⟩ => ⟨S128x128, .f32⟩
  | .local _ .vmem, ⟨16, _⟩ => ⟨S128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x1, .f32⟩
  | .local _ .vmem, ⟨24, _⟩ => ⟨S2000x1, .f32⟩
  | .local _ .vmem, ⟨25, _⟩ => ⟨S128x128, .f32⟩
  | .local _ .vmem, ⟨26, _⟩ => ⟨S128x128, .f32⟩
  | .local _ .vmem, ⟨27, _⟩ => ⟨S128, .f32⟩
  | .local _ .vmem, ⟨28, _⟩ => ⟨S2000x128, .f32⟩
  | .local _ .vmem, ⟨29, _⟩ => ⟨S2000x128, .f32⟩
  | _, _ => ⟨S50001x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_3 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S300x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S50001x128_S50000x128_1_0 : S50001x128.Slices ![1, 0] S50000x128
  transposes_S128x300_S300x128_1_0 : S128x300.Transposes [1, 0] S300x128
  inb_S2000x300_S2000x300_0_0 : ∀ a, (![0, 0] : Fin 2 → Nat) a + S2000x300.size a ≤ S2000x300.size a
  h_S2000x300 : 0 < S2000x300.numel
  bitsLt_bf16_f32 : FTy.bits .bf16 < FTy.bits .f32
  inb_S300x128_S300x128_0_0 : ∀ a, (![0, 0] : Fin 2 → Nat) a + S300x128.size a ≤ S300x128.size a
  h_S300x128 : 0 < S300x128.numel
  shapeCasts_S300x128_S300x128 : S300x128.ShapeCasts S300x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  shapeCasts_S50000_S50000x1 : S50000.ShapeCasts S50000x1
  bcast_S_S50000x128 : S_.BroadcastsInDim S50000x128 (![] : Fin 0 → Fin S50000x128.rank)
  transposes_S128x256_S256x128_1_0 : S128x256.Transposes [1, 0] S256x128
  slices_S256x128_S128x128_0_0 : S256x128.Slices ![0, 0] S128x128
  slices_S256x128_S128x128_128_0 : S256x128.Slices ![128, 0] S128x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S2000x128_S2000 : S2000x128.Reduces [1] S2000
  shapeCasts_S2000_S2000x1 : S2000.ShapeCasts S2000x1
  dot_S2000x300_S300x128_S2000x128_1_0_0_1_n_n_wf : DotDims.WF S2000x300 S300x128 S2000x128 [1] [0] [0] [1] [] []
  scatter_S50000_S1650000x1_S1650000_n_0_0_1_wf : ScatterDims.WF S50000 S1650000x1 S1650000 [] [0] [0] 1
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x300.size a ≤ S50000x300.size a
  hwx0_0 : ∀ i : grid0.Coords, EltTy.bits .f32 = 32 ∨ (Rect.block (s := S50000x300) S2000x300.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S300x128.size a ≤ S300x128.size a
  hwx0_2 : ∀ i : grid0.Coords, EltTy.bits .f32 = 32 ∨ (Rect.block (s := S300x128) S300x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .f32 = 32 ∨ (Rect.block (s := S50000x128) S2000x128.size (cc2_transform_6 i) (hinb2_6 i)).WholeWords (EltTy.packing .f32)

variable [Facts₀]

def dot_S2000x300_S300x128_S2000x128_1_0_0_1_n_n : DotDims S2000x300 S300x128 S2000x128 where
  lhsContracting := [1]
  rhsContracting := [0]
  lhsNonContracting := [0]
  rhsNonContracting := [1]
  lhsBatch := []
  rhsBatch := []
  wf := dot_S2000x300_S300x128_S2000x128_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg1) S2000x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S300x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v2) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v21) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v21) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v7) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v33) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v34) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg7) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v35) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50001x128 : Shape := ⟨2, ![50001, 128]⟩
abbrev S50000x300 : Shape := ⟨2, ![50000, 300]⟩
abbrev S128x300 : Shape := ⟨2, ![128, 300]⟩
abbrev S128 : Shape := ⟨1, ![128]⟩
abbrev S128x256 : Shape := ⟨2, ![128, 256]⟩
abbrev S1650000 : Shape := ⟨1, ![1650000]⟩
abbrev S50000 : Shape := ⟨1, ![50000]⟩
abbrev S_ : Shape := ⟨0, ![]⟩
abbrev S50000x1 : Shape := ⟨2, ![50000, 1]⟩
abbrev S50000x128 : Shape := ⟨2, ![50000, 128]⟩
abbrev S300x128 : Shape := ⟨2, ![300, 128]⟩
abbrev S1x128 : Shape := ⟨2, ![1, 128]⟩
abbrev S1650000x1 : Shape := ⟨2, ![1650000, 1]⟩
abbrev S1650000x128 : Shape := ⟨2, ![1650000, 128]⟩
abbrev S50000x256 : Shape := ⟨2, ![50000, 256]⟩
abbrev S256x128 : Shape := ⟨2, ![256, 128]⟩

abbrev nBuf : Space → Nat
  | .hbm => 135
  | .vmem => 0
  | .smem => 0
  | _ => 0

abbrev hbmTy0_0 (i : Nat) : BufTy := match i % 128 with
  | 0 => ⟨S50001x128, .f32⟩
  | 1 => ⟨S50000x300, .f32⟩
  | 2 => ⟨S128x300, .f32⟩
  | 3 => ⟨S128, .f32⟩
  | 4 => ⟨S128x256, .f32⟩
  | 5 => ⟨S128, .f32⟩
  | 6 => ⟨S128x256, .f32⟩
  | 7 => ⟨S128, .f32⟩
  | 8 => ⟨S1650000, .i32⟩
  | 9 => ⟨S1650000, .i32⟩
  | 10 => ⟨S50000, .i32⟩
  | 11 => ⟨S_, .i32⟩
  | 12 => ⟨S50000, .i32⟩
  | 13 => ⟨S50000, .i32⟩
  | 14 => ⟨S_, .i32⟩
  | 15 => ⟨S50000, .i32⟩
  | 16 => ⟨S50000, .i1⟩
  | 17 => ⟨S_, .i32⟩
  | 18 => ⟨S50000, .i32⟩
  | 19 => ⟨S50000, .i32⟩
  | 20 => ⟨S50000, .i32⟩
  | 21 => ⟨S50000x1, .i32⟩
  | 22 => ⟨S50000x128, .f32⟩
  | 23 => ⟨S300x128, .f32⟩
  | 24 => ⟨S50000x128, .f32⟩
  | 25 => ⟨S1x128, .f32⟩
  | 26 => ⟨S50000x128, .f32⟩
  | 27 => ⟨S50000x128, .f32⟩
  | 28 => ⟨S_, .f32⟩
  | 29 => ⟨S_, .f32⟩
  | 30 => ⟨S50000x128, .f32⟩
  | 31 => ⟨S50000x128, .i1⟩
  | 32 => ⟨S_, .f32⟩
  | 33 => ⟨S50000x128, .f32⟩
  | 34 => ⟨S50000x128, .f32⟩
  | 35 => ⟨S50000x128, .f32⟩
  | 36 => ⟨S50000x128, .f32⟩
  | 37 => ⟨S_, .i32⟩
  | 38 => ⟨S1650000, .i32⟩
  | 39 => ⟨S1650000, .i1⟩
  | 40 => ⟨S_, .i32⟩
  | 41 => ⟨S1650000, .i32⟩
  | 42 => ⟨S1650000, .i32⟩
  | 43 => ⟨S1650000, .i32⟩
  | 44 => ⟨S1650000x1, .i32⟩
  | 45 => ⟨S1650000x128, .f32⟩
  | 46 => ⟨S_, .f32⟩
  | 47 => ⟨S50000x128, .f32⟩
  | 48 => ⟨S1650000x1, .i32⟩
  | 49 => ⟨S50000x128, .f32⟩
  | 50 => ⟨S_, .f32⟩
  | 51 => ⟨S1650000, .f32⟩
  | 52 => ⟨S_, .f32⟩
  | 53 => ⟨S50000, .f32⟩
  | 54 => ⟨S1650000x1, .i32⟩
  | 55 => ⟨S50000, .f32⟩
  | 56 => ⟨S50000x128, .f32⟩
  | 57 => ⟨S_, .f32⟩
  | 58 => ⟨S50000, .f32⟩
  | 59 => ⟨S50000, .f32⟩
  | 60 => ⟨S_, .f32⟩
  | 61 => ⟨S50000, .f32⟩
  | 62 => ⟨S50000, .f32⟩
  | 63 => ⟨S50000x1, .f32⟩
  | 64 => ⟨S50000x128, .f32⟩
  | 65 => ⟨S50000x128, .f32⟩
  | 66 => ⟨S50000x256, .f32⟩
  | 67 => ⟨S256x128, .f32⟩
  | 68 => ⟨S50000x128, .f32⟩
  | 69 => ⟨S1x128, .f32⟩
  | 70 => ⟨S50000x128, .f32⟩
  | 71 => ⟨S50000x128, .f32⟩
  | 72 => ⟨S_, .f32⟩
  | 73 => ⟨S_, .f32⟩
  | 74 => ⟨S50000x128, .f32⟩
  | 75 => ⟨S50000x128, .i1⟩
  | 76 => ⟨S_, .f32⟩
  | 77 => ⟨S50000x128, .f32⟩
  | 78 => ⟨S50000x128, .f32⟩
  | 79 => ⟨S50000x128, .f32⟩
  | 80 => ⟨S50000x128, .f32⟩
  | 81 => ⟨S_, .f32⟩
  | 82 => ⟨S50000, .f32⟩
  | 83 => ⟨S50000x1, .f32⟩
  | 84 => ⟨S50000x1, .f32⟩
  | 85 => ⟨S_, .f32⟩
  | 86 => ⟨S50000x1, .f32⟩
  | 87 => ⟨S50000x1, .f32⟩
  | 88 => ⟨S50000x128, .f32⟩
  | 89 => ⟨S50000x128, .f32⟩
  | 90 => ⟨S_, .i32⟩
  | 91 => ⟨S1650000, .i32⟩
  | 92 => ⟨S1650000, .i1⟩
  | 93 => ⟨S_, .i32⟩
  | 94 => ⟨S1650000, .i32⟩
  | 95 => ⟨S1650000, .i32⟩
  | 96 => ⟨S1650000, .i32⟩
  | 97 => ⟨S1650000x1, .i32⟩
  | 98 => ⟨S1650000x128, .f32⟩
  | 99 => ⟨S_, .f32⟩
  | 100 => ⟨S50000x128, .f32⟩
  | 101 => ⟨S1650000x1, .i32⟩
  | 102 => ⟨S50000x128, .f32⟩
  | 103 => ⟨S_, .f32⟩
  | 104 => ⟨S1650000, .f32⟩
  | 105 => ⟨S_, .f32⟩
  | 106 => ⟨S50000, .f32⟩
  | 107 => ⟨S1650000x1, .i32⟩
  | 108 => ⟨S50000, .f32⟩
  | 109 => ⟨S50000x128, .f32⟩
  | 110 => ⟨S_, .f32⟩
  | 111 => ⟨S50000, .f32⟩
  | 112 => ⟨S50000, .f32⟩
  | 113 => ⟨S_, .f32⟩
  | 114 => ⟨S50000, .f32⟩
  | 115 => ⟨S50000, .f32⟩
  | 116 => ⟨S50000x1, .f32⟩
  | 117 => ⟨S50000x128, .f32⟩
  | 118 => ⟨S50000x128, .f32⟩
  | 119 => ⟨S50000x256, .f32⟩
  | 120 => ⟨S256x128, .f32⟩
  | 121 => ⟨S50000x128, .f32⟩
  | 122 => ⟨S1x128, .f32⟩
  | 123 => ⟨S50000x128, .f32⟩
  | 124 => ⟨S50000x128, .f32⟩
  | 125 => ⟨S50000x128, .f32⟩
  | 126 => ⟨S_, .f32⟩
  | 127 => ⟨S50000, .f32⟩
  | _ => ⟨S50001x128, .f32⟩

abbrev hbmTy0_1 (i : Nat) : BufTy := match i % 128 with
  | 0 => ⟨S50000x1, .f32⟩
  | 1 => ⟨S50000x1, .f32⟩
  | 2 => ⟨S_, .f32⟩
  | 3 => ⟨S50000x1, .f32⟩
  | 4 => ⟨S50000x1, .f32⟩
  | 5 => ⟨S50000x128, .f32⟩
  | 6 => ⟨S50000x128, .f32⟩
  | _ => ⟨S50001x128, .f32⟩

abbrev hbmTy (i : Nat) : BufTy := match i / 128 with
  | 0 => hbmTy0_0 i
  | 1 => hbmTy0_1 i
  | _ => ⟨S50001x128, .f32⟩

abbrev bufTy : (tb : Table) → Fin (tcTables nBuf tb) → BufTy
  | .hbm, ⟨i, _⟩ => hbmTy i
  | _, _ => ⟨S50001x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_c_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_call0_cst : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v15 : Ref sig .tc := ⟨.hbm, 35, rfl⟩
abbrev main_v16 : Ref sig .tc := ⟨.hbm, 36, rfl⟩
abbrev main_c_2 : Ref sig .tc := ⟨.hbm, 37, rfl⟩
abbrev main_v17 : Ref sig .tc := ⟨.hbm, 38, rfl⟩
abbrev main_v18 : Ref sig .tc := ⟨.hbm, 39, rfl⟩
abbrev main_c_3 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_4 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_5 : Ref sig .tc := ⟨.hbm, 50, rfl⟩
abbrev main_v27 : Ref sig .tc := ⟨.hbm, 51, rfl⟩
abbrev main_cst_6 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_7 : Ref sig .tc := ⟨.hbm, 57, rfl⟩
abbrev main_v32 : Ref sig .tc := ⟨.hbm, 58, rfl⟩
abbrev main_v33 : Ref sig .tc := ⟨.hbm, 59, rfl⟩
abbrev main_cst_8 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_9 : Ref sig .tc := ⟨.hbm, 72, rfl⟩
abbrev main_call1_cst : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_call1_v3 : Ref sig .tc := ⟨.hbm, 77, rfl⟩
abbrev main_call1_v4 : Ref sig .tc := ⟨.hbm, 78, rfl⟩
abbrev main_v45 : Ref sig .tc := ⟨.hbm, 79, rfl⟩
abbrev main_call2_v0 : Ref sig .tc := ⟨.hbm, 80, rfl⟩
abbrev main_call2_cst : Ref sig .tc := ⟨.hbm, 81, rfl⟩
abbrev main_call2_v1 : Ref sig .tc := ⟨.hbm, 82, rfl⟩
abbrev main_call2_v2 : Ref sig .tc := ⟨.hbm, 83, rfl⟩
abbrev main_v46 : Ref sig .tc := ⟨.hbm, 84, rfl⟩
abbrev main_cst_10 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_c_11 : Ref sig .tc := ⟨.hbm, 90, rfl⟩
abbrev main_v51 : Ref sig .tc := ⟨.hbm, 91, rfl⟩
abbrev main_v52 : Ref sig .tc := ⟨.hbm, 92, rfl⟩
abbrev main_c_12 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_cst_13 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_cst_14 : Ref sig .tc := ⟨.hbm, 103, rfl⟩
abbrev main_v61 : Ref sig .tc := ⟨.hbm, 104, rfl⟩
abbrev main_cst_15 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_cst_16 : Ref sig .tc := ⟨.hbm, 110, rfl⟩
abbrev main_v66 : Ref sig .tc := ⟨.hbm, 111, rfl⟩
abbrev main_v67 : Ref sig .tc := ⟨.hbm, 112, rfl⟩
abbrev main_cst_17 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_call3_v0 : Ref sig .tc := ⟨.hbm, 125, rfl⟩
abbrev main_call3_cst : Ref sig .tc := ⟨.hbm, 126, rfl⟩
abbrev main_call3_v1 : Ref sig .tc := ⟨.hbm, 127, rfl⟩
abbrev main_call3_v2 : Ref sig .tc := ⟨.hbm, 128, rfl⟩
abbrev main_v79 : Ref sig .tc := ⟨.hbm, 129, rfl⟩
abbrev main_cst_18 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  transposes_S128x300_S300x128_1_0 : S128x300.Transposes [1, 0] S300x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S_S1650000 : S_.BroadcastsInDim S1650000 (![] : Fin 0 → Fin S1650000.rank)
  bcast_S1650000_S1650000x1_0 : S1650000.BroadcastsInDim S1650000x1 (![0] : Fin 1 → Fin S1650000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  transposes_S128x256_S256x128_1_0 : S128x256.Transposes [1, 0] S256x128
  reducesTo_S50000x128_S50000_d1 : S50000x128.ReducesTo [1] S50000
  h_S_ : 0 < S_.numel
  bcast_S_S50000x1 : S_.BroadcastsInDim S50000x1 (![] : Fin 0 → Fin S50000x1.rank)
  gather_S50001x128_S50000x1_S50000x128_1_0_n_n_0_1_1128_wf : GatherDims.WF S50001x128 S50000x1 S50000x128 [1] [0] [] [0] [] 1 ![1, 128]
  dot_S50000x300_S300x128_S50000x128_1_0_0_1_n_n_wf : DotDims.WF S50000x300 S300x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  scatter_S50000_S1650000x1_S1650000_n_0_0_1_wf : ScatterDims.WF S50000 S1650000x1 S1650000 [] [0] [0] 1
  dot_S50000x256_S256x128_S50000x128_1_0_0_1_n_n_wf : DotDims.WF S50000x256 S256x128 S50000x128 [1] [0] [0] [1] [] []

variable [Facts₀]

def gather_S50001x128_S50000x1_S50000x128_1_0_n_n_0_1_1128 : GatherDims S50001x128 S50000x1 S50000x128 where
  offsetDims := [1]
  collapsedSliceDims := [0]
  operandBatchingDims := []
  startIndicesBatchingDims := []
  startIndexMap := [0]
  indexVectorDim := 1
  sliceSizes := ![1, 128]
  wf := gather_S50001x128_S50000x1_S50000x128_1_0_n_n_0_1_1128_wf
def dot_S50000x300_S300x128_S50000x128_1_0_0_1_n_n : DotDims S50000x300 S300x128 S50000x128 where
  lhsContracting := [1]
  rhsContracting := [0]
  lhsNonContracting := [0]
  rhsNonContracting := [1]
  lhsBatch := []
  rhsBatch := []
  wf := dot_S50000x300_S300x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.Spec.lean ====
/-
  The mathematics both programs compute, stated once over the extended reals, index by index.

  A node's first features are its embedding row plus the leaky-rectified content projection
  (`mixK`). One graph-convolution layer (`sageK`) takes a node's features `h`, the sum `hagg` of
  `h` over the node's in-edges (self-loop included) and the in-degree column `wcol`; it forms the
  mean over the other in-neighbours, `(hagg - h) / max (wcol - 1) 1`, applies the two halves
  `w1`, `w2` of the layer's weight and the bias, optionally the leaky rectifier, and divides the row
  by its Euclidean norm (at least the small constant). Every entry of row `p` of the result depends
  on row `p` of `h`, `hagg`, `wcol` only: that is why a block of rows can be computed from the
  same block of the inputs (`mixK_rows`, `sageK_rows`), with the row count a parameter.
-/
import Idealize.ShloMosaic.PureOps.Ideal
import Idealize.ShloMosaic.Lib.ValueIdx

noncomputable section

open scoped BigOperators

namespace Cert.Spec

open Idealize.ShloMosaic Idealize.ShloMosaic.ValueIdx

/-- A matrix of extended reals, `r` rows and `c` columns. -/
abbrev Mat (r c : Nat) : Type := FVec Ideal ⟨2, ![r, c]⟩ .f32
/-- A vector of extended reals. -/
abbrev Vct (n : Nat) : Type := FVec Ideal ⟨1, ![n]⟩ .f32

/-- The float zero. -/
abbrev zeroF : EReal := Ideal.ofBits .f32 0x00000000#32
/-- The float one. -/
abbrev oneF : EReal := Ideal.ofBits .f32 0x3F800000#32
/-- The rectifier's slope: the float nearest one tenth. -/
abbrev slopeF : EReal := Ideal.ofBits .f32 0x3DCCCCCD#32
/-- The norm's floor: the float nearest one millionth. -/
abbrev epsF : EReal := Ideal.ofBits .f32 0x358637BD#32

/-- The leaky rectifier: `x` where `0 < x`, the slope times `x` elsewhere. -/
def lrelu (x : EReal) : EReal := Scalar.select (Ideal.cmp .ogt x zeroF) x (slopeF * x)

/-- Entry `(p, q)` of the mixed embedding of `n` nodes: the embedding row plus the rectified projection
    `content · wt + b` (`wt` the projection with the content axis first). -/
def mixK (n : Nat) (content : Mat n 300) (emb : Mat n 128) (wt : Mat 300 128) (b : Vct 128) (p : Fin n) (q : Fin 128) : EReal :=
  emb (ix2 p q) + lrelu ((∑ k : Fin 300, content (ix2 p k) * wt (ix2 k q)) + b (ix1 q))

/-- The mean over the other in-neighbours: entry `(p, k)`. -/
def nbrMean (n : Nat) (h hagg : Mat n 128) (wcol : Mat n 1) (p : Fin n) (k : Fin 128) : EReal :=
  Ideal.div (hagg (ix2 p k) - h (ix2 p k)) (max (wcol (ix2 p (0 : Fin 1)) - oneF) oneF)

/-- A layer's linear part at entry `(p, q)`: own features through `w1`, neighbours' mean through `w2`, plus the bias. -/
def sageLin (n : Nat) (h hagg : Mat n 128) (wcol : Mat n 1) (w1 w2 : Mat 128 128) (b : Vct 128) (p : Fin n) (q : Fin 128) : EReal :=
  ((∑ k : Fin 128, h (ix2 p k) * w1 (ix2 k q)) + (∑ k : Fin 128, nbrMean n h hagg wcol p k * w2 (ix2 k q))) + b (ix1 q)

/-- The linear part, rectified when the layer has an activation. -/
def sageAct (act : Bool) (n : Nat) (h hagg : Mat n 128) (wcol : Mat n 1) (w1 w2 : Mat 128 128) (b : Vct 128) (p : Fin n) (q : Fin 128) : EReal :=
  if act then lrelu (sageLin n h hagg wcol w1 w2 b p q) else sageLin n h hagg wcol w1 w2 b p q

/-- Entry `(p, q)` of a layer's result: the row of `sageAct` divided by its norm, floored. -/
def sageK (act : Bool) (n : Nat) (h hagg : Mat n 128) (wcol : Mat n 1) (w1 w2 : Mat 128 128) (b : Vct 128) (p : Fin n) (q : Fin 128) : EReal :=
  Ideal.div (sageAct act n h hagg wcol w1 w2 b p q)
    (max (Ideal.sqrt (∑ j : Fin 128, sageAct act n h hagg wcol w1 w2 b p j * sageAct act n h hagg wcol w1 w2 b p j)) epsF)

/-- Row `p` of the mixed embedding depends on row `p` of the content and of the embedding only. -/
theorem mixK_rows {n n' : Nat} (content : Mat n 300) (emb : Mat n 128) (content' : Mat n' 300) (emb' : Mat n' 128)
    (wt : Mat 300 128) (b : Vct 128) (p : Fin n) (p' : Fin n') (q : Fin 128)
    (hc : ∀ k : Fin 300, content (ix2 p k) = content' (ix2 p' k)) (he : ∀ k : Fin 128, emb (ix2 p k) = emb' (ix2 p' k)) :
    mixK n content emb wt b p q = mixK n' content' emb' wt b p' q := by
  unfold mixK
  rw [he q]
  simp only [hc]

/-- Row `p` of a layer's result depends on row `p` of the three per-node inputs only. -/
theorem sageK_rows (act : Bool) {n n' : Nat} (h hagg : Mat n 128) (wcol : Mat n 1) (h' hagg' : Mat n' 128) (wcol' : Mat n' 1)
    (w1 w2 : Mat 128 128) (b : Vct 128) (p : Fin n) (p' : Fin n') (q : Fin 128)
    (hh : ∀ k : Fin 128, h (ix2 p k) = h' (ix2 p' k)) (ha : ∀ k : Fin 128, hagg (ix2 p k) = hagg' (ix2 p' k))
    (hw : wcol (ix2 p (0 : Fin 1)) = wcol' (ix2 p' (0 : Fin 1))) :
    sageK act n h hagg wcol w1 w2 b p q = sageK act n' h' hagg' wcol' w1 w2 b p' q := by
  have hm : ∀ k, nbrMean n h hagg wcol p k = nbrMean n' h' hagg' wcol' p' k := fun k => by
    unfold nbrMean; rw [hh k, ha k, hw]
  have hl : ∀ j, sageLin n h hagg wcol w1 w2 b p j = sageLin n' h' hagg' wcol' w1 w2 b p' j := fun j => by
    unfold sageLin; simp only [hh, hm]
  have hs : ∀ j, sageAct act n h hagg wcol w1 w2 b p j = sageAct act n' h' hagg' wcol' w1 w2 b p' j := fun j => by
    unfold sageAct; rw [hl j]
  unfold sageK
  simp only [hs]

/-! ## The whole computation

The edge aggregation `agg` (gather the source rows, add them up at the destination rows), the in-degree
vector `deg` and the three transposed weights are the same host terms in both programs: the model takes
them as parameters and never looks inside. -/

/-- The first features of all nodes: node `p`'s embedding is row `p + 1` of the table. -/
def first (emb : Mat 50001 128) (content : Mat 50000 300) (wt0 : Mat 300 128) (pb : Vct 128) : Mat 50000 128 :=
  fun i => mixK 50000 content (fun j => emb (ix2 (⟨(j 0).val + 1, by have := idx2_lt0 j; omega⟩ : Fin 50001) (j 1))) wt0 pb (i 0) (i 1)

/-- One layer over all nodes: `wt` is the layer's weight with the input axis first, its first 128 rows acting on
    the node's own features and its last 128 on the neighbours' mean. -/
def layer (act : Bool) (agg : Mat 50000 128 → Mat 50000 128) (deg : Vct 50000) (wt : Mat 256 128) (b : Vct 128)
    (h : Mat 50000 128) : Mat 50000 128 :=
  fun i => sageK act 50000 h (agg h) (fun j => deg (ix1 (j 0)))
    (fun j => wt (ix2 (⟨(j 0).val, by have := idx2_lt0 j; omega⟩ : Fin 256) (j 1)))
    (fun j => wt (ix2 (⟨128 + (j 0).val, by have := idx2_lt0 j; omega⟩ : Fin 256) (j 1))) b (i 0) (i 1)

/-- The network: the mixed embedding, a rectified layer, a linear layer. -/
def model (agg : Mat 50000 128 → Mat 50000 128) (deg : Vct 50000) (wt0 : Mat 300 128) (wt1 wt2 : Mat 256 128)
    (emb : Mat 50001 128) (content : Mat 50000 300) (pb b1 b2 : Vct 128) : Mat 50000 128 :=
  layer false agg deg wt2 b2 (layer true agg deg wt1 b1 (first emb content wt0 pb))

end Cert.Spec

end
-- ==== Proof.KernelTerms.lean ====
/-
  The kernel program's host terms, named: what the host operations between the three kernel launches
  compute (the embedding rows 1 … 50000, the transposed weights and their halves, the normalised edge
  sources, the edge aggregation, the in-degree as a column), and the result of the three launches as
  the specification's functions of those terms.
-/
import proofs.«156878_j35648228556867_1_alg».proof.Proof.Gen.KernelIdeal
import proofs.«156878_j35648228556867_1_alg».proof.Proof.Spec

noncomputable section

namespace Cert.KernelIdeal.Terms

open Cert.KernelIdeal Cert.KernelIdeal.Facts₀ Idealize.ShloMosaic

variable {F : FTy → Type} [FloatOps F]

/-- Contents of a float array of shape `s`. -/
abbrev FArr (s : Shape) : Type := (⟨s, .f32⟩ : BufTy).Contents (Elt F)
/-- Contents of a 32-bit integer array of shape `s`. -/
abbrev IArr (s : Shape) : Type := (⟨s, .i32⟩ : BufTy).Contents (Elt F)

/-- jnp's index normalisation of the edge sources (a negative index counts from the end), as a column. -/
def srcIdx (src : IArr (F := F) S1650000) : IArr (F := F) S1650000x1 :=
  broadcastInDim S1650000x1 ![0] bcast_S1650000_S1650000x1_0
    (select (cmpi .slt src (broadcastInDim S1650000 ![] bcast_S_S1650000 (constantI S_ 32 0#32)))
      (addi src (broadcastInDim S1650000 ![] bcast_S_S1650000 (constantI S_ 32 50000#32))) src)

/-- The edge aggregation: the source rows gathered, added up at the destination rows. -/
def agg (src dst : IArr (F := F) S1650000) (h : FArr (F := F) S50000x128) : FArr (F := F) S50000x128 :=
  Host.scatterAdd scatter_S50000x128_S1650000x1_S1650000x128_1_0_0_1
    (broadcastInDim S50000x128 ![] bcast_S_S50000x128 (constant S_ .f32 0x00000000#32))
    (broadcastInDim S1650000x1 ![0] bcast_S1650000_S1650000x1_0 dst)
    (Host.gather gather_S50000x128_S1650000x1_S1650000x128_1_0_n_n_0_1_1128 h (srcIdx src))

/-- The in-degree of every node: a one per edge, added up at the destination. -/
def deg (dst : IArr (F := F) S1650000) : FArr (F := F) S50000 :=
  Host.scatterAdd scatter_S50000_S1650000x1_S1650000_n_0_0_1
    (broadcastInDim S50000 ![] bcast_S_S50000 (constant S_ .f32 0x00000000#32))
    (broadcastInDim S1650000x1 ![0] bcast_S1650000_S1650000x1_0 dst)
    (broadcastInDim S1650000 ![] bcast_S_S1650000 (constant S_ .f32 0x3F800000#32))

/-- The in-degree as a column. -/
def wcol (dst : IArr (F := F) S1650000) : FArr (F := F) S50000x1 := shapeCast S50000x1 (deg dst) shapeCasts_S50000_S50000x1

/-- The projection with the content axis first. -/
def wt0 (w : FArr (F := F) S128x300) : FArr (F := F) S300x128 := transpose S300x128 [1, 0] w transposes_S128x300_S300x128_1_0
/-- A layer's weight with the input axis first. -/
def wt (w : FArr (F := F) S128x256) : FArr (F := F) S256x128 := transpose S256x128 [1, 0] w transposes_S128x256_S256x128_1_0
/-- Its first 128 rows: the part acting on a node's own features. -/
def w1p (w : FArr (F := F) S128x256) : FArr (F := F) S128x128 := extractStridedSlice S128x128 ![0, 0] (wt w) slices_S256x128_S128x128_0_0
/-- Its last 128 rows: the part acting on the neighbours' mean. -/
def w2p (w : FArr (F := F) S128x256) : FArr (F := F) S128x128 := extractStridedSlice S128x128 ![128, 0] (wt w) slices_S256x128_S128x128_128_0
/-- Rows 1 … 50000 of the embedding table. -/
def emb1 (emb : FArr (F := F) S50001x128) : FArr (F := F) S50000x128 := extractStridedSlice S50000x128 ![1, 0] emb slices_S50001x128_S50000x128_1_0

/-! At the ideal instance: the three launches' results. -/

/-- What the first launch leaves: the mixed embedding of every node. -/
def kFirst (emb : FArr (F := Ideal) S50001x128) (content : FArr (F := Ideal) S50000x300) (pw : FArr (F := Ideal) S128x300)
    (pb : FArr (F := Ideal) S128) : FArr (F := Ideal) S50000x128 :=
  fun i => Cert.Spec.mixK 50000 content (emb1 emb) (wt0 pw) pb (i 0) (i 1)

/-- What a layer's launch leaves, from the features `h` it is given. -/
def kLayer (act : Bool) (src dst : IArr (F := Ideal) S1650000) (w : FArr (F := Ideal) S128x256) (b : FArr (F := Ideal) S128)
    (h : FArr (F := Ideal) S50000x128) : FArr (F := Ideal) S50000x128 :=
  fun i => Cert.Spec.sageK act 50000 h (agg src dst h) (wcol dst) (w1p w) (w2p w) b (i 0) (i 1)

/-- The program's result as one term of its arguments. -/
def kOut (emb : FArr (F := Ideal) S50001x128) (content : FArr (F := Ideal) S50000x300) (pw : FArr (F := Ideal) S128x300)
    (pb : FArr (F := Ideal) S128) (w1 : FArr (F := Ideal) S128x256) (b1 : FArr (F := Ideal) S128) (w2 : FArr (F := Ideal) S128x256)
    (b2 : FArr (F := Ideal) S128) (src dst : IArr (F := Ideal) S1650000) : FArr (F := Ideal) S50000x128 :=
  kLayer false src dst w2 b2 (kLayer true src dst w1 b1 (kFirst emb content pw pb))

end Cert.KernelIdeal.Terms

end
-- ==== Proof.MixBlock.lean ====
/-
  The first launch, read as a value: 25 grid points, point `t` computing rows `2000 t … 2000 t + 1999` of the
  mixed embedding from the same rows of the content and of the embedding rows and the whole projection and
  bias. The array the launch leaves is the specification's `mixK` of the arrays the launch finds.

  Three steps. One entry of what a point stores is `mixK` at row count 2000 over the point's four blocks: the
  block product into a zero accumulator is the sum over the 300 contracted positions, the bias is one row repeated,
  the rectifier is the specification's, the format changes are the identity. A block's entry `(r, k)` is the
  array's entry `(2000 t + r, k)` (the projection and the bias are their one whole block), and `mixK` at a row
  depends on that row only, so the point stores block `t` of `mixK` over the whole arrays. The 25 blocks tile
  the 50000 rows, so the array ends as that one function.
-/
import proofs.«156878_j35648228556867_1_alg».proof.Proof.Gen.KernelIdeal.Frame
import proofs.«156878_j35648228556867_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Blocks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen
open Idealize.ShloMosaic.ValueIdx
open scoped BigOperators

-- the buffer contents a region is entered with: a parameter
variable (V : (c : Dev nD) → (b : Ref sig .tc) → Buf (Elt Ideal) ((c : Thread nD τ).loc b))

namespace Mix

/-! ## One entry of what a grid point computes -/

/-- The block product at an entry: row `r` of the left block against column `q` of the right block, summed
    over the 300 contracted positions. -/
theorem blockProduct_apply (lhs : FVec Ideal S2000x300 .bf16) (rhs : FVec Ideal S300x128 .bf16) (r : Fin 2000) (q : Fin 128) :
    FloatOps.matmul dot_S2000x300_S300x128_S2000x128_1_0_0_1_n_n none lhs rhs (constant (F := Ideal) S2000x128 .f32 0x00000000#32) (ix2 r q)
      = ∑ k : Fin 300, lhs (ix2 r k) * rhs (ix2 k q) := by
  rw [Ideal.matmul_constant_zero_apply,
    ← Equiv.sum_comp (contrEquiv1 dot_S2000x300_S300x128_S2000x128_1_0_0_1_n_n 300 rfl rfl).symm]
  refine Finset.sum_congr rfl fun k _ => ?_
  have ck := contrEquiv1_symm_val dot_S2000x300_S300x128_S2000x128_1_0_0_1_n_n 300 rfl rfl k
  have hl : dot_S2000x300_S300x128_S2000x128_1_0_0_1_n_n.lhsIdx (ix2 r q) ((contrEquiv1 _ 300 rfl rfl).symm k) = ix2 r k := by
    funext ax; apply Fin.ext
    match ax with
    | ⟨0, _⟩ => simp [DotDims.lhsIdx, dot_S2000x300_S300x128_S2000x128_1_0_0_1_n_n]; rfl
    | ⟨1, _⟩ => simp [DotDims.lhsIdx, dot_S2000x300_S300x128_S2000x128_1_0_0_1_n_n]; exact ck
  have hr : dot_S2000x300_S300x128_S2000x128_1_0_0_1_n_n.rhsIdx (ix2 r q) ((contrEquiv1 _ 300 rfl rfl).symm k) = ix2 k q := by
    funext ax; apply Fin.ext
    match ax with
    | ⟨0, _⟩ => simp [DotDims.rhsIdx, dot_S2000x300_S300x128_S2000x128_1_0_0_1_n_n]; exact ck
    | ⟨1, _⟩ => simp [DotDims.rhsIdx, dot_S2000x300_S300x128_S2000x128_1_0_0_1_n_n]; rfl
  rw [hl, hr]

/-- The bias, laid out as one row and repeated down the 2000 rows, reads at `(r, q)` its entry `q`. -/
theorem biasRows_apply (b : FVec Ideal S128 .f32) (r : Fin 2000) (q : Fin 128) :
    broadcastTo S2000x128 (shapeCast S1x128 b shapeCasts_S128_S1x128) broadcasts_S1x128_S2000x128 (ix2 r q) = b (ix1 q) := by
  rw [broadcastTo_1b_ab_apply, shapeCast_a_1a_apply]

/-- What a grid point stores, at entry `(r, q)` of its block: the mixed embedding of the point's 2000 rows, from
    the content block, the embedding block, the projection and the bias. The rectifier's comparison and slope
    are the specification's by unfolding; the format changes around the product are the identity. -/
theorem payload_apply (content : FVec Ideal S2000x300 .f32) (wt : FVec Ideal S300x128 .f32) (b : FVec Ideal S128 .f32)
    (emb : FVec Ideal S2000x128 .f32) (r : Fin 2000) (q : Fin 128) :
    k0_pay1 (F := Ideal) content wt b emb (ix2 r q) = Cert.Spec.mixK 2000 content emb wt b r q := by
  have hP : FloatOps.matmul dot_S2000x300_S300x128_S2000x128_1_0_0_1_n_n none (truncf .bf16 content bitsLt_bf16_f32)
      (truncf .bf16 (shapeCast S300x128 wt shapeCasts_S300x128_S300x128) bitsLt_bf16_f32)
      (constant (F := Ideal) S2000x128 .f32 0x00000000#32) (ix2 r q) = ∑ k : Fin 300, content (ix2 r k) * wt (ix2 k q) := by
    rw [blockProduct_apply, shapeCast_self]
    rfl
  have hB := biasRows_apply b r q
  have hE : shapeCast S2000x128 emb shapeCasts_S2000x128_S2000x128 (ix2 r q) = emb (ix2 r q) := by
    rw [shapeCast_self]
  unfold Cert.Spec.mixK Cert.Spec.lrelu
  rw [← hP, ← hB, ← hE]
  rfl

/-! ## The blocks a grid point reads, as rows of the arrays -/

theorem zeros2 : (![0, 0] : Fin 2 → Nat) = fun _ => 0 := funext fun a => by fin_cases a <;> rfl
theorem zeros1 : (![0] : Fin 1 → Nat) = fun _ => 0 := funext fun a => by fin_cases a; rfl

/-- The printed index maps, decided once over the 25 grid points: the content, embedding and result windows
    take block `t` of the rows and the whole width; the projection and the bias are one block, the whole array. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

/-- Row `r` of grid point `t`'s block is row `2000 t + r` of the array. -/
def rowAt (t : Fin cfg0.N) (r : Fin 2000) : Fin 50000 :=
  ⟨2000 * t.val + r.val, by have h : t.val < 25 := lt_of_lt_of_eq t.isLt N_0; omega⟩

/-- The content block at point `t`: rows `2000 t …` of the content array. -/
theorem contentBlock_apply (c : Dev nD) (t : Fin cfg0.N) (r : Fin 2000) (k : Fin 300) :
    (iblk0 (F := Ideal) V c 0 t : FVec Ideal S2000x300 .f32) (ix2 r k)
      = (V c main_arg1 : FVec Ideal S50000x300 .f32) (ix2 (rowAt t r) k) := by
  obtain ⟨e0, e1, -⟩ := index_facts t
  unfold iblk0
  rw [View.read_apply]
  show V c main_arg1 (((cfg0.win 0).blk t).view.emb (ix2 r k)) = V c main_arg1 (ix2 (rowAt t r) k)
  refine congrArg (V c main_arg1) ?_
  funext a; apply Fin.ext
  match a with
  | ⟨0, _⟩ => show win0_0.index t (0 : Fin 2) * 2000 + 1 * r.val = 2000 * t.val + r.val; rw [e0]; omega
  | ⟨1, _⟩ => show win0_0.index t (1 : Fin 2) * 300 + 1 * k.val = k.val; rw [e1]; omega

/-- The embedding block at point `t`: rows `2000 t …` of the embedding rows. -/
theorem embBlock_apply (c : Dev nD) (t : Fin cfg0.N) (r : Fin 2000) (k : Fin 128) :
    (iblk0 (F := Ideal) V c 1 t : FVec Ideal S2000x128 .f32) (ix2 r k)
      = (V c main_v0 : FVec Ideal S50000x128 .f32) (ix2 (rowAt t r) k) := by
  obtain ⟨-, -, e0, e1, -⟩ := index_facts t
  unfold iblk0
  rw [View.read_apply]
  show V c main_v0 (((cfg0.win 1).blk t).view.emb (ix2 r k)) = V c main_v0 (ix2 (rowAt t r) k)
  refine congrArg (V c main_v0) ?_
  funext a; apply Fin.ext
  match a with
  | ⟨0, _⟩ => show win0_1.index t (0 : Fin 2) * 2000 + 1 * r.val = 2000 * t.val + r.val; rw [e0]; omega
  | ⟨1, _⟩ => show win0_1.index t (1 : Fin 2) * 128 + 1 * k.val = k.val; rw [e1]; omega

/-- The projection's one block is the whole projection, at every point. -/
theorem projBlock_eq (c : Dev nD) (t : Fin cfg0.N) :
    (iblk0 (F := Ideal) V c 2 t : FVec Ideal S300x128 .f32) = (V c main_v1 : FVec Ideal S300x128 .f32) := by
  obtain ⟨-, -, -, -, e0, e1, -⟩ := index_facts t
  funext j
  unfold iblk0
  rw [View.read_apply]
  show V c main_v1 (((cfg0.win 2).blk t).view.emb j) = V c main_v1 j
  refine congrArg (V c main_v1) ?_
  funext a; apply Fin.ext
  match a with
  | ⟨0, _⟩ => show win0_2.index t (0 : Fin 2) * 300 + 1 * (j 0).val = (j 0).val; rw [e0]; omega
  | ⟨1, _⟩ => show win0_2.index t (1 : Fin 2) * 128 + 1 * (j 1).val = (j 1).val; rw [e1]; omega

/-- The bias's one block is the whole bias, at every point. -/
theorem biasBlock_eq (c : Dev nD) (t : Fin cfg0.N) :
    (iblk0 (F := Ideal) V c 3 t : FVec Ideal S128 .f32) = (V c main_arg3 : FVec Ideal S128 .f32) := by
  obtain ⟨-, -, -, -, -, -, e0, -⟩ := index_facts t
  funext j
  unfold iblk0
  rw [View.read_apply]
  show V c main_arg3 (((cfg0.win 3).blk t).view.emb j) = V c main_arg3 j
  refine congrArg (V c main_arg3) ?_
  funext a; apply Fin.ext
  match a with
  | ⟨0, _⟩ => show win0_3.index t (0 : Fin 1) * 128 + 1 * (j 0).val = (j 0).val; rw [e0]; omega

/-- Entry `(r, q)` of the result window's block at point `t` sits at `(2000 t + r, q)` of the result array. -/
theorem resultBlock_emb (t : Fin cfg0.N) (r : Fin 2000) (q : Fin 128) :
    ((cfg0.win 4).blk t).view.emb (ix2 r q) = (ix2 (rowAt t r) q : S50000x128.Idx) := by
  obtain ⟨-, -, -, -, -, -, -, e0, e1⟩ := index_facts t
  funext a; apply Fin.ext
  match a with
  | ⟨0, _⟩ => show win0_4.index t (0 : Fin 2) * 2000 + 1 * r.val = 2000 * t.val + r.val; rw [e0]; omega
  | ⟨1, _⟩ => show win0_4.index t (1 : Fin 2) * 128 + 1 * q.val = q.val; rw [e1]; omega

/-! ## What a grid point writes back, and the array the launch leaves -/

/-- Point `t` writes back block `t` of the mixed embedding of the arrays the launch was entered with: each entry
    of the point's result is the specification's entry at row count 2000 over the point's blocks, and the
    specification's entry depends on its own row of the content and of the embedding only. -/
theorem flushed_eq (c : Dev nD) (t : Fin cfg0.N) :
    (dat0 (F := Ideal) V c).flushed 4 t = ((cfg0.win 4).blk t).view.read (Elt Ideal)
      (fun i : S50000x128.Idx => Cert.Spec.mixK 50000 (V c main_arg1) (V c main_v0) (V c main_v1) (V c main_arg3) (i 0) (i 1)) := by
  show (cfg0.win 4).cut (grid0.coords t) ((dat0 V c).after 4 t) = _
  rw [after0_4]
  unfold out0_4
  rw [View.canon_unit_zero zeros2]
  simp only [View.ld_unit_zero (S := S2000x300) zeros2, View.ld_unit_zero (S := S300x128) zeros2,
    View.ld_unit_zero (S := S128) zeros1, View.ld_unit_zero (S := S2000x128) zeros2]
  funext j
  obtain ⟨r, q, rfl⟩ : ∃ (r : Fin 2000) (q : Fin 128), j = ix2 r q := ⟨j 0, j 1, eq_ix2 j⟩
  rw [View.read_apply, resultBlock_emb t r q]
  show k0_pay1 (F := Ideal) (iblk0 V c 0 t) (iblk0 V c 2 t) (iblk0 V c 3 t) (iblk0 V c 1 t) (ix2 r q)
    = Cert.Spec.mixK 50000 (V c main_arg1) (V c main_v0) (V c main_v1) (V c main_arg3) (rowAt t r) q
  refine (payload_apply (iblk0 (F := Ideal) V c 0 t) (iblk0 (F := Ideal) V c 2 t) (iblk0 (F := Ideal) V c 3 t)
    (iblk0 (F := Ideal) V c 1 t) r q).trans ?_
  rw [projBlock_eq V c t, biasBlock_eq V c t]
  exact Cert.Spec.mixK_rows _ _ _ _ _ _ r (rowAt t r) q (fun k => contentBlock_apply V c t r k)
    (fun k => embBlock_apply V c t r k)

/-- An index of the result array is in point `t`'s block iff each coordinate is in the block's range on its axis. -/
theorem mem_resultBlock (t : Fin cfg0.N) (i : S50000x128.Idx) :
    i ∈ ((cfg0.win 4).blk t).view.set ↔ ∀ a : Fin 2, win0_4.index t a * S2000x128.size a ≤ (i a).val
      ∧ (i a).val < win0_4.index t a * S2000x128.size a + S2000x128.size a := by
  show i ∈ ((View.whole main_v2).slice (win0_4.rect t)).set ↔ _
  rw [View.set_slice_whole, Rect.mem_set_unit]
  exact Iff.rfl

/-- The 25 blocks of 2000 rows tile the 50000 rows: row `i` lies in the block of point `i / 2000`. -/
theorem covered (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  obtain ⟨-, -, -, -, -, -, -, e0, e1⟩ := index_facts t
  have ht : t.val = (i 0).val / 2000 := rfl
  refine ⟨t, flush0_4 t, ?_⟩
  rw [mem_resultBlock]
  intro a
  match a with
  | ⟨0, _⟩ =>
    show win0_4.index t (0 : Fin 2) * 2000 ≤ (i 0).val ∧ (i 0).val < win0_4.index t (0 : Fin 2) * 2000 + 2000
    rw [e0, ht]; omega
  | ⟨1, _⟩ =>
    show win0_4.index t (1 : Fin 2) * 128 ≤ (i 1).val ∧ (i 1).val < win0_4.index t (1 : Fin 2) * 128 + 128
    rw [e1]; omega

end Mix

/-- After the first launch its result array holds the mixed embedding of the arrays it was entered with. -/
theorem final0 (c : Dev nD) :
    (dat0 (F := Ideal) V c).arrAt 4 cfg0.N
      = (fun i : S50000x128.Idx => Cert.Spec.mixK 50000 (V c main_arg1) (V c main_v0) (V c main_v1) (V c main_arg3) (i 0) (i 1)) :=
  (dat0 (F := Ideal) V c).arrAt_eq_of_cover 4 _ (fun t _ => Mix.flushed_eq V c t) Mix.covered

end Cert.KernelIdeal.Blocks

end
-- ==== Proof.SageBlock.lean ====
/-
  The second and third launches, read as values: 25 grid points each, point `t` computing rows
  `2000 t … 2000 t + 1999` of a layer's result from the same rows of the features, of the aggregated features
  and of the in-degree column, and the two weight halves and the bias whole. The array a launch leaves is
  the specification's `sageK` of the arrays the launch finds, with the rectifier in the second launch and
  without it in the third.

  First the arithmetic of one block, over any six blocks of the right shapes: the neighbours' mean, the two
  block products read as sums over the shared axis, the bias along the rows, the rectifier, and the row norm
  (a sum of squares along the row, its root, floored, laid back along the row) give the specification's entry
  at row count 2000. Then, per launch, where each window's block sits in its array, what a point writes back,
  and the 25 blocks tiling the 50000 rows.
-/
import proofs.«156878_j35648228556867_1_alg».proof.Proof.Gen.KernelIdeal.Frame
import proofs.«156878_j35648228556867_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Blocks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen
open Idealize.ShloMosaic.ValueIdx

/-! ## Two layout operations read at an index: the column forms of a row reduction that keeps its axis -/

/-- An `[a]` vector cast to the column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(p, c)`, the column's entry `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The block product at an index -/

/-- The product's left operand is read at the result's row … -/
theorem lhs_dot_0 (j : S2000x128.Idx) (k : dot_S2000x128_S128x128_S2000x128_1_0_0_1_n_n.contr.Idx) :
    (dot_S2000x128_S128x128_S2000x128_1_0_0_1_n_n.lhsIdx j k 0).val = (j 0).val := rfl
/-- … and at the summation index; -/
theorem lhs_dot_1 (j : S2000x128.Idx) (k : dot_S2000x128_S128x128_S2000x128_1_0_0_1_n_n.contr.Idx) :
    (dot_S2000x128_S128x128_S2000x128_1_0_0_1_n_n.lhsIdx j k 1).val = (k ⟨0, by decide⟩).val :=
  dot_S2000x128_S128x128_S2000x128_1_0_0_1_n_n.lhsIdx_val_of_single rfl j k
/-- the right operand at the summation index … -/
theorem rhs_dot_0 (j : S2000x128.Idx) (k : dot_S2000x128_S128x128_S2000x128_1_0_0_1_n_n.contr.Idx) :
    (dot_S2000x128_S128x128_S2000x128_1_0_0_1_n_n.rhsIdx j k 0).val = (k ⟨0, by decide⟩).val :=
  dot_S2000x128_S128x128_S2000x128_1_0_0_1_n_n.rhsIdx_val_of_single rfl j k
/-- … and at the result's column. -/
theorem rhs_dot_1 (j : S2000x128.Idx) (k : dot_S2000x128_S128x128_S2000x128_1_0_0_1_n_n.contr.Idx) :
    (dot_S2000x128_S128x128_S2000x128_1_0_0_1_n_n.rhsIdx j k 1).val = (j 1).val := rfl

/-- A block of 2000 rows times a 128 × 128 matrix, accumulated from zero, at entry `(r, q)`: the sum over
    the shared axis. -/
theorem matmul_at {φ₁ φ₂ : FTy} (x : FVec Ideal S2000x128 φ₁) (y : FVec Ideal S128x128 φ₂) (r : Fin 2000) (q : Fin 128) :
    FloatOps.matmul dot_S2000x128_S128x128_S2000x128_1_0_0_1_n_n none x y (constant (F := Ideal) S2000x128 .f32 0x00000000#32) (ix2 r q)
      = ∑ k : Fin 128, x (ix2 r k) * y (ix2 k q) := by
  rw [Ideal.matmul_constant_zero_apply]
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 r q) ((contrEquiv1 dot_S2000x128_S128x128_S2000x128_1_0_0_1_n_n 128 rfl rfl).symm k) = ix2 r k :=
    funext fun a => Fin.ext (by
      match a with
      | ⟨0, _⟩ => exact lhs_dot_0 _ _
      | ⟨1, _⟩ => exact (lhs_dot_1 _ _).trans hk)
  have er : dot_S2000x128_S128x128_S2000x128_1_0_0_1_n_n.rhsIdx (ix2 r q) ((contrEquiv1 dot_S2000x128_S128x128_S2000x128_1_0_0_1_n_n 128 rfl rfl).symm k) = ix2 k q :=
    funext fun a => Fin.ext (by
      match a with
      | ⟨0, _⟩ => exact (rhs_dot_0 _ _).trans hk
      | ⟨1, _⟩ => exact rhs_dot_1 _ _)
  rw [el, er]

/-! ## The shared steps of the two layer kernels, as vector terms and at an index -/

/-- A 128-vector laid over 2000 rows reads, at `(r, q)`, its entry `q`. -/
theorem bias_at (b : FVec Ideal S128 .f32) (hsc : S128.ShapeCasts S1x128) (hbc : S1x128.Broadcasts S2000x128) (r : Fin 2000) (q : Fin 128) :
    broadcastTo S2000x128 (shapeCast S1x128 b hsc) hbc (ix2 r q) = b (ix1 q) :=
  (broadcastTo_1b_ab_apply _ hbc r q).trans (shapeCast_a_1a_apply b hsc 0 q)

/-- The mean over the other in-neighbours as the kernels form it on a block: the aggregate less the
    node's own row, over the in-degree less one, at least one, the column laid along the row. -/
def meanV (h hagg : FVec Ideal S2000x128 .f32) (wcol : FVec Ideal S2000x1 .f32) : FVec Ideal S2000x128 .f32 :=
  divf (subf hagg h)
    (broadcastTo S2000x128
      (maximumf (subf wcol (broadcast S2000x1 (Scalar.ofBits (F := Ideal) .f32 0x3F800000#32)))
        (broadcast S2000x1 (Scalar.ofBits (F := Ideal) .f32 0x3F800000#32)))
      broadcasts_S2000x1_S2000x128)

/-- At `(r, k)` it is the specification's mean on the block's rows. -/
theorem meanV_at (h hagg : FVec Ideal S2000x128 .f32) (wcol : FVec Ideal S2000x1 .f32) (r : Fin 2000) (k : Fin 128) :
    meanV h hagg wcol (ix2 r k) = Cert.Spec.nbrMean 2000 h hagg wcol r k := by
  unfold meanV Cert.Spec.nbrMean
  rw [divf_apply, broadcastTo_a1_ab_apply]
  rfl

/-- The linear part on a block: the rows through the first weight half, the neighbours' means through
    the second, both products accumulated from zero, plus the bias along the rows. -/
def linV (h hagg : FVec Ideal S2000x128 .f32) (wcol : FVec Ideal S2000x1 .f32) (w1 w2 : FVec Ideal S128x128 .f32) (b : FVec Ideal S128 .f32) :
    FVec Ideal S2000x128 .f32 :=
  addf
    (addf
      (matmul dot_S2000x128_S128x128_S2000x128_1_0_0_1_n_n none (truncf .bf16 h bitsLt_bf16_f32) (truncf .bf16 w1 bitsLt_bf16_f32)
        (constant (F := Ideal) S2000x128 .f32 0x00000000#32))
      (matmul dot_S2000x128_S128x128_S2000x128_1_0_0_1_n_n none (truncf .bf16 (meanV h hagg wcol) bitsLt_bf16_f32) (truncf .bf16 w2 bitsLt_bf16_f32)
        (constant (F := Ideal) S2000x128 .f32 0x00000000#32)))
    (broadcastTo S2000x128 (shapeCast S1x128 b shapeCasts_S128_S1x128) broadcasts_S1x128_S2000x128)

/-- At `(r, q)` it is the specification's linear part on the block's rows: a change of float format is the
    identity on the extended reals, and each product is the sum over the 128 shared coordinates. -/
theorem linV_at (h hagg : FVec Ideal S2000x128 .f32) (wcol : FVec Ideal S2000x1 .f32) (w1 w2 : FVec Ideal S128x128 .f32) (b : FVec Ideal S128 .f32)
    (r : Fin 2000) (q : Fin 128) :
    linV h hagg wcol w1 w2 b (ix2 r q) = Cert.Spec.sageLin 2000 h hagg wcol w1 w2 b r q := by
  unfold linV Cert.Spec.sageLin
  simp only [matmul]
  rw [addf_apply, addf_apply, matmul_at, matmul_at, bias_at]
  simp only [truncf_apply, meanV_at]

/-- The leaky rectifier over a block. -/
def actV (x : FVec Ideal S2000x128 .f32) : FVec Ideal S2000x128 .f32 :=
  select (cmpf .ogt x (broadcast S2000x128 (Scalar.ofBits (F := Ideal) .f32 0x00000000#32))) x
    (mulf (broadcast S2000x128 (Scalar.ofBits (F := Ideal) .f32 0x3DCCCCCD#32)) x)

/-- Entry by entry it is the specification's rectifier. -/
theorem actV_at (x : FVec Ideal S2000x128 .f32) (i : S2000x128.Idx) : actV x i = Cert.Spec.lrelu (x i) := rfl

/-- A row's Euclidean norm, at least the small constant, laid along the row. -/
def normV (x : FVec Ideal S2000x128 .f32) : FVec Ideal S2000x128 .f32 :=
  broadcastTo S2000x128
    (maximumf
      (sqrt (shapeCast S2000x1 (multiReduction (F := Ideal) .add [1] S2000 (mulf x x) 0x00000000#32 reduces_S2000x128_S2000 (.inl rfl) rfl) shapeCasts_S2000_S2000x1))
      (broadcast S2000x1 (Scalar.ofBits (F := Ideal) .f32 0x358637BD#32)))
    broadcasts_S2000x1_S2000x128

/-- The sum along a row of a block, at the row's number: the sum over the row's 128 entries. -/
theorem rowSum_at (x : FVec Ideal S2000x128 .f32) (hred : S2000x128.Reduces [1] S2000) (hφ : FKind.Formats .f32)
    (hacc : (0x00000000#32 : BitVec 32) = FKind.add.neutral .f32 hφ) (r : Fin 2000) :
    multiReduction (F := Ideal) .add [1] S2000 x 0x00000000#32 hred hφ hacc (ix1 r) = ∑ j : Fin 128, x (ix2 r j) :=
  (Ideal.multiReduction_add_single x 0x00000000#32 hred hφ hacc (ix1 r)).trans
    (Finset.sum_congr rfl fun j _ => congrArg x (funext fun a => Fin.ext (by
      match a with
      | ⟨0, _⟩ => rfl
      | ⟨1, _⟩ => rfl)))

/-- At `(r, q)`, whatever the column `q`: the root of row `r`'s sum of squares, floored. -/
theorem normV_at (x : FVec Ideal S2000x128 .f32) (r : Fin 2000) (q : Fin 128) :
    normV x (ix2 r q) = max (Ideal.sqrt (∑ j : Fin 128, x (ix2 r j) * x (ix2 r j))) Cert.Spec.epsF := by
  unfold normV
  rw [broadcastTo_a1_ab_apply, maximumf_apply]
  show max (Ideal.sqrt (shapeCast S2000x1 _ shapeCasts_S2000_S2000x1 (ix2 r (0 : Fin 1)))) _ = _
  rw [shapeCast_a_a1_apply]
  refine congrArg (fun s => max (Ideal.sqrt s) Cert.Spec.epsF) ?_
  exact rowSum_at (mulf x x) _ _ _ r

/-! ## The two kernels' stored values -/

theorem sageAct_true (n : Nat) (h hagg : Cert.Spec.Mat n 128) (wcol : Cert.Spec.Mat n 1) (w1 w2 : Cert.Spec.Mat 128 128) (b : Cert.Spec.Vct 128) (p : Fin n) (q : Fin 128) :
    Cert.Spec.sageAct true n h hagg wcol w1 w2 b p q = Cert.Spec.lrelu (Cert.Spec.sageLin n h hagg wcol w1 w2 b p q) := rfl
theorem sageAct_false (n : Nat) (h hagg : Cert.Spec.Mat n 128) (wcol : Cert.Spec.Mat n 1) (w1 w2 : Cert.Spec.Mat 128 128) (b : Cert.Spec.Vct 128) (p : Fin n) (q : Fin 128) :
    Cert.Spec.sageAct false n h hagg wcol w1 w2 b p q = Cert.Spec.sageLin n h hagg wcol w1 w2 b p q := rfl

/-- The rectified kernel's first stored factor is the rectified linear part (a cast to the same shape is the identity). -/
theorem pay2_eq (h hagg : FVec Ideal S2000x128 .f32) (wcol : FVec Ideal S2000x1 .f32) (w1 w2 : FVec Ideal S128x128 .f32) (b : FVec Ideal S128 .f32) :
    k1_pay2 (F := Ideal) h hagg wcol w1 w2 b = actV (linV h hagg wcol w1 w2 b) := by
  unfold k1_pay2
  simp only [shapeCast_self]
  rfl

/-- Its second is that factor's floored row norm. -/
theorem pay3_eq (h hagg : FVec Ideal S2000x128 .f32) (wcol : FVec Ideal S2000x1 .f32) (w1 w2 : FVec Ideal S128x128 .f32) (b : FVec Ideal S128 .f32) :
    k1_pay3 (F := Ideal) h hagg wcol w1 w2 b = normV (k1_pay2 (F := Ideal) h hagg wcol w1 w2 b) := rfl

/-- The linear kernel stores the linear part over its floored row norm. -/
theorem pay_lin_eq (h hagg : FVec Ideal S2000x128 .f32) (wcol : FVec Ideal S2000x1 .f32) (w1 w2 : FVec Ideal S128x128 .f32) (b : FVec Ideal S128 .f32) :
    k2_pay1 (F := Ideal) h hagg wcol w1 w2 b = divf (linV h hagg wcol w1 w2 b) (normV (linV h hagg wcol w1 w2 b)) := by
  unfold k2_pay1
  simp only [shapeCast_self]
  rfl

/-- Entry `(r, q)` of what the rectified kernel stores is the specification's layer entry on the block's 2000 rows. -/
theorem stored1_at (h hagg : FVec Ideal S2000x128 .f32) (wcol : FVec Ideal S2000x1 .f32) (w1 w2 : FVec Ideal S128x128 .f32) (b : FVec Ideal S128 .f32)
    (r : Fin 2000) (q : Fin 128) :
    k1_pay1 (F := Ideal) (k1_pay2 (F := Ideal) h hagg wcol w1 w2 b) (k1_pay3 (F := Ideal) h hagg wcol w1 w2 b) (ix2 r q)
      = Cert.Spec.sageK true 2000 h hagg wcol w1 w2 b r q := by
  rw [pay3_eq, pay2_eq]
  unfold k1_pay1 Cert.Spec.sageK
  rw [divf_apply, normV_at]
  simp only [sageAct_true, actV_at, linV_at]

/-- Entry `(r, q)` of what the linear kernel stores likewise, without the rectifier. -/
theorem stored2_at (h hagg : FVec Ideal S2000x128 .f32) (wcol : FVec Ideal S2000x1 .f32) (w1 w2 : FVec Ideal S128x128 .f32) (b : FVec Ideal S128 .f32)
    (r : Fin 2000) (q : Fin 128) :
    k2_pay1 (F := Ideal) h hagg wcol w1 w2 b (ix2 r q) = Cert.Spec.sageK false 2000 h hagg wcol w1 w2 b r q := by
  rw [pay_lin_eq]
  unfold Cert.Spec.sageK
  rw [divf_apply, normV_at]
  simp only [sageAct_false, linV_at]

/-- The zero offsets of a whole-block access, in the two spellings the stores and loads use. -/
theorem zeroOff2 : (![0, 0] : Fin 2 → Nat) = fun _ => 0 := funext fun a => by fin_cases a <;> rfl
theorem zeroOff1 : (![0] : Fin 1 → Nat) = fun _ => 0 := funext fun a => by fin_cases a; rfl

-- the buffer contents a region is entered with: a parameter
variable (V : (c : Dev nD) → (b : Ref sig .tc) → Buf (Elt Ideal) ((c : Thread nD τ).loc b))

/-! ## The second launch: the blocks a point reads, what it writes back, and the array the launch leaves -/

/-- The second launch's index maps, decided over the 25 points: the three per-node windows and the result window
    take block row `t` at point `t`; the weight halves and the bias are block 0, the whole array, at every point. -/
theorem blockIdx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- Row `r` of the features block at point `t` is row `2000 t + r` of the features. -/
theorem feat1_at (c : Dev nD) (t : Fin cfg1.N) (r : Fin 2000) (k : Fin 128) (hr : 2000 * t.val + r.val < 50000) :
    (iblk1 (F := Ideal) V c 0 t : FVec Ideal S2000x128 .f32) (ix2 r k)
      = (V c main_v2 : FVec Ideal S50000x128 .f32) (ix2 (⟨2000 * t.val + r.val, hr⟩ : Fin 50000) k) := by
  obtain ⟨e0, e1, -⟩ := blockIdx1 t
  show V c main_v2 (((cfg1.win 0).blk t).view.emb (ix2 r k)) = V c main_v2 _
  refine congrArg (V c main_v2) (funext fun a => Fin.ext ?_)
  match a with
  | ⟨0, _⟩ => show win1_0.index t (0 : Fin 2) * 2000 + 1 * r.val = 2000 * t.val + r.val; rw [e0]; omega
  | ⟨1, _⟩ => show win1_0.index t (1 : Fin 2) * 128 + 1 * k.val = k.val; rw [e1]; omega

/-- The same for the aggregated features. -/
theorem agg1_at (c : Dev nD) (t : Fin cfg1.N) (r : Fin 2000) (k : Fin 128) (hr : 2000 * t.val + r.val < 50000) :
    (iblk1 (F := Ideal) V c 1 t : FVec Ideal S2000x128 .f32) (ix2 r k)
      = (V c main_v17 : FVec Ideal S50000x128 .f32) (ix2 (⟨2000 * t.val + r.val, hr⟩ : Fin 50000) k) := by
  obtain ⟨-, -, e0, e1, -⟩ := blockIdx1 t
  show V c main_v17 (((cfg1.win 1).blk t).view.emb (ix2 r k)) = V c main_v17 _
  refine congrArg (V c main_v17) (funext fun a => Fin.ext ?_)
  match a with
  | ⟨0, _⟩ => show win1_1.index t (0 : Fin 2) * 2000 + 1 * r.val = 2000 * t.val + r.val; rw [e0]; omega
  | ⟨1, _⟩ => show win1_1.index t (1 : Fin 2) * 128 + 1 * k.val = k.val; rw [e1]; omega

/-- The same for the in-degree column. -/
theorem deg1_at (c : Dev nD) (t : Fin cfg1.N) (r : Fin 2000) (k : Fin 1) (hr : 2000 * t.val + r.val < 50000) :
    (iblk1 (F := Ideal) V c 2 t : FVec Ideal S2000x1 .f32) (ix2 r k)
      = (V c main_v7 : FVec Ideal S50000x1 .f32) (ix2 (⟨2000 * t.val + r.val, hr⟩ : Fin 50000) k) := by
  obtain ⟨-, -, -, -, e0, e1, -⟩ := blockIdx1 t
  show V c main_v7 (((cfg1.win 2).blk t).view.emb (ix2 r k)) = V c main_v7 _
  refine congrArg (V c main_v7) (funext fun a => Fin.ext ?_)
  match a with
  | ⟨0, _⟩ => show win1_2.index t (0 : Fin 2) * 2000 + 1 * r.val = 2000 * t.val + r.val; rw [e0]; omega
  | ⟨1, _⟩ => show win1_2.index t (1 : Fin 2) * 1 + 1 * k.val = k.val; rw [e1]; omega

/-- The first weight half's window is the whole matrix at every point. -/
theorem wa1_eq (c : Dev nD) (t : Fin cfg1.N) :
    (iblk1 (F := Ideal) V c 3 t : FVec Ideal S128x128 .f32) = (V c main_v19 : FVec Ideal S128x128 .f32) := by
  obtain ⟨-, -, -, -, -, -, e0, e1, -⟩ := blockIdx1 t
  funext y
  obtain ⟨p, q, rfl⟩ : ∃ (p : Fin 128) (q : Fin 128), y = ix2 p q := ⟨y 0, y 1, eq_ix2 y⟩
  show V c main_v19 (((cfg1.win 3).blk t).view.emb (ix2 p q)) = V c main_v19 (ix2 p q)
  refine congrArg (V c main_v19) (funext fun a => Fin.ext ?_)
  match a with
  | ⟨0, _⟩ => show win1_3.index t (0 : Fin 2) * 128 + 1 * p.val = p.val; rw [e0]; omega
  | ⟨1, _⟩ => show win1_3.index t (1 : Fin 2) * 128 + 1 * q.val = q.val; rw [e1]; omega

/-- So is the second weight half's. -/
theorem wb1_eq (c : Dev nD) (t : Fin cfg1.N) :
    (iblk1 (F := Ideal) V c 4 t : FVec Ideal S128x128 .f32) = (V c main_v20 : FVec Ideal S128x128 .f32) := by
  obtain ⟨-, -, -, -, -, -, -, -, e0, e1, -⟩ := blockIdx1 t
  funext y
  obtain ⟨p, q, rfl⟩ : ∃ (p : Fin 128) (q : Fin 128), y = ix2 p q := ⟨y 0, y 1, eq_ix2 y⟩
  show V c main_v20 (((cfg1.win 4).blk t).view.emb (ix2 p q)) = V c main_v20 (ix2 p q)
  refine congrArg (V c main_v20) (funext fun a => Fin.ext ?_)
  match a with
  | ⟨0, _⟩ => show win1_4.index t (0 : Fin 2) * 128 + 1 * p.val = p.val; rw [e0]; omega
  | ⟨1, _⟩ => show win1_4.index t (1 : Fin 2) * 128 + 1 * q.val = q.val; rw [e1]; omega

/-- And the bias's is the whole vector. -/
theorem bias1_eq (c : Dev nD) (t : Fin cfg1.N) :
    (iblk1 (F := Ideal) V c 5 t : FVec Ideal S128 .f32) = (V c main_arg5 : FVec Ideal S128 .f32) := by
  obtain ⟨-, -, -, -, -, -, -, -, -, -, e0, -⟩ := blockIdx1 t
  funext y
  obtain ⟨q, rfl⟩ : ∃ q : Fin 128, y = ix1 q := ⟨y 0, eq_ix1 y⟩
  show V c main_arg5 (((cfg1.win 5).blk t).view.emb (ix1 q)) = V c main_arg5 (ix1 q)
  refine congrArg (V c main_arg5) (funext fun a => Fin.ext ?_)
  match a with
  | ⟨0, _⟩ => show win1_5.index t (0 : Fin 1) * 128 + 1 * q.val = q.val; rw [e0]; omega

/-- Entry `(r, q)` of the result block at point `t` sits at `(2000 t + r, q)` of the result. -/
theorem out1_emb (t : Fin cfg1.N) (r : Fin 2000) (q : Fin 128) (hr : 2000 * t.val + r.val < 50000) :
    (((cfg1.win 6).blk t).view.emb (ix2 r q) : S50000x128.Idx) = ix2 (⟨2000 * t.val + r.val, hr⟩ : Fin 50000) q := by
  obtain ⟨-, -, -, -, -, -, -, -, -, -, -, e0, e1⟩ := blockIdx1 t
  refine funext fun a => Fin.ext ?_
  match a with
  | ⟨0, _⟩ => show win1_6.index t (0 : Fin 2) * 2000 + 1 * r.val = 2000 * t.val + r.val; rw [e0]; omega
  | ⟨1, _⟩ => show win1_6.index t (1 : Fin 2) * 128 + 1 * q.val = q.val; rw [e1]; omega

/-- The rectified layer of the arrays the second launch finds, as one function of the result's index. -/
abbrev layer1 (c : Dev nD) : S50000x128.Idx → EReal :=
  fun i => Cert.Spec.sageK true 50000 (V c main_v2) (V c main_v17) (V c main_v7) (V c main_v19) (V c main_v20) (V c main_arg5) (i 0) (i 1)

/-- What point `t` of the second launch writes back is block `t` of that layer: the stored value at `(r, q)` is the
    layer entry on the block's rows, and a layer entry depends on its own row of the per-node inputs only. -/
theorem flushed1_eq (c : Dev nD) (t : Fin cfg1.N) :
    (dat1 (F := Ideal) V c).flushed 6 t = ((cfg1.win 6).blk t).view.read (Elt Ideal) (layer1 V c) := by
  show (cfg1.win 6).cut (grid1.coords t) ((dat1 (F := Ideal) V c).after 6 t) = _
  rw [after1_6]
  unfold out1_6
  rw [View.canon_unit_zero zeroOff2]
  simp only [View.ld_unit_zero (S := S2000x128) zeroOff2, View.ld_unit_zero (S := S2000x1) zeroOff2, View.ld_unit_zero (S := S128x128) zeroOff2,
    View.ld_unit_zero (S := S128) zeroOff1]
  funext j
  obtain ⟨r, q, rfl⟩ : ∃ (r : Fin 2000) (q : Fin 128), j = ix2 r q := ⟨j 0, j 1, eq_ix2 j⟩
  have hN : cfg1.N = 25 := N_1
  have ht : t.val < 25 := hN ▸ t.isLt
  have hr : 2000 * t.val + r.val < 50000 := by have := r.isLt; omega
  show k1_pay1 (F := Ideal) (k1_pay2 (F := Ideal) (iblk1 V c 0 t) (iblk1 V c 1 t) (iblk1 V c 2 t) (iblk1 V c 3 t) (iblk1 V c 4 t) (iblk1 V c 5 t))
      (k1_pay3 (F := Ideal) (iblk1 V c 0 t) (iblk1 V c 1 t) (iblk1 V c 2 t) (iblk1 V c 3 t) (iblk1 V c 4 t) (iblk1 V c 5 t)) (ix2 r q)
    = layer1 V c (((cfg1.win 6).blk t).view.emb (ix2 r q))
  rw [out1_emb t r q hr, wa1_eq V c t, wb1_eq V c t, bias1_eq V c t]
  refine (stored1_at _ _ _ _ _ _ r q).trans ?_
  exact Cert.Spec.sageK_rows true _ _ _ _ _ _ _ _ _ r ⟨2000 * t.val + r.val, hr⟩ q
    (fun k => feat1_at V c t r k hr) (fun k => agg1_at V c t r k hr) (deg1_at V c t r 0 hr)

/-- An index of the result lies in point `t`'s block iff each coordinate is in the block's range on its axis. -/
theorem mem_blk1 (t : Fin cfg1.N) (i : S50000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v21).slice (win1_6.rect t)).set ↔ _
  rw [View.set_slice_whole, Rect.mem_set_unit]
  exact Iff.rfl

/-- Row `p` of the result lies in the block of point `p / 2000`: the 25 blocks of 2000 rows tile the 50000. -/
theorem cover1 (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 25 := N_1
  have hlt : (i 0).val / 2000 < cfg1.N := by rw [hN]; omega
  obtain ⟨-, -, -, -, -, -, -, -, -, -, -, e0, e1⟩ := blockIdx1 ⟨(i 0).val / 2000, hlt⟩
  refine ⟨⟨(i 0).val / 2000, hlt⟩, flush1_6 _, ?_⟩
  rw [mem_blk1]
  intro a
  match a with
  | ⟨0, _⟩ =>
    show win1_6.index ⟨(i 0).val / 2000, hlt⟩ (0 : Fin 2) * 2000 ≤ (i 0).val ∧ (i 0).val < win1_6.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win1_6.index ⟨(i 0).val / 2000, hlt⟩ (1 : Fin 2) * 128 ≤ (i 1).val ∧ (i 1).val < win1_6.index ⟨(i 0).val / 2000, hlt⟩ (1 : Fin 2) * 128 + 128
    rw [e1]; omega

/-- After the second launch its result array holds the rectified layer of the arrays it was entered with. -/
theorem final1 (c : Dev nD) :
    (dat1 (F := Ideal) V c).arrAt 6 cfg1.N
      = (fun i : S50000x128.Idx => Cert.Spec.sageK true 50000 (V c main_v2) (V c main_v17) (V c main_v7) (V c main_v19) (V c main_v20) (V c main_arg5) (i 0) (i 1)) :=
  (dat1 (F := Ideal) V c).arrAt_eq_of_cover 6 (layer1 V c) (fun t _ => flushed1_eq V c t) (cover1)

/-! ## The third launch: the same reading, over its own windows and without the rectifier -/

/-- The third launch's index maps, decided over the 25 points: as the second launch's. -/
theorem blockIdx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0 :=
  (by decide +kernel : ∀ t : Fin grid2.N, _)

/-- Row `r` of the features block at point `t` is row `2000 t + r` of the features (the second launch's result). -/
theorem feat2_at (c : Dev nD) (t : Fin cfg2.N) (r : Fin 2000) (k : Fin 128) (hr : 2000 * t.val + r.val < 50000) :
    (iblk2 (F := Ideal) V c 0 t : FVec Ideal S2000x128 .f32) (ix2 r k)
      = (V c main_v21 : FVec Ideal S50000x128 .f32) (ix2 (⟨2000 * t.val + r.val, hr⟩ : Fin 50000) k) := by
  obtain ⟨e0, e1, -⟩ := blockIdx2 t
  show V c main_v21 (((cfg2.win 0).blk t).view.emb (ix2 r k)) = V c main_v21 _
  refine congrArg (V c main_v21) (funext fun a => Fin.ext ?_)
  match a with
  | ⟨0, _⟩ => show win2_0.index t (0 : Fin 2) * 2000 + 1 * r.val = 2000 * t.val + r.val; rw [e0]; omega
  | ⟨1, _⟩ => show win2_0.index t (1 : Fin 2) * 128 + 1 * k.val = k.val; rw [e1]; omega

/-- The same for the aggregated features. -/
theorem agg2_at (c : Dev nD) (t : Fin cfg2.N) (r : Fin 2000) (k : Fin 128) (hr : 2000 * t.val + r.val < 50000) :
    (iblk2 (F := Ideal) V c 1 t : FVec Ideal S2000x128 .f32) (ix2 r k)
      = (V c main_v31 : FVec Ideal S50000x128 .f32) (ix2 (⟨2000 * t.val + r.val, hr⟩ : Fin 50000) k) := by
  obtain ⟨-, -, e0, e1, -⟩ := blockIdx2 t
  show V c main_v31 (((cfg2.win 1).blk t).view.emb (ix2 r k)) = V c main_v31 _
  refine congrArg (V c main_v31) (funext fun a => Fin.ext ?_)
  match a with
  | ⟨0, _⟩ => show win2_1.index t (0 : Fin 2) * 2000 + 1 * r.val = 2000 * t.val + r.val; rw [e0]; omega
  | ⟨1, _⟩ => show win2_1.index t (1 : Fin 2) * 128 + 1 * k.val = k.val; rw [e1]; omega

/-- The same for the in-degree column. -/
theorem deg2_at (c : Dev nD) (t : Fin cfg2.N) (r : Fin 2000) (k : Fin 1) (hr : 2000 * t.val + r.val < 50000) :
    (iblk2 (F := Ideal) V c 2 t : FVec Ideal S2000x1 .f32) (ix2 r k)
      = (V c main_v7 : FVec Ideal S50000x1 .f32) (ix2 (⟨2000 * t.val + r.val, hr⟩ : Fin 50000) k) := by
  obtain ⟨-, -, -, -, e0, e1, -⟩ := blockIdx2 t
  show V c main_v7 (((cfg2.win 2).blk t).view.emb (ix2 r k)) = V c main_v7 _
  refine congrArg (V c main_v7) (funext fun a => Fin.ext ?_)
  match a with
  | ⟨0, _⟩ => show win2_2.index t (0 : Fin 2) * 2000 + 1 * r.val = 2000 * t.val + r.val; rw [e0]; omega
  | ⟨1, _⟩ => show win2_2.index t (1 : Fin 2) * 1 + 1 * k.val = k.val; rw [e1]; omega

/-- The first weight half's window is the whole matrix at every point. -/
theorem wa2_eq (c : Dev nD) (t : Fin cfg2.N) :
    (iblk2 (F := Ideal) V c 3 t : FVec Ideal S128x128 .f32) = (V c main_v33 : FVec Ideal S128x128 .f32) := by
  obtain ⟨-, -, -, -, -, -, e0, e1, -⟩ := blockIdx2 t
  funext y
  obtain ⟨p, q, rfl⟩ : ∃ (p : Fin 128) (q : Fin 128), y = ix2 p q := ⟨y 0, y 1, eq_ix2 y⟩
  show V c main_v33 (((cfg2.win 3).blk t).view.emb (ix2 p q)) = V c main_v33 (ix2 p q)
  refine congrArg (V c main_v33) (funext fun a => Fin.ext ?_)
  match a with
  | ⟨0, _⟩ => show win2_3.index t (0 : Fin 2) * 128 + 1 * p.val = p.val; rw [e0]; omega
  | ⟨1, _⟩ => show win2_3.index t (1 : Fin 2) * 128 + 1 * q.val = q.val; rw [e1]; omega

/-- So is the second weight half's. -/
theorem wb2_eq (c : Dev nD) (t : Fin cfg2.N) :
    (iblk2 (F := Ideal) V c 4 t : FVec Ideal S128x128 .f32) = (V c main_v34 : FVec Ideal S128x128 .f32) := by
  obtain ⟨-, -, -, -, -, -, -, -, e0, e1, -⟩ := blockIdx2 t
  funext y
  obtain ⟨p, q, rfl⟩ : ∃ (p : Fin 128) (q : Fin 128), y = ix2 p q := ⟨y 0, y 1, eq_ix2 y⟩
  show V c main_v34 (((cfg2.win 4).blk t).view.emb (ix2 p q)) = V c main_v34 (ix2 p q)
  refine congrArg (V c main_v34) (funext fun a => Fin.ext ?_)
  match a with
  | ⟨0, _⟩ => show win2_4.index t (0 : Fin 2) * 128 + 1 * p.val = p.val; rw [e0]; omega
  | ⟨1, _⟩ => show win2_4.index t (1 : Fin 2) * 128 + 1 * q.val = q.val; rw [e1]; omega

/-- And the bias's is the whole vector. -/
theorem bias2_eq (c : Dev nD) (t : Fin cfg2.N) :
    (iblk2 (F := Ideal) V c 5 t : FVec Ideal S128 .f32) = (V c main_arg7 : FVec Ideal S128 .f32) := by
  obtain ⟨-, -, -, -, -, -, -, -, -, -, e0, -⟩ := blockIdx2 t
  funext y
  obtain ⟨q, rfl⟩ : ∃ q : Fin 128, y = ix1 q := ⟨y 0, eq_ix1 y⟩
  show V c main_arg7 (((cfg2.win 5).blk t).view.emb (ix1 q)) = V c main_arg7 (ix1 q)
  refine congrArg (V c main_arg7) (funext fun a => Fin.ext ?_)
  match a with
  | ⟨0, _⟩ => show win2_5.index t (0 : Fin 1) * 128 + 1 * q.val = q.val; rw [e0]; omega

/-- Entry `(r, q)` of the result block at point `t` sits at `(2000 t + r, q)` of the result. -/
theorem out2_emb (t : Fin cfg2.N) (r : Fin 2000) (q : Fin 128) (hr : 2000 * t.val + r.val < 50000) :
    (((cfg2.win 6).blk t).view.emb (ix2 r q) : S50000x128.Idx) = ix2 (⟨2000 * t.val + r.val, hr⟩ : Fin 50000) q := by
  obtain ⟨-, -, -, -, -, -, -, -, -, -, -, e0, e1⟩ := blockIdx2 t
  refine funext fun a => Fin.ext ?_
  match a with
  | ⟨0, _⟩ => show win2_6.index t (0 : Fin 2) * 2000 + 1 * r.val = 2000 * t.val + r.val; rw [e0]; omega
  | ⟨1, _⟩ => show win2_6.index t (1 : Fin 2) * 128 + 1 * q.val = q.val; rw [e1]; omega

/-- The linear layer of the arrays the third launch finds, as one function of the result's index. -/
abbrev layer2 (c : Dev nD) : S50000x128.Idx → EReal :=
  fun i => Cert.Spec.sageK false 50000 (V c main_v21) (V c main_v31) (V c main_v7) (V c main_v33) (V c main_v34) (V c main_arg7) (i 0) (i 1)

/-- What point `t` of the third launch writes back is block `t` of that layer. -/
theorem flushed2_eq (c : Dev nD) (t : Fin cfg2.N) :
    (dat2 (F := Ideal) V c).flushed 6 t = ((cfg2.win 6).blk t).view.read (Elt Ideal) (layer2 V c) := by
  show (cfg2.win 6).cut (grid2.coords t) ((dat2 (F := Ideal) V c).after 6 t) = _
  rw [after2_6]
  unfold out2_6
  rw [View.canon_unit_zero zeroOff2]
  simp only [View.ld_unit_zero (S := S2000x128) zeroOff2, View.ld_unit_zero (S := S2000x1) zeroOff2, View.ld_unit_zero (S := S128x128) zeroOff2,
    View.ld_unit_zero (S := S128) zeroOff1]
  funext j
  obtain ⟨r, q, rfl⟩ : ∃ (r : Fin 2000) (q : Fin 128), j = ix2 r q := ⟨j 0, j 1, eq_ix2 j⟩
  have hN : cfg2.N = 25 := N_2
  have ht : t.val < 25 := hN ▸ t.isLt
  have hr : 2000 * t.val + r.val < 50000 := by have := r.isLt; omega
  show k2_pay1 (F := Ideal) (iblk2 V c 0 t) (iblk2 V c 1 t) (iblk2 V c 2 t) (iblk2 V c 3 t) (iblk2 V c 4 t) (iblk2 V c 5 t) (ix2 r q)
    = layer2 V c (((cfg2.win 6).blk t).view.emb (ix2 r q))
  rw [out2_emb t r q hr, wa2_eq V c t, wb2_eq V c t, bias2_eq V c t]
  refine (stored2_at _ _ _ _ _ _ r q).trans ?_
  exact Cert.Spec.sageK_rows false _ _ _ _ _ _ _ _ _ r ⟨2000 * t.val + r.val, hr⟩ q
    (fun k => feat2_at V c t r k hr) (fun k => agg2_at V c t r k hr) (deg2_at V c t r 0 hr)

/-- An index of the result lies in point `t`'s block iff each coordinate is in the block's range on its axis. -/
theorem mem_blk2 (t : Fin cfg2.N) (i : S50000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v35).slice (win2_6.rect t)).set ↔ _
  rw [View.set_slice_whole, Rect.mem_set_unit]
  exact Iff.rfl

/-- Row `p` of the result lies in the block of point `p / 2000`. -/
theorem cover2 (i : S50000x128.Idx) : ∃ t : Fin cfg2.N, (cfg2.win 6).flush t = true ∧ i ∈ ((cfg2.win 6).blk t).view.set := by
  have hi0 : (i 0).val < 50000 := (i 0).isLt
  have hi1 : (i 1).val < 128 := (i 1).isLt
  have hN : cfg2.N = 25 := N_2
  have hlt : (i 0).val / 2000 < cfg2.N := by rw [hN]; omega
  obtain ⟨-, -, -, -, -, -, -, -, -, -, -, e0, e1⟩ := blockIdx2 ⟨(i 0).val / 2000, hlt⟩
  refine ⟨⟨(i 0).val / 2000, hlt⟩, flush2_6 _, ?_⟩
  rw [mem_blk2]
  intro a
  match a with
  | ⟨0, _⟩ =>
    show win2_6.index ⟨(i 0).val / 2000, hlt⟩ (0 : Fin 2) * 2000 ≤ (i 0).val ∧ (i 0).val < win2_6.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win2_6.index ⟨(i 0).val / 2000, hlt⟩ (1 : Fin 2) * 128 ≤ (i 1).val ∧ (i 1).val < win2_6.index ⟨(i 0).val / 2000, hlt⟩ (1 : Fin 2) * 128 + 128
    rw [e1]; omega

/-- After the third launch its result array holds the linear layer of the arrays it was entered with. -/
theorem final2 (c : Dev nD) :
    (dat2 (F := Ideal) V c).arrAt 6 cfg2.N
      = (fun i : S50000x128.Idx => Cert.Spec.sageK false 50000 (V c main_v21) (V c main_v31) (V c main_v7) (V c main_v33) (V c main_v34) (V c main_arg7) (i 0) (i 1)) :=
  (dat2 (F := Ideal) V c).arrAt_eq_of_cover 6 (layer2 V c) (fun t _ => flushed2_eq V c t) (cover2)

end Cert.KernelIdeal.Blocks

end
-- ==== Proof.KernelFold.lean ====
/-
  The kernel program's result buffer after the run, as one term of the argument arrays: the fold of the
  buffer contents through the three host stretches and the three launches, read at the buffers each stage
  needs. A host stretch's results are its operations applied to what the stretch finds; a launch changes
  its result array only, to the specification's function of its operand arrays; the arguments are never
  written.
-/
import proofs.«156878_j35648228556867_1_alg».proof.Proof.Gen.KernelIdeal.Frame
import proofs.«156878_j35648228556867_1_alg».proof.Proof.KernelTerms
import proofs.«156878_j35648228556867_1_alg».proof.Proof.MixBlock
import proofs.«156878_j35648228556867_1_alg».proof.Proof.SageBlock
import Idealize.ShloMosaic.Lib.StableHlo.Run

set_option maxRecDepth 16384

noncomputable section

namespace Cert.KernelIdeal.Fold

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg)

/-! ## What a host stretch leaves alone

Every buffer outside the list of a stretch's result buffers keeps its contents through the stretch. -/

/-- The first stretch writes the embedding rows and the transposed projection only. -/
theorem keep0 (V : Valuation τ sig (Elt Ideal)) {r : Ref sig .tc} (hr : r ∉ [main_v0, main_v1]) :
    StableHlo.after (hostOps0 (F := Ideal)) V (Proc.devRef .tc r) = V (Proc.devRef .tc r) :=
  StableHlo.after_of_writes_sub _ V (by
    simp only [hostOps0, List.Forall, StableHlo.nullary_writes, StableHlo.unary_writes, StableHlo.binary_writes,
      StableHlo.ternary_writes, StableHlo.reshape_writes, Finset.singleton_subset_iff, List.mem_toFinset,
      List.map_cons, List.map_nil, List.mem_cons, true_or, or_true, and_self]) hr

/-- The second stretch's result buffers. -/
theorem keep1 (V : Valuation τ sig (Elt Ideal)) {r : Ref sig .tc}
    (hr : r ∉ [main_cst, main_v3, main_cst_0, main_v4, main_v5, main_v6, main_v7, main_c, main_v8, main_v9, main_c_1, main_v10,
      main_v11, main_v12, main_v13, main_v14, main_cst_2, main_v15, main_v16, main_v17, main_v18, main_v19, main_v20]) :
    StableHlo.after (hostOps1 (F := Ideal)) V (Proc.devRef .tc r) = V (Proc.devRef .tc r) :=
  StableHlo.after_of_writes_sub _ V (by
    simp only [hostOps1, List.Forall, StableHlo.nullary_writes, StableHlo.unary_writes, StableHlo.binary_writes,
      StableHlo.ternary_writes, StableHlo.reshape_writes, Finset.singleton_subset_iff, List.mem_toFinset,
      List.map_cons, List.map_nil, List.mem_cons, true_or, or_true, and_self]) hr

/-- The third stretch's result buffers. -/
theorem keep2 (V : Valuation τ sig (Elt Ideal)) {r : Ref sig .tc}
    (hr : r ∉ [main_c_3, main_v22, main_v23, main_c_4, main_v24, main_v25, main_v26, main_v27, main_v28, main_cst_5, main_v29,
      main_v30, main_v31, main_v32, main_v33, main_v34]) :
    StableHlo.after (hostOps2 (F := Ideal)) V (Proc.devRef .tc r) = V (Proc.devRef .tc r) :=
  StableHlo.after_of_writes_sub _ V (by
    simp only [hostOps2, List.Forall, StableHlo.nullary_writes, StableHlo.unary_writes, StableHlo.binary_writes,
      StableHlo.ternary_writes, StableHlo.reshape_writes, Finset.singleton_subset_iff, List.mem_toFinset,
      List.map_cons, List.map_nil, List.mem_cons, true_or, or_true, and_self]) hr

/-! ## The arguments at every boundary

No stretch writes an argument and no launch has one as its result, so a buffer that is no result of a
stretch and no array of a launch holds at each boundary what the program was launched with. -/

theorem W1_keep (c : Dev nD) {r : Ref sig .tc} (h0 : r ∉ [main_v0, main_v1]) :
    W1 (F := Ideal) m ρ c (Proc.devRef .tc r) = m ((c : Thread nD τ).loc r) :=
  keep0 _ h0

theorem W2_keep (c : Dev nD) {r : Ref sig .tc} (h0 : r ∉ [main_v0, main_v1]) (hw0 : ∀ w, Pipeline.arrRef spec0 w ≠ r) :
    W2 (F := Ideal) m ρ c (Proc.devRef .tc r) = m ((c : Thread nD τ).loc r) :=
  (W2_of_ne m ρ c r hw0).trans (W1_keep m ρ c h0)

theorem W3_keep (c : Dev nD) {r : Ref sig .tc} (h0 : r ∉ [main_v0, main_v1]) (hw0 : ∀ w, Pipeline.arrRef spec0 w ≠ r)
    (h1 : r ∉ [main_cst, main_v3, main_cst_0, main_v4, main_v5, main_v6, main_v7, main_c, main_v8, main_v9, main_c_1, main_v10,
      main_v11, main_v12, main_v13, main_v14, main_cst_2, main_v15, main_v16, main_v17, main_v18, main_v19, main_v20]) :
    W3 (F := Ideal) m ρ c (Proc.devRef .tc r) = m ((c : Thread nD τ).loc r) :=
  (keep1 _ h1).trans (W2_keep m ρ c h0 hw0)

theorem W4_keep (c : Dev nD) {r : Ref sig .tc} (h0 : r ∉ [main_v0, main_v1]) (hw0 : ∀ w, Pipeline.arrRef spec0 w ≠ r)
    (h1 : r ∉ [main_cst, main_v3, main_cst_0, main_v4, main_v5, main_v6, main_v7, main_c, main_v8, main_v9, main_c_1, main_v10,
      main_v11, main_v12, main_v13, main_v14, main_cst_2, main_v15, main_v16, main_v17, main_v18, main_v19, main_v20])
    (hw1 : ∀ w, Pipeline.arrRef spec1 w ≠ r) :
    W4 (F := Ideal) m ρ c (Proc.devRef .tc r) = m ((c : Thread nD τ).loc r) :=
  (W4_of_ne m ρ c r hw1).trans (W3_keep m ρ c h0 hw0 h1)

theorem W5_keep (c : Dev nD) {r : Ref sig .tc} (h0 : r ∉ [main_v0, main_v1]) (hw0 : ∀ w, Pipeline.arrRef spec0 w ≠ r)
    (h1 : r ∉ [main_cst, main_v3, main_cst_0, main_v4, main_v5, main_v6, main_v7, main_c, main_v8, main_v9, main_c_1, main_v10,
      main_v11, main_v12, main_v13, main_v14, main_cst_2, main_v15, main_v16, main_v17, main_v18, main_v19, main_v20])
    (hw1 : ∀ w, Pipeline.arrRef spec1 w ≠ r)
    (h2 : r ∉ [main_c_3, main_v22, main_v23, main_c_4, main_v24, main_v25, main_v26, main_v27, main_v28, main_cst_5, main_v29,
      main_v30, main_v31, main_v32, main_v33, main_v34]) :
    W5 (F := Ideal) m ρ c (Proc.devRef .tc r) = m ((c : Thread nD τ).loc r) :=
  (keep2 _ h2).trans (W4_keep m ρ c h0 hw0 h1 hw1)

/-! ## The first stretch and the first launch -/

/-- The first launch finds rows 1 … 50000 of the embedding table, -/
theorem W1_v0 (c : Dev nD) :
    W1 (F := Ideal) m ρ c (Proc.devRef .tc main_v0) = Terms.emb1 (m ((c : Thread nD τ).loc main_arg0)) := by
  show StableHlo.after hostOps0 (W0 m ρ c) (Proc.devRef .tc main_v0) = _
  after_results
  rfl

/-- and the projection with the content axis first. -/
theorem W1_v1 (c : Dev nD) :
    W1 (F := Ideal) m ρ c (Proc.devRef .tc main_v1) = Terms.wt0 (m ((c : Thread nD τ).loc main_arg2)) := by
  show StableHlo.after hostOps0 (W0 m ρ c) (Proc.devRef .tc main_v1) = _
  after_results
  rfl

/-- It leaves the mixed embedding of every node. -/
theorem W2_v2 (c : Dev nD) :
    W2 (F := Ideal) m ρ c (Proc.devRef .tc main_v2) = (Terms.kFirst (m ((c : Thread nD τ).loc main_arg0)) (m ((c : Thread nD τ).loc main_arg1)) (m ((c : Thread nD τ).loc main_arg2)) (m ((c : Thread nD τ).loc main_arg3))) := by
  refine (W2_arr m ρ c 4).trans ((Blocks.final0 (V1 m ρ) c).trans ?_)
  show (fun i : S50000x128.Idx => Cert.Spec.mixK 50000 (W1 m ρ c (Proc.devRef .tc main_arg1)) (W1 m ρ c (Proc.devRef .tc main_v0))
    (W1 m ρ c (Proc.devRef .tc main_v1)) (W1 m ρ c (Proc.devRef .tc main_arg3)) (i 0) (i 1)) = _
  rw [W1_keep m ρ c (r := main_arg1) (by decide), W1_v0, W1_v1, W1_keep m ρ c (r := main_arg3) (by decide)]
  rfl

/-! ## The second stretch and the second launch -/

/-- The second stretch leaves the mixed embedding where it was. -/
theorem W3_v2 (c : Dev nD) :
    W3 (F := Ideal) m ρ c (Proc.devRef .tc main_v2) = (Terms.kFirst (m ((c : Thread nD τ).loc main_arg0)) (m ((c : Thread nD τ).loc main_arg1)) (m ((c : Thread nD τ).loc main_arg2)) (m ((c : Thread nD τ).loc main_arg3))) :=
  (keep1 _ (by decide)).trans (W2_v2 m ρ c)

/-- The aggregated features the second launch finds. -/
theorem W3_v17 (c : Dev nD) :
    W3 (F := Ideal) m ρ c (Proc.devRef .tc main_v17) = Terms.agg (m ((c : Thread nD τ).loc main_arg8)) (m ((c : Thread nD τ).loc main_arg9)) (Terms.kFirst (m ((c : Thread nD τ).loc main_arg0)) (m ((c : Thread nD τ).loc main_arg1)) (m ((c : Thread nD τ).loc main_arg2)) (m ((c : Thread nD τ).loc main_arg3))) := by
  show StableHlo.after hostOps1 (W2 m ρ c) (Proc.devRef .tc main_v17) = _
  after_results_simp
  rw [W2_keep m ρ c (r := main_arg8) (by decide) (by decide), W2_keep m ρ c (r := main_arg9) (by decide) (by decide), W2_v2]
  rfl

/-- The in-degree column. -/
theorem W3_v7 (c : Dev nD) :
    W3 (F := Ideal) m ρ c (Proc.devRef .tc main_v7) = Terms.wcol (m ((c : Thread nD τ).loc main_arg9)) := by
  show StableHlo.after hostOps1 (W2 m ρ c) (Proc.devRef .tc main_v7) = _
  after_results_simp
  rw [W2_keep m ρ c (r := main_arg9) (by decide) (by decide)]
  rfl

/-- The two halves of the first layer's weight. -/
theorem W3_v19 (c : Dev nD) :
    W3 (F := Ideal) m ρ c (Proc.devRef .tc main_v19) = Terms.w1p (m ((c : Thread nD τ).loc main_arg4)) := by
  show StableHlo.after hostOps1 (W2 m ρ c) (Proc.devRef .tc main_v19) = _
  after_results_simp
  rw [W2_keep m ρ c (r := main_arg4) (by decide) (by decide)]
  rfl

theorem W3_v20 (c : Dev nD) :
    W3 (F := Ideal) m ρ c (Proc.devRef .tc main_v20) = Terms.w2p (m ((c : Thread nD τ).loc main_arg4)) := by
  show StableHlo.after hostOps1 (W2 m ρ c) (Proc.devRef .tc main_v20) = _
  after_results_simp
  rw [W2_keep m ρ c (r := main_arg4) (by decide) (by decide)]
  rfl

/-- The second launch leaves the rectified layer of the mixed embedding. -/
theorem W4_v21 (c : Dev nD) :
    W4 (F := Ideal) m ρ c (Proc.devRef .tc main_v21) = (Terms.kLayer true (m ((c : Thread nD τ).loc main_arg8)) (m ((c : Thread nD τ).loc main_arg9)) (m ((c : Thread nD τ).loc main_arg4)) (m ((c : Thread nD τ).loc main_arg5)) (Terms.kFirst (m ((c : Thread nD τ).loc main_arg0)) (m ((c : Thread nD τ).loc main_arg1)) (m ((c : Thread nD τ).loc main_arg2)) (m ((c : Thread nD τ).loc main_arg3)))) := by
  refine (W4_arr m ρ c 6).trans ((Blocks.final1 (V3 m ρ) c).trans ?_)
  show (fun i : S50000x128.Idx => Cert.Spec.sageK true 50000 (W3 m ρ c (Proc.devRef .tc main_v2)) (W3 m ρ c (Proc.devRef .tc main_v17))
    (W3 m ρ c (Proc.devRef .tc main_v7)) (W3 m ρ c (Proc.devRef .tc main_v19)) (W3 m ρ c (Proc.devRef .tc main_v20))
    (W3 m ρ c (Proc.devRef .tc main_arg5)) (i 0) (i 1)) = _
  rw [W3_v2, W3_v17, W3_v7, W3_v19, W3_v20, W3_keep m ρ c (r := main_arg5) (by decide) (by decide) (by decide)]
  rfl

/-! ## The third stretch and the third launch -/

/-- The third stretch leaves the first layer's result where it was. -/
theorem W5_v21 (c : Dev nD) :
    W5 (F := Ideal) m ρ c (Proc.devRef .tc main_v21) = (Terms.kLayer true (m ((c : Thread nD τ).loc main_arg8)) (m ((c : Thread nD τ).loc main_arg9)) (m ((c : Thread nD τ).loc main_arg4)) (m ((c : Thread nD τ).loc main_arg5)) (Terms.kFirst (m ((c : Thread nD τ).loc main_arg0)) (m ((c : Thread nD τ).loc main_arg1)) (m ((c : Thread nD τ).loc main_arg2)) (m ((c : Thread nD τ).loc main_arg3)))) :=
  (keep2 _ (by decide)).trans (W4_v21 m ρ c)

/-- The in-degree column is an operand array of the second launch, which leaves it as found, and no result
    of the third stretch. -/
theorem W5_v7 (c : Dev nD) :
    W5 (F := Ideal) m ρ c (Proc.devRef .tc main_v7) = Terms.wcol (m ((c : Thread nD τ).loc main_arg9)) :=
  calc W5 (F := Ideal) m ρ c (Proc.devRef .tc main_v7)
    _ = W4 m ρ c (Proc.devRef .tc main_v7) := keep2 _ (by decide)
    _ = W3 m ρ c (Proc.devRef .tc main_v7) :=
        (W4_arr m ρ c 2).trans (((dat1 (V3 m ρ) c).arrAt_in 2 rfl _).trans (A_eq1 (V3 m ρ) c 2))
    _ = Terms.wcol (m ((c : Thread nD τ).loc main_arg9)) := W3_v7 m ρ c

/-- The aggregated features the third launch finds. -/
theorem W5_v31 (c : Dev nD) :
    W5 (F := Ideal) m ρ c (Proc.devRef .tc main_v31) = Terms.agg (m ((c : Thread nD τ).loc main_arg8)) (m ((c : Thread nD τ).loc main_arg9)) (Terms.kLayer true (m ((c : Thread nD τ).loc main_arg8)) (m ((c : Thread nD τ).loc main_arg9)) (m ((c : Thread nD τ).loc main_arg4)) (m ((c : Thread nD τ).loc main_arg5)) (Terms.kFirst (m ((c : Thread nD τ).loc main_arg0)) (m ((c : Thread nD τ).loc main_arg1)) (m ((c : Thread nD τ).loc main_arg2)) (m ((c : Thread nD τ).loc main_arg3)))) := by
  show StableHlo.after hostOps2 (W4 m ρ c) (Proc.devRef .tc main_v31) = _
  after_results_simp
  rw [W4_keep m ρ c (r := main_arg8) (by decide) (by decide) (by decide) (by decide),
    W4_keep m ρ c (r := main_arg9) (by decide) (by decide) (by decide) (by decide), W4_v21]
  rfl

/-- The two halves of the second layer's weight. -/
theorem W5_v33 (c : Dev nD) :
    W5 (F := Ideal) m ρ c (Proc.devRef .tc main_v33) = Terms.w1p (m ((c : Thread nD τ).loc main_arg6)) := by
  show StableHlo.after hostOps2 (W4 m ρ c) (Proc.devRef .tc main_v33) = _
  after_results_simp
  rw [W4_keep m ρ c (r := main_arg6) (by decide) (by decide) (by decide) (by decide)]
  rfl

theorem W5_v34 (c : Dev nD) :
    W5 (F := Ideal) m ρ c (Proc.devRef .tc main_v34) = Terms.w2p (m ((c : Thread nD τ).loc main_arg6)) := by
  show StableHlo.after hostOps2 (W4 m ρ c) (Proc.devRef .tc main_v34) = _
  after_results_simp
  rw [W4_keep m ρ c (r := main_arg6) (by decide) (by decide) (by decide) (by decide)]
  rfl

/-- The result buffer at the last boundary is the three launches' composed result of the argument arrays. -/
theorem out_eq (c : Dev nD) :
    W6 (F := Ideal) m ρ c (Proc.devRef .tc main_v35)
      = Terms.kOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) := by
  refine (W6_arr m ρ c 6).trans ((Blocks.final2 (V5 m ρ) c).trans ?_)
  show (fun i : S50000x128.Idx => Cert.Spec.sageK false 50000 (W5 m ρ c (Proc.devRef .tc main_v21)) (W5 m ρ c (Proc.devRef .tc main_v31))
    (W5 m ρ c (Proc.devRef .tc main_v7)) (W5 m ρ c (Proc.devRef .tc main_v33)) (W5 m ρ c (Proc.devRef .tc main_v34))
    (W5 m ρ c (Proc.devRef .tc main_arg7)) (i 0) (i 1)) = _
  rw [W5_v21, W5_v31, W5_v7, W5_v33, W5_v34,
    W5_keep m ρ c (r := main_arg7) (by decide) (by decide) (by decide) (by decide) (by decide)]
  rfl

end Cert.KernelIdeal.Fold

end
-- ==== Proof.KernelModel.lean ====
/-
  The kernel program's composed result is the model: a slice of the embedding table from row 1 reads row
  `p + 1`, the in-degree reshaped to a column reads the degree, and the two slices of the transposed weight
  read its first and last 128 rows.
-/
import proofs.«156878_j35648228556867_1_alg».proof.Proof.KernelTerms
import Idealize.ShloMosaic.Lib.Pipeline.Value
import Idealize.ShloMosaic.Lib.ValueIdx
import Idealize.ShloMosaic.Lib.ValueLayout

noncomputable section

namespace Cert.KernelIdeal.Terms

open Cert.KernelIdeal Idealize.ShloMosaic Idealize.ShloMosaic.ValueIdx

/-- Row `p` of the table cut from row 1 is row `p + 1` of the table. -/
theorem emb1_at (emb : FArr (F := Ideal) S50001x128) :
    emb1 emb = fun j => emb (ix2 (⟨(j 0).val + 1, by have := idx2_lt0 j; omega⟩ : Fin 50001) (j 1)) := by
  funext j
  obtain ⟨p, q, rfl⟩ : ∃ (p : Fin 50000) (q : Fin 128), j = ix2 p q := ⟨j 0, j 1, eq_ix2 j⟩
  unfold emb1
  rw [slice2_axis0_eq]
  exact congrArg (fun r : Fin 50001 => emb (ix2 r q)) (Fin.ext (Nat.add_comm 1 p.val))

/-- The first 128 rows of the transposed weight. -/
theorem w1p_at (w : FArr (F := Ideal) S128x256) :
    w1p w = fun j => wt w (ix2 (⟨(j 0).val, by have := idx2_lt0 j; omega⟩ : Fin 256) (j 1)) := by
  funext j
  obtain ⟨p, q, rfl⟩ : ∃ (p : Fin 128) (q : Fin 128), j = ix2 p q := ⟨j 0, j 1, eq_ix2 j⟩
  unfold w1p
  rw [slice2_axis0_eq]
  exact congrArg (fun r : Fin 256 => wt w (ix2 r q)) (Fin.ext (Nat.zero_add p.val))

/-- The last 128 rows of the transposed weight. -/
theorem w2p_at (w : FArr (F := Ideal) S128x256) :
    w2p w = fun j => wt w (ix2 (⟨128 + (j 0).val, by have := idx2_lt0 j; omega⟩ : Fin 256) (j 1)) := by
  funext j
  obtain ⟨p, q, rfl⟩ : ∃ (p : Fin 128) (q : Fin 128), j = ix2 p q := ⟨j 0, j 1, eq_ix2 j⟩
  unfold w2p
  rw [slice2_axis0_eq]

/-- The in-degree as a column reads, in row `p`, the degree of node `p`. -/
theorem wcol_at (dst : IArr (F := Ideal) S1650000) :
    wcol dst = fun j => deg dst (ix1 (j 0)) := by
  funext j
  obtain ⟨p, u, rfl⟩ : ∃ (p : Fin 50000) (u : Fin 1), j = ix2 p u := ⟨j 0, j 1, eq_ix2 j⟩
  unfold wcol
  refine shapeCast_apply _ _ _ (ix1 p) ?_
  rw [Shape.rowMajor_val_two, Shape.rowMajor_val_one]
  show p.val = p.val * 1 + u.val
  omega

/-- The three launches' composed result is the model of the shared host terms. -/
theorem kOut_eq (emb : FArr (F := Ideal) S50001x128) (content : FArr (F := Ideal) S50000x300) (pw : FArr (F := Ideal) S128x300)
    (pb : FArr (F := Ideal) S128) (w1 : FArr (F := Ideal) S128x256) (b1 : FArr (F := Ideal) S128) (w2 : FArr (F := Ideal) S128x256)
    (b2 : FArr (F := Ideal) S128) (src dst : IArr (F := Ideal) S1650000) :
    kOut emb content pw pb w1 b1 w2 b2 src dst
      = Cert.Spec.model (agg src dst) (deg dst) (wt0 pw) (wt w1) (wt w2) emb content pb b1 b2 := by
  unfold kOut kLayer kFirst Cert.Spec.model Cert.Spec.layer Cert.Spec.first
  rw [emb1_at, wcol_at, w1p_at w1, w2p_at w1, w1p_at w2, w2p_at w2]

end Cert.KernelIdeal.Terms

end
-- ==== Proof.RefTerms.lean ====
/-
  The reference's host terms, named: the normalised edge sources, the edge aggregation, the in-degree,
  the transposed weights, the first features and one layer, each the printed operations composed.
-/
import proofs.«156878_j35648228556867_1_alg».proof.Proof.Gen.ReferenceIdeal

noncomputable section

namespace Cert.ReferenceIdeal.Terms

open Cert.ReferenceIdeal Cert.ReferenceIdeal.Facts₀ Idealize.ShloMosaic

variable {F : FTy → Type} [FloatOps F]

/-- Contents of a float array of shape `s`. -/
abbrev FArr (s : Shape) : Type := (⟨s, .f32⟩ : BufTy).Contents (Elt F)
/-- Contents of a 32-bit integer array of shape `s`. -/
abbrev IArr (s : Shape) : Type := (⟨s, .i32⟩ : BufTy).Contents (Elt F)

/-- jnp's index normalisation of the edge sources (a negative index counts from the end), as a column. -/
def srcIdx (src : IArr (F := F) S1650000) : IArr (F := F) S1650000x1 :=
  broadcastInDim S1650000x1 ![0] bcast_S1650000_S1650000x1_0
    (select (cmpi .slt src (broadcastInDim S1650000 ![] bcast_S_S1650000 (constantI S_ 32 0#32)))
      (addi src (broadcastInDim S1650000 ![] bcast_S_S1650000 (constantI S_ 32 50000#32))) src)

/-- The edge aggregation: the source rows gathered, added up at the destination rows. -/
def agg (src dst : IArr (F := F) S1650000) (h : FArr (F := F) S50000x128) : FArr (F := F) S50000x128 :=
  Host.scatterAdd scatter_S50000x128_S1650000x1_S1650000x128_1_0_0_1
    (broadcastInDim S50000x128 ![] bcast_S_S50000x128 (constant S_ .f32 0x00000000#32))
    (broadcastInDim S1650000x1 ![0] bcast_S1650000_S1650000x1_0 dst)
    (Host.gather gather_S50000x128_S1650000x1_S1650000x128_1_0_n_n_0_1_1128 h (srcIdx src))

/-- The in-degree of every node: a one per edge, added up at the destination. -/
def deg (dst : IArr (F := F) S1650000) : FArr (F := F) S50000 :=
  Host.scatterAdd scatter_S50000_S1650000x1_S1650000_n_0_0_1
    (broadcastInDim S50000 ![] bcast_S_S50000 (constant S_ .f32 0x00000000#32))
    (broadcastInDim S1650000x1 ![0] bcast_S1650000_S1650000x1_0 dst)
    (broadcastInDim S1650000 ![] bcast_S_S1650000 (constant S_ .f32 0x3F800000#32))

/-- The projection with the content axis first. -/
def wt0 (w : FArr (F := F) S128x300) : FArr (F := F) S300x128 := transpose S300x128 [1, 0] w transposes_S128x300_S300x128_1_0
/-- A layer's weight with the input axis first. -/
def wt (w : FArr (F := F) S128x256) : FArr (F := F) S256x128 := transpose S256x128 [1, 0] w transposes_S128x256_S256x128_1_0

/-- jax's leaky rectifier as it lowers: `x` where `x ≥ 0`, the slope times `x` elsewhere. -/
def lreluR (x : FArr (F := F) S50000x128) : FArr (F := F) S50000x128 :=
  select (cmpf .oge x (broadcastInDim S50000x128 ![] bcast_S_S50000x128 (constant S_ .f32 0x00000000#32))) x
    (mulf (broadcastInDim S50000x128 ![] bcast_S_S50000x128 (id (constant S_ .f32 0x3DCCCCCD#32))) x)

/-- The row indices `1 … 50000` of the embedding table, as jnp's `ids + 1` lowers (normalised, as a column). -/
def embIdx : IArr (F := F) S50000x1 :=
  broadcastInDim S50000x1 ![0] bcast_S50000_S50000x1_0
    (select (cmpi .slt (addi (iotaInDim S50000 32 0) (broadcastInDim S50000 ![] bcast_S_S50000 (constantI S_ 32 1#32)))
        (broadcastInDim S50000 ![] bcast_S_S50000 (constantI S_ 32 0#32)))
      (addi (addi (iotaInDim S50000 32 0) (broadcastInDim S50000 ![] bcast_S_S50000 (constantI S_ 32 1#32)))
        (broadcastInDim S50000 ![] bcast_S_S50000 (constantI S_ 32 50001#32)))
      (addi (iotaInDim S50000 32 0) (broadcastInDim S50000 ![] bcast_S_S50000 (constantI S_ 32 1#32))))

/-- The first features: gathered embedding rows plus the rectified content projection (`%16`). -/
def firstR (emb : FArr (F := F) S50001x128) (content : FArr (F := F) S50000x300) (pw : FArr (F := F) S128x300) (pb : FArr (F := F) S128) :
    FArr (F := F) S50000x128 :=
  addf (Host.gather gather_S50001x128_S50000x1_S50000x128_1_0_n_n_0_1_1128 emb (embIdx (F := F)))
    (lreluR (addf (Host.dotGeneral dot_S50000x300_S300x128_S50000x128_1_0_0_1_n_n none content (wt0 pw))
      (broadcastInDim S50000x128 ![0, 1] bcast_S1x128_S50000x128_0_1 (broadcastInDim S1x128 ![1] bcast_S128_S1x128_1 pb))))

/-- A layer before its activation (`%44`, `%78`): the concatenation of own features and neighbours' mean through the weight, plus the bias. -/
def linR (src dst : IArr (F := F) S1650000) (w : FArr (F := F) S128x256) (b : FArr (F := F) S128) (h : FArr (F := F) S50000x128) :
    FArr (F := F) S50000x128 :=
  addf (Host.dotGeneral dot_S50000x256_S256x128_S50000x128_1_0_0_1_n_n none
      (concatenate S50000x256 1 [⟨S50000x128, h⟩, ⟨S50000x128,
        Host.divf (subf (agg src dst h) h)
          (broadcastInDim S50000x128 ![0, 1] bcast_S50000x1_S50000x128_0_1 (broadcastInDim S50000x1 ![0] bcast_S50000_S50000x1_0
            (maximumf (subf (deg dst) (broadcastInDim S50000 ![] bcast_S_S50000 (constant S_ .f32 0x3F800000#32)))
              (broadcastInDim S50000 ![] bcast_S_S50000 (constant S_ .f32 0x3F800000#32)))))⟩]
        concatenates_S50000x128_S50000x128_S50000x256_d1)
      (wt w))
    (broadcastInDim S50000x128 ![0, 1] bcast_S1x128_S50000x128_0_1 (broadcastInDim S1x128 ![1] bcast_S128_S1x128_1 b))

/-- A row-normalised array (`%50`, `%83`): each row divided by its Euclidean norm, floored. -/
def normR (x : FArr (F := F) S50000x128) : FArr (F := F) S50000x128 :=
  Host.divf x (broadcastInDim S50000x128 ![0, 1] bcast_S50000x1_S50000x128_0_1
    (maximumf (Host.sqrt (broadcastInDim S50000x1 ![0] bcast_S50000_S50000x1_0
        (Host.reduceAdd (mulf x x) (constant S_ .f32 0x00000000#32) reducesTo_S50000x128_S50000_d1 h_S_)))
      (broadcastInDim S50000x1 ![] bcast_S_S50000x1 (constant S_ .f32 0x358637BD#32))))

/-- The reference's result as one term of its arguments. -/
def refOut (emb : FArr (F := F) S50001x128) (content : FArr (F := F) S50000x300) (pw : FArr (F := F) S128x300) (pb : FArr (F := F) S128)
    (w1 : FArr (F := F) S128x256) (b1 : FArr (F := F) S128) (w2 : FArr (F := F) S128x256) (b2 : FArr (F := F) S128)
    (src dst : IArr (F := F) S1650000) : FArr (F := F) S50000x128 :=
  normR (linR src dst w2 b2 (normR (lreluR (linR src dst w1 b1 (firstR emb content pw pb)))))

end Cert.ReferenceIdeal.Terms

end
-- ==== Proof.RefRun.lean ====
/-
  The reference program's run, read back: @main is a straight line of host operations (the calls of the
  rectifier, of its select and of the row norm unfolded at their call sites), so every weakly fair execution
  terminates with each buffer at the operations' fold over the launch contents; the result buffer's fold is
  the composed term `Terms.refOut` of the arguments, and no operation writes an argument.

  The line is cut in three — the first features (up to `%16`), the first layer (up to `%50`), the second
  layer (up to `%83`) — and each stretch is read back over an ARBITRARY valuation: its result buffer holds
  the stretch's named term of what the valuation holds at the arguments and at the previous stretch's result,
  and the arguments are left alone. The fold over the whole line is the three folds in a row, so the result
  is the three terms composed, which is `Terms.refOut` unfolded.
-/
import proofs.«156878_j35648228556867_1_alg».proof.Proof.Gen.ReferenceIdeal
import proofs.«156878_j35648228556867_1_alg».proof.Proof.RefTerms
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- The first features' operations (`%0` … `%16`), the rectifier's call unfolded at its site. -/
abbrev opsA : List (HloOp τ sig (Elt F)) :=
  [ StableHlo.nullary main_v0 (iotaInDim S50000 32 0),
    StableHlo.nullary main_c (constantI S_ 32 1#32),
    StableHlo.unary main_c main_v1 (broadcastInDim S50000 ![] bcast_S_S50000 : (⟨S_, .i32⟩ : BufTy).Contents (Elt F) → (⟨S50000, .i32⟩ : BufTy).Contents (Elt F)),
    StableHlo.binary main_v0 main_v1 main_v2 (addi : (⟨S50000, .i32⟩ : BufTy).Contents (Elt F) → (⟨S50000, .i32⟩ : BufTy).Contents (Elt F) → (⟨S50000, .i32⟩ : BufTy).Contents (Elt F)),
    StableHlo.nullary main_c_0 (constantI S_ 32 0#32),
    StableHlo.unary main_c_0 main_v3 (broadcastInDim S50000 ![] bcast_S_S50000 : (⟨S_, .i32⟩ : BufTy).Contents (Elt F) → (⟨S50000, .i32⟩ : BufTy).Contents (Elt F)),
    StableHlo.binary main_v2 main_v3 main_v4 (cmpi .slt : (⟨S50000, .i32⟩ : BufTy).Contents (Elt F) → (⟨S50000, .i32⟩ : BufTy).Contents (Elt F) → (⟨S50000, .i1⟩ : BufTy).Contents (Elt F)),
    StableHlo.nullary main_c_1 (constantI S_ 32 50001#32),
    StableHlo.unary main_c_1 main_v5 (broadcastInDim S50000 ![] bcast_S_S50000 : (⟨S_, .i32⟩ : BufTy).Contents (Elt F) → (⟨S50000, .i32⟩ : BufTy).Contents (Elt F)),
    StableHlo.binary main_v2 main_v5 main_v6 (addi : (⟨S50000, .i32⟩ : BufTy).Contents (Elt F) → (⟨S50000, .i32⟩ : BufTy).Contents (Elt F) → (⟨S50000, .i32⟩ : BufTy).Contents (Elt F)),
    StableHlo.ternary main_v4 main_v6 main_v2 main_v7 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v7 main_v8 (broadcastInDim S50000x1 ![0] bcast_S50000_S50000x1_0 : (⟨S50000, .i32⟩ : BufTy).Contents (Elt F) → (⟨S50000x1, .i32⟩ : BufTy).Contents (Elt F)),
    StableHlo.binary main_arg0 main_v8 main_v9 ((fun x i => Host.gather gather_S50001x128_S50000x1_S50000x128_1_0_n_n_0_1_1128 x i) : (⟨S50001x128, .f32⟩ : BufTy).Contents (Elt F) → (⟨S50000x1, .i32⟩ : BufTy).Contents (Elt F) → (⟨S50000x128, .f32⟩ : BufTy).Contents (Elt F)),
    StableHlo.unary main_arg2 main_v10 ((transpose S300x128 [1, 0] · transposes_S128x300_S300x128_1_0) : (⟨S128x300, .f32⟩ : BufTy).Contents (Elt F) → (⟨S300x128, .f32⟩ : BufTy).Contents (Elt F)),
    StableHlo.binary main_arg1 main_v10 main_v11 ((fun l r => Host.dotGeneral dot_S50000x300_S300x128_S50000x128_1_0_0_1_n_n none l r) : (⟨S50000x300, .f32⟩ : BufTy).Contents (Elt F) → (⟨S300x128, .f32⟩ : BufTy).Contents (Elt F) → (⟨S50000x128, .f32⟩ : BufTy).Contents (Elt F)),
    StableHlo.unary main_arg3 main_v12 (broadcastInDim S1x128 ![1] bcast_S128_S1x128_1 : (⟨S128, .f32⟩ : BufTy).Contents (Elt F) → (⟨S1x128, .f32⟩ : BufTy).Contents (Elt F)),
    StableHlo.unary main_v12 main_v13 (broadcastInDim S50000x128 ![0, 1] bcast_S1x128_S50000x128_0_1 : (⟨S1x128, .f32⟩ : BufTy).Contents (Elt F) → (⟨S50000x128, .f32⟩ : BufTy).Contents (Elt F)),
    StableHlo.binary main_v11 main_v13 main_v14 (addf : (⟨S50000x128, .f32⟩ : BufTy).Contents (Elt F) → (⟨S50000x128, .f32⟩ : BufTy).Contents (Elt F) → (⟨S50000x128, .f32⟩ : BufTy).Contents (Elt F)),
    StableHlo.nullary main_cst (constant S_ .f32 0x3DCCCCCD#32),
    TRef.nullary main_call0.cst (constant S_ .f32 0x00000000#32),
    TRef.unary main_call0.cst main_call0.v0 (broadcastInDim S50000x128 ![] bcast_S_S50000x128),
    TRef.binary (.of main_v14 : TRef sig ⟨S50000x128, .f32⟩) main_call0.v0 main_call0.v1 (cmpf .oge),
    TRef.unary (.of main_cst : TRef sig ⟨S_, .f32⟩) main_call0.v2 id,
    TRef.unary main_call0.v2 main_call0.v3 (broadcastInDim S50000x128 ![] bcast_S_S50000x128),
    TRef.binary main_call0.v3 (.of main_v14 : TRef sig ⟨S50000x128, .f32⟩) main_call0.v4 mulf,
    TRef.ternary main_call0.v1 (.of main_v14 : TRef sig ⟨S50000x128, .f32⟩) main_call0.v4 main_call0.call0.v0 select,
    StableHlo.binary main_v9 main_v15 main_v16 (addf : (⟨S50000x128, .f32⟩ : BufTy).Contents (Elt F) → (⟨S50000x128, .f32⟩ : BufTy).Contents (Elt F) → (⟨S50000x128, .f32⟩ : BufTy).Contents (Elt F)) ]

/-- The first layer's operations (`%c_2` … `%50`), the rectifier's and the norm's calls unfolded at their sites. -/
abbrev opsB : List (HloOp τ sig (Elt F)) :=
  [ StableHlo.nullary main_c_2 (constantI S_ 32 0#32),
    StableHlo.unary main_c_2 main_v17 (broadcastInDim S1650000 ![] bcast_S_S1650000 : (⟨S_, .i32⟩ : BufTy).Contents (Elt F) → (⟨S1650000, .i32⟩ : BufTy).Contents (Elt F)),
    StableHlo.binary main_arg8 main_v17 main_v18 (cmpi .slt : (⟨S1650000, .i32⟩ : BufTy).Contents (Elt F) → (⟨S1650000, .i32⟩ : BufTy).Contents (Elt F) → (⟨S1650000, .i1⟩ : BufTy).Contents (Elt F)),
    StableHlo.nullary main_c_3 (constantI S_ 32 50000#32),
    StableHlo.unary main_c_3 main_v19 (broadcastInDim S1650000 ![] bcast_S_S1650000 : (⟨S_, .i32⟩ : BufTy).Contents (Elt F) → (⟨S1650000, .i32⟩ : BufTy).Contents (Elt F)),
    StableHlo.binary main_arg8 main_v19 main_v20 (addi : (⟨S1650000, .i32⟩ : BufTy).Contents (Elt F) → (⟨S1650000, .i32⟩ : BufTy).Contents (Elt F) → (⟨S1650000, .i32⟩ : BufTy).Contents (Elt F)),
    StableHlo.ternary main_v18 main_v20 main_arg8 main_v21 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    StableHlo.unary main_v21 main_v22 (broadcastInDim S1650000x1 ![0] bcast_S1650000_S1650000x1_0 : (⟨S1650000, .i32⟩ : BufTy).Contents (Elt F) → (⟨S1650000x1, .i32⟩ : BufTy).Contents (Elt F)),
    StableHlo.binary main_v16 main_v22 main_v23 ((fun x i => Host.gather gather_S50000x128_S1650000x1_S1650000x128_1_0_n_n_0_1_1128 x i) : (⟨S50000x128, .f32⟩ : BufTy).Contents (Elt F) → (⟨S1650000x1, .i32⟩ : BufTy).Contents (Elt F) → (⟨S1650000x128, .f32⟩ : BufTy).Contents (Elt F)),
    StableHlo.nullary main_cst_4 (constant S_ .f32 0x00000000#32),
    StableHlo.unary main_cst_4 main_v24 (broadcastInDim S50000x128 ![] bcast_S_S50000x128 : (⟨S_, .f32⟩ : BufTy).Contents (Elt F) → (⟨S50000x128, .f32⟩ : BufTy).Contents (Elt F)),
    StableHlo.unary main_arg9 main_v25 (broadcastInDim S1650000x1 ![0] bcast_S1650000_S1650000x1_0 : (⟨S1650000, .i32⟩ : BufTy).Contents (Elt F) → (⟨S1650000x1, .i32⟩ : BufTy).Contents (Elt F)),
    StableHlo.ternary main_v24 main_v25 main_v23 main_v26 ((fun x i u => Host.scatterAdd scatter_S50000x128_S1650000x1_S1650000x128_1_0_0_1 x i u) : (⟨S50000x128, .f32⟩ : BufTy).Contents (Elt F) → (⟨S1650000x1, .i32⟩ : BufTy).Contents (Elt F) → (⟨S1650000x128, .f32⟩ : BufTy).Contents (Elt F) → (⟨S50000x128, .f32⟩ : BufTy).Contents (Elt F)),
    StableHlo.nullary main_cst_5 (constant S_ .f32 0x3F800000#32),
    StableHlo.unary main_cst_5 main_v27 (broadcastInDim S1650000 ![] bcast_S_S1650000 : (⟨S_, .f32⟩ : BufTy).Contents (Elt F) → (⟨S1650000, .f32⟩ : BufTy).Contents (Elt F)),
    StableHlo.nullary main_cst_6 (constant S_ .f32 0x00000000#32),
    StableHlo.unary main_cst_6 main_v28 (broadcastInDim S50000 ![] bcast_S_S50000 : (⟨S_, .f32⟩ : BufTy).Contents (Elt F) → (⟨S50000, .f32⟩ : BufTy).Contents (Elt F)),
    StableHlo.unary main_arg9 main_v29 (broadcastInDim S1650000x1 ![0] bcast_S1650000_S1650000x1_0 : (⟨S1650000, .i32⟩ : BufTy).Contents (Elt F) → (⟨S1650000x1, .i32⟩ : BufTy).Contents (Elt F)),
    StableHlo.ternary main_v28 main_v29 main_v27 main_v30 ((fun x i u => Host.scatterAdd scatter_S50000_S1650000x1_S1650000_n_0_0_1 x i u) : (⟨S50000, .f32⟩ : BufTy).Contents (Elt F) → (⟨S1650000x1, .i32⟩ : BufTy).Contents (Elt F) → (⟨S1650000, .f32⟩ : BufTy).Contents (Elt F) → (⟨S50000, .f32⟩ : BufTy).Contents (Elt F)),
    StableHlo.binary main_v26 main_v16 main_v31 (subf : (⟨S50000x128, .f32⟩ : BufTy).Contents (Elt F) → (⟨S50000x128, .f32⟩ : BufTy).Contents (Elt F) → (⟨S50000x128, .f32⟩ : BufTy).Contents (Elt F)),
    StableHlo.nullary main_cst_7 (constant S_ .f32 0x3F800000#32),
    StableHlo.unary main_cst_7 main_v32 (broadcastInDim S50000 ![] bcast_S_S50000 : (⟨S_, .f32⟩ : BufTy).Contents (Elt F) → (⟨S50000, .f32⟩ : BufTy).Contents (Elt F)),
    StableHlo.binary main_v30 main_v32 main_v33 (subf : (⟨S50000, .f32⟩ : BufTy).Contents (Elt F) → (⟨S50000, .f32⟩ : BufTy).Contents (Elt F) → (⟨S50000, .f32⟩ : BufTy).Contents (Elt F)),
    StableHlo.nullary main_cst_8 (constant S_ .f32 0x3F800000#32),
    StableHlo.unary main_cst_8 main_v34 (broadcastInDim S50000 ![] bcast_S_S50000 : (⟨S_, .f32⟩ : BufTy).Contents (Elt F) → (⟨S50000, .f32⟩ : BufTy).Contents (Elt F)),
    StableHlo.binary main_v33 main_v34 main_v35 (maximumf : (⟨S50000, .f32⟩ : BufTy).Contents (Elt F) → (⟨S50000, .f32⟩ : BufTy).Contents (Elt F) → (⟨S50000, .f32⟩ : BufTy).Contents (Elt F)),
    StableHlo.unary main_v35 main_v36 (broadcastInDim S50000x1 ![0] bcast_S50000_S50000x1_0 : (⟨S50000, .f32⟩ : BufTy).Contents (Elt F) → (⟨S50000x1, .f32⟩ : BufTy).Contents (Elt F)),
    StableHlo.unary main_v36 main_v37 (broadcastInDim S50000x128 ![0, 1] bcast_S50000x1_S50000x128_0_1 : (⟨S50000x1, .f32⟩ : BufTy).Contents (Elt F) → (⟨S50000x128, .f32⟩ : BufTy).Contents (Elt F)),
    StableHlo.binary main_v31 main_v37 main_v38 (Host.divf : (⟨S50000x128, .f32⟩ : BufTy).Contents (Elt F) → (⟨S50000x128, .f32⟩ : BufTy).Contents (Elt F) → (⟨S50000x128, .f32⟩ : BufTy).Contents (Elt F)),
    StableHlo.binary main_v16 main_v38 main_v39 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    StableHlo.unary main_arg4 main_v40 ((transpose S256x128 [1, 0] · transposes_S128x256_S256x128_1_0) : (⟨S128x256, .f32⟩ : BufTy).Contents (Elt F) → (⟨S256x128, .f32⟩ : BufTy).Contents (Elt F)),
    StableHlo.binary main_v39 main_v40 main_v41 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg5 main_v42 (broadcastInDim S1x128 ![1] bcast_S128_S1x128_1 : (⟨S128, .f32⟩ : BufTy).Contents (Elt F) → (⟨S1x128, .f32⟩ : BufTy).Contents (Elt F)),
    StableHlo.unary main_v42 main_v43 (broadcastInDim S50000x128 ![0, 1] bcast_S1x128_S50000x128_0_1 : (⟨S1x128, .f32⟩ : BufTy).Contents (Elt F) → (⟨S50000x128, .f32⟩ : BufTy).Contents (Elt F)),
    StableHlo.binary main_v41 main_v43 main_v44 (addf : (⟨S50000x128, .f32⟩ : BufTy).Contents (Elt F) → (⟨S50000x128, .f32⟩ : BufTy).Contents (Elt F) → (⟨S50000x128, .f32⟩ : BufTy).Contents (Elt F)),
    StableHlo.nullary main_cst_9 (constant S_ .f32 0x3DCCCCCD#32),
    TRef.nullary main_call1.cst (constant S_ .f32 0x00000000#32),
    TRef.unary main_call1.cst main_call1.v0 (broadcastInDim S50000x128 ![] bcast_S_S50000x128),
    TRef.binary (.of main_v44 : TRef sig ⟨S50000x128, .f32⟩) main_call1.v0 main_call1.v1 (cmpf .oge),
    TRef.unary (.of main_cst_9 : TRef sig ⟨S_, .f32⟩) main_call1.v2 id,
    TRef.unary main_call1.v2 main_call1.v3 (broadcastInDim S50000x128 ![] bcast_S_S50000x128),
    TRef.binary main_call1.v3 (.of main_v44 : TRef sig ⟨S50000x128, .f32⟩) main_call1.v4 mulf,
    TRef.ternary main_call1.v1 (.of main_v44 : TRef sig ⟨S50000x128, .f32⟩) main_call1.v4 main_call1.call0.v0 select,
    TRef.binary (.of main_v45 : TRef sig ⟨S50000x128, .f32⟩) (.of main_v45 : TRef sig ⟨S50000x128, .f32⟩) main_call2.v0 mulf,
    TRef.nullary main_call2.cst (constant S_ .f32 0x00000000#32),
    TRef.binary main_call2.v0 main_call2.cst main_call2.v1 (fun x v => Host.reduceAdd x v reducesTo_S50000x128_S50000_d1 h_S_),
    TRef.unary main_call2.v1 main_call2.v2 (broadcastInDim S50000x1 ![0] bcast_S50000_S50000x1_0),
    TRef.unary main_call2.v2 main_call2.v3 Host.sqrt,
    StableHlo.nullary main_cst_10 (constant S_ .f32 0x358637BD#32),
    StableHlo.unary main_cst_10 main_v47 (broadcastInDim S50000x1 ![] bcast_S_S50000x1 : (⟨S_, .f32⟩ : BufTy).Contents (Elt F) → (⟨S50000x1, .f32⟩ : BufTy).Contents (Elt F)),
    StableHlo.binary main_v46 main_v47 main_v48 (maximumf : (⟨S50000x1, .f32⟩ : BufTy).Contents (Elt F) → (⟨S50000x1, .f32⟩ : BufTy).Contents (Elt F) → (⟨S50000x1, .f32⟩ : BufTy).Contents (Elt F)),
    StableHlo.unary main_v48 main_v49 (broadcastInDim S50000x128 ![0, 1] bcast_S50000x1_S50000x128_0_1 : (⟨S50000x1, .f32⟩ : BufTy).Contents (Elt F) → (⟨S50000x128, .f32⟩ : BufTy).Contents (Elt F)),
    StableHlo.binary main_v45 main_v49 main_v50 (Host.divf : (⟨S50000x128, .f32⟩ : BufTy).Contents (Elt F) → (⟨S50000x128, .f32⟩ : BufTy).Contents (Elt F) → (⟨S50000x128, .f32⟩ : BufTy).Contents (Elt F)) ]

/-- The second layer's operations (`%c_11` … `%83`), the norm's call unfolded at its site. -/
abbrev opsC : List (HloOp τ sig (Elt F)) :=
  [ StableHlo.nullary main_c_11 (constantI S_ 32 0#32),
    StableHlo.unary main_c_11 main_v51 (broadcastInDim S1650000 ![] bcast_S_S1650000 : (⟨S_, .i32⟩ : BufTy).Contents (Elt F) → (⟨S1650000, .i32⟩ : BufTy).Contents (Elt F)),
    StableHlo.binary main_arg8 main_v51 main_v52 (cmpi .slt : (⟨S1650000, .i32⟩ : BufTy).Contents (Elt F) → (⟨S1650000, .i32⟩ : BufTy).Contents (Elt F) → (⟨S1650000, .i1⟩ : BufTy).Contents (Elt F)),
    StableHlo.nullary main_c_12 (constantI S_ 32 50000#32),
    StableHlo.unary main_c_12 main_v53 (broadcastInDim S1650000 ![] bcast_S_S1650000 : (⟨S_, .i32⟩ : BufTy).Contents (Elt F) → (⟨S1650000, .i32⟩ : BufTy).Contents (Elt F)),
    StableHlo.binary main_arg8 main_v53 main_v54 (addi : (⟨S1650000, .i32⟩ : BufTy).Contents (Elt F) → (⟨S1650000, .i32⟩ : BufTy).Contents (Elt F) → (⟨S1650000, .i32⟩ : BufTy).Contents (Elt F)),
    StableHlo.ternary main_v52 main_v54 main_arg8 main_v55 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    StableHlo.unary main_v55 main_v56 (broadcastInDim S1650000x1 ![0] bcast_S1650000_S1650000x1_0 : (⟨S1650000, .i32⟩ : BufTy).Contents (Elt F) → (⟨S1650000x1, .i32⟩ : BufTy).Contents (Elt F)),
    StableHlo.binary main_v50 main_v56 main_v57 ((fun x i => Host.gather gather_S50000x128_S1650000x1_S1650000x128_1_0_n_n_0_1_1128 x i) : (⟨S50000x128, .f32⟩ : BufTy).Contents (Elt F) → (⟨S1650000x1, .i32⟩ : BufTy).Contents (Elt F) → (⟨S1650000x128, .f32⟩ : BufTy).Contents (Elt F)),
    StableHlo.nullary main_cst_13 (constant S_ .f32 0x00000000#32),
    StableHlo.unary main_cst_13 main_v58 (broadcastInDim S50000x128 ![] bcast_S_S50000x128 : (⟨S_, .f32⟩ : BufTy).Contents (Elt F) → (⟨S50000x128, .f32⟩ : BufTy).Contents (Elt F)),
    StableHlo.unary main_arg9 main_v59 (broadcastInDim S1650000x1 ![0] bcast_S1650000_S1650000x1_0 : (⟨S1650000, .i32⟩ : BufTy).Contents (Elt F) → (⟨S1650000x1, .i32⟩ : BufTy).Contents (Elt F)),
    StableHlo.ternary main_v58 main_v59 main_v57 main_v60 ((fun x i u => Host.scatterAdd scatter_S50000x128_S1650000x1_S1650000x128_1_0_0_1 x i u) : (⟨S50000x128, .f32⟩ : BufTy).Contents (Elt F) → (⟨S1650000x1, .i32⟩ : BufTy).Contents (Elt F) → (⟨S1650000x128, .f32⟩ : BufTy).Contents (Elt F) → (⟨S50000x128, .f32⟩ : BufTy).Contents (Elt F)),
    StableHlo.nullary main_cst_14 (constant S_ .f32 0x3F800000#32),
    StableHlo.unary main_cst_14 main_v61 (broadcastInDim S1650000 ![] bcast_S_S1650000 : (⟨S_, .f32⟩ : BufTy).Contents (Elt F) → (⟨S1650000, .f32⟩ : BufTy).Contents (Elt F)),
    StableHlo.nullary main_cst_15 (constant S_ .f32 0x00000000#32),
    StableHlo.unary main_cst_15 main_v62 (broadcastInDim S50000 ![] bcast_S_S50000 : (⟨S_, .f32⟩ : BufTy).Contents (Elt F) → (⟨S50000, .f32⟩ : BufTy).Contents (Elt F)),
    StableHlo.unary main_arg9 main_v63 (broadcastInDim S1650000x1 ![0] bcast_S1650000_S1650000x1_0 : (⟨S1650000, .i32⟩ : BufTy).Contents (Elt F) → (⟨S1650000x1, .i32⟩ : BufTy).Contents (Elt F)),
    StableHlo.ternary main_v62 main_v63 main_v61 main_v64 ((fun x i u => Host.scatterAdd scatter_S50000_S1650000x1_S1650000_n_0_0_1 x i u) : (⟨S50000, .f32⟩ : BufTy).Contents (Elt F) → (⟨S1650000x1, .i32⟩ : BufTy).Contents (Elt F) → (⟨S1650000, .f32⟩ : BufTy).Contents (Elt F) → (⟨S50000, .f32⟩ : BufTy).Contents (Elt F)),
    StableHlo.binary main_v60 main_v50 main_v65 (subf : (⟨S50000x128, .f32⟩ : BufTy).Contents (Elt F) → (⟨S50000x128, .f32⟩ : BufTy).Contents (Elt F) → (⟨S50000x128, .f32⟩ : BufTy).Contents (Elt F)),
    StableHlo.nullary main_cst_16 (constant S_ .f32 0x3F800000#32),
    StableHlo.unary main_cst_16 main_v66 (broadcastInDim S50000 ![] bcast_S_S50000 : (⟨S_, .f32⟩ : BufTy).Contents (Elt F) → (⟨S50000, .f32⟩ : BufTy).Contents (Elt F)),
    StableHlo.binary main_v64 main_v66 main_v67 (subf : (⟨S50000, .f32⟩ : BufTy).Contents (Elt F) → (⟨S50000, .f32⟩ : BufTy).Contents (Elt F) → (⟨S50000, .f32⟩ : BufTy).Contents (Elt F)),
    StableHlo.nullary main_cst_17 (constant S_ .f32 0x3F800000#32),
    StableHlo.unary main_cst_17 main_v68 (broadcastInDim S50000 ![] bcast_S_S50000 : (⟨S_, .f32⟩ : BufTy).Contents (Elt F) → (⟨S50000, .f32⟩ : BufTy).Contents (Elt F)),
    StableHlo.binary main_v67 main_v68 main_v69 (maximumf : (⟨S50000, .f32⟩ : BufTy).Contents (Elt F) → (⟨S50000, .f32⟩ : BufTy).Contents (Elt F) → (⟨S50000, .f32⟩ : BufTy).Contents (Elt F)),
    StableHlo.unary main_v69 main_v70 (broadcastInDim S50000x1 ![0] bcast_S50000_S50000x1_0 : (⟨S50000, .f32⟩ : BufTy).Contents (Elt F) → (⟨S50000x1, .f32⟩ : BufTy).Contents (Elt F)),
    StableHlo.unary main_v70 main_v71 (broadcastInDim S50000x128 ![0, 1] bcast_S50000x1_S50000x128_0_1 : (⟨S50000x1, .f32⟩ : BufTy).Contents (Elt F) → (⟨S50000x128, .f32⟩ : BufTy).Contents (Elt F)),
    StableHlo.binary main_v65 main_v71 main_v72 (Host.divf : (⟨S50000x128, .f32⟩ : BufTy).Contents (Elt F) → (⟨S50000x128, .f32⟩ : BufTy).Contents (Elt F) → (⟨S50000x128, .f32⟩ : BufTy).Contents (Elt F)),
    StableHlo.binary main_v50 main_v72 main_v73 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    StableHlo.unary main_arg6 main_v74 ((transpose S256x128 [1, 0] · transposes_S128x256_S256x128_1_0) : (⟨S128x256, .f32⟩ : BufTy).Contents (Elt F) → (⟨S256x128, .f32⟩ : BufTy).Contents (Elt F)),
    StableHlo.binary main_v73 main_v74 main_v75 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg7 main_v76 (broadcastInDim S1x128 ![1] bcast_S128_S1x128_1 : (⟨S128, .f32⟩ : BufTy).Contents (Elt F) → (⟨S1x128, .f32⟩ : BufTy).Contents (Elt F)),
    StableHlo.unary main_v76 main_v77 (broadcastInDim S50000x128 ![0, 1] bcast_S1x128_S50000x128_0_1 : (⟨S1x128, .f32⟩ : BufTy).Contents (Elt F) → (⟨S50000x128, .f32⟩ : BufTy).Contents (Elt F)),
    StableHlo.binary main_v75 main_v77 main_v78 (addf : (⟨S50000x128, .f32⟩ : BufTy).Contents (Elt F) → (⟨S50000x128, .f32⟩ : BufTy).Contents (Elt F) → (⟨S50000x128, .f32⟩ : BufTy).Contents (Elt F)),
    TRef.binary (.of main_v78 : TRef sig ⟨S50000x128, .f32⟩) (.of main_v78 : TRef sig ⟨S50000x128, .f32⟩) main_call3.v0 mulf,
    TRef.nullary main_call3.cst (constant S_ .f32 0x00000000#32),
    TRef.binary main_call3.v0 main_call3.cst main_call3.v1 (fun x v => Host.reduceAdd x v reducesTo_S50000x128_S50000_d1 h_S_),
    TRef.unary main_call3.v1 main_call3.v2 (broadcastInDim S50000x1 ![0] bcast_S50000_S50000x1_0),
    TRef.unary main_call3.v2 main_call3.v3 Host.sqrt,
    StableHlo.nullary main_cst_18 (constant S_ .f32 0x358637BD#32),
    StableHlo.unary main_cst_18 main_v80 (broadcastInDim S50000x1 ![] bcast_S_S50000x1 : (⟨S_, .f32⟩ : BufTy).Contents (Elt F) → (⟨S50000x1, .f32⟩ : BufTy).Contents (Elt F)),
    StableHlo.binary main_v79 main_v80 main_v81 (maximumf : (⟨S50000x1, .f32⟩ : BufTy).Contents (Elt F) → (⟨S50000x1, .f32⟩ : BufTy).Contents (Elt F) → (⟨S50000x1, .f32⟩ : BufTy).Contents (Elt F)),
    StableHlo.unary main_v81 main_v82 (broadcastInDim S50000x128 ![0, 1] bcast_S50000x1_S50000x128_0_1 : (⟨S50000x1, .f32⟩ : BufTy).Contents (Elt F) → (⟨S50000x128, .f32⟩ : BufTy).Contents (Elt F)),
    StableHlo.binary main_v78 main_v82 main_v83 (Host.divf : (⟨S50000x128, .f32⟩ : BufTy).Contents (Elt F) → (⟨S50000x128, .f32⟩ : BufTy).Contents (Elt F) → (⟨S50000x128, .f32⟩ : BufTy).Contents (Elt F)) ]

/-- @main's 125 operations, in order. -/
abbrev ops : List (HloOp τ sig (Elt F)) := opsA ++ (opsB ++ opsC)

-- 125 binds re-associated: the rewrite under the chain recurses once per statement
set_option maxRecDepth 4096 in
/-- @main is that straight line: the two windows, the functions' bodies at their calls and the records at their
    fields unfolded, both sides are one chain of `hlo` steps once sequencing is reassociated. -/
theorem main_eq (c : Dev nD) : main (F := F) c = seq ops := by
  simp only [main, main_part0, main_part1, fn_leaky_relu.body, fn_where.body, fn_norm.body, ops, opsA, opsB, opsC,
    seq_append, seq, bind_assoc, pure_bind]

/-- The fold over two lines in a row is the second line's fold over the first's. -/
private theorem after_split : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_split l₁ l₂]

/-! ## Each stretch's result buffer

Gathers, scatter-adds, row sums, the concatenation and the transposes stay folded: the equations never look inside them. -/

attribute [local irreducible] Host.gather Host.scatterAdd Host.reduceAdd concatenate transpose in
/-- After the first stretch `%16` holds the first features of the four arguments it reads. -/
theorem stageA (V : Valuation τ sig (Elt F)) :
    after opsA V (main_v16 : DevRef τ sig)
      = Terms.firstR (V (main_arg0 : DevRef τ sig)) (V (main_arg1 : DevRef τ sig)) (V (main_arg2 : DevRef τ sig)) (V (main_arg3 : DevRef τ sig)) := by
  after_results_simp
  rfl

attribute [local irreducible] Host.gather Host.scatterAdd Host.reduceAdd concatenate transpose in
/-- After the second stretch `%50` holds the normalised rectified layer of what `%16` held. -/
theorem stageB (V : Valuation τ sig (Elt F)) :
    after opsB V (main_v50 : DevRef τ sig)
      = Terms.normR (Terms.lreluR (Terms.linR (V (main_arg8 : DevRef τ sig)) (V (main_arg9 : DevRef τ sig)) (V (main_arg4 : DevRef τ sig)) (V (main_arg5 : DevRef τ sig)) (V (main_v16 : DevRef τ sig)))) := by
  after_results_simp
  rfl

attribute [local irreducible] Host.gather Host.scatterAdd Host.reduceAdd concatenate transpose in
/-- After the third stretch `%83` holds the normalised linear layer of what `%50` held. -/
theorem stageC (V : Valuation τ sig (Elt F)) :
    after opsC V (main_v83 : DevRef τ sig)
      = Terms.normR (Terms.linR (V (main_arg8 : DevRef τ sig)) (V (main_arg9 : DevRef τ sig)) (V (main_arg6 : DevRef τ sig)) (V (main_arg7 : DevRef τ sig)) (V (main_v50 : DevRef τ sig))) := by
  after_results_simp
  rfl

/-! ## No stretch writes an argument -/

-- ten passes over the stretch, each deciding one inequality of references per operation
set_option maxHeartbeats 1600000 in
/-- The first stretch writes no argument. -/
theorem argsA (V : Valuation τ sig (Elt F)) :
    after opsA V (main_arg0 : DevRef τ sig) = V (main_arg0 : DevRef τ sig)
      ∧ after opsA V (main_arg1 : DevRef τ sig) = V (main_arg1 : DevRef τ sig)
      ∧ after opsA V (main_arg2 : DevRef τ sig) = V (main_arg2 : DevRef τ sig)
      ∧ after opsA V (main_arg3 : DevRef τ sig) = V (main_arg3 : DevRef τ sig)
      ∧ after opsA V (main_arg4 : DevRef τ sig) = V (main_arg4 : DevRef τ sig)
      ∧ after opsA V (main_arg5 : DevRef τ sig) = V (main_arg5 : DevRef τ sig)
      ∧ after opsA V (main_arg6 : DevRef τ sig) = V (main_arg6 : DevRef τ sig)
      ∧ after opsA V (main_arg7 : DevRef τ sig) = V (main_arg7 : DevRef τ sig)
      ∧ after opsA V (main_arg8 : DevRef τ sig) = V (main_arg8 : DevRef τ sig)
      ∧ after opsA V (main_arg9 : DevRef τ sig) = V (main_arg9 : DevRef τ sig) := by
  refine ⟨?_, ?_, ?_, ?_, ?_, ?_, ?_, ?_, ?_, ?_⟩ <;> after_results_simp

-- as for the first stretch
set_option maxHeartbeats 1600000 in
/-- The second stretch writes no argument. -/
theorem argsB (V : Valuation τ sig (Elt F)) :
    after opsB V (main_arg0 : DevRef τ sig) = V (main_arg0 : DevRef τ sig)
      ∧ after opsB V (main_arg1 : DevRef τ sig) = V (main_arg1 : DevRef τ sig)
      ∧ after opsB V (main_arg2 : DevRef τ sig) = V (main_arg2 : DevRef τ sig)
      ∧ after opsB V (main_arg3 : DevRef τ sig) = V (main_arg3 : DevRef τ sig)
      ∧ after opsB V (main_arg4 : DevRef τ sig) = V (main_arg4 : DevRef τ sig)
      ∧ after opsB V (main_arg5 : DevRef τ sig) = V (main_arg5 : DevRef τ sig)
      ∧ after opsB V (main_arg6 : DevRef τ sig) = V (main_arg6 : DevRef τ sig)
      ∧ after opsB V (main_arg7 : DevRef τ sig) = V (main_arg7 : DevRef τ sig)
      ∧ after opsB V (main_arg8 : DevRef τ sig) = V (main_arg8 : DevRef τ sig)
      ∧ after opsB V (main_arg9 : DevRef τ sig) = V (main_arg9 : DevRef τ sig) := by
  refine ⟨?_, ?_, ?_, ?_, ?_, ?_, ?_, ?_, ?_, ?_⟩ <;> after_results_simp

-- as for the first stretch
set_option maxHeartbeats 1600000 in
/-- The third stretch writes no argument. -/
theorem argsC (V : Valuation τ sig (Elt F)) :
    after opsC V (main_arg0 : DevRef τ sig) = V (main_arg0 : DevRef τ sig)
      ∧ after opsC V (main_arg1 : DevRef τ sig) = V (main_arg1 : DevRef τ sig)
      ∧ after opsC V (main_arg2 : DevRef τ sig) = V (main_arg2 : DevRef τ sig)
      ∧ after opsC V (main_arg3 : DevRef τ sig) = V (main_arg3 : DevRef τ sig)
      ∧ after opsC V (main_arg4 : DevRef τ sig) = V (main_arg4 : DevRef τ sig)
      ∧ after opsC V (main_arg5 : DevRef τ sig) = V (main_arg5 : DevRef τ sig)
      ∧ after opsC V (main_arg6 : DevRef τ sig) = V (main_arg6 : DevRef τ sig)
      ∧ after opsC V (main_arg7 : DevRef τ sig) = V (main_arg7 : DevRef τ sig)
      ∧ after opsC V (main_arg8 : DevRef τ sig) = V (main_arg8 : DevRef τ sig)
      ∧ after opsC V (main_arg9 : DevRef τ sig) = V (main_arg9 : DevRef τ sig) := by
  refine ⟨?_, ?_, ?_, ?_, ?_, ?_, ?_, ?_, ?_, ?_⟩ <;> after_results_simp

/-! ## The whole line -/

/-- No operation of @main writes an argument. -/
theorem args (V : Valuation τ sig (Elt F)) :
    after ops V (main_arg0 : DevRef τ sig) = V (main_arg0 : DevRef τ sig)
      ∧ after ops V (main_arg1 : DevRef τ sig) = V (main_arg1 : DevRef τ sig)
      ∧ after ops V (main_arg2 : DevRef τ sig) = V (main_arg2 : DevRef τ sig)
      ∧ after ops V (main_arg3 : DevRef τ sig) = V (main_arg3 : DevRef τ sig)
      ∧ after ops V (main_arg4 : DevRef τ sig) = V (main_arg4 : DevRef τ sig)
      ∧ after ops V (main_arg5 : DevRef τ sig) = V (main_arg5 : DevRef τ sig)
      ∧ after ops V (main_arg6 : DevRef τ sig) = V (main_arg6 : DevRef τ sig)
      ∧ after ops V (main_arg7 : DevRef τ sig) = V (main_arg7 : DevRef τ sig)
      ∧ after ops V (main_arg8 : DevRef τ sig) = V (main_arg8 : DevRef τ sig)
      ∧ after ops V (main_arg9 : DevRef τ sig) = V (main_arg9 : DevRef τ sig) := by
  obtain ⟨a0, a1, a2, a3, a4, a5, a6, a7, a8, a9⟩ := argsA V
  obtain ⟨b0, b1, b2, b3, b4, b5, b6, b7, b8, b9⟩ := argsB (after opsA V)
  obtain ⟨c0, c1, c2, c3, c4, c5, c6, c7, c8, c9⟩ := argsC (after opsB (after opsA V))
  rw [show (ops : List (HloOp τ sig (Elt F))) = opsA ++ (opsB ++ opsC) from rfl, after_split, after_split]
  exact ⟨c0.trans (b0.trans a0), c1.trans (b1.trans a1), c2.trans (b2.trans a2), c3.trans (b3.trans a3), c4.trans (b4.trans a4), c5.trans (b5.trans a5), c6.trans (b6.trans a6), c7.trans (b7.trans a7), c8.trans (b8.trans a8), c9.trans (b9.trans a9)⟩

/-- The result buffer's fold is the composed term of the arguments: the third stretch's term of the second's of the first's. -/
theorem out_eq (V : Valuation τ sig (Elt F)) :
    after ops V (main_v83 : DevRef τ sig)
      = Terms.refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) := by
  obtain ⟨a0, a1, a2, a3, a4, a5, a6, a7, a8, a9⟩ := argsA V
  obtain ⟨b0, b1, b2, b3, b4, b5, b6, b7, b8, b9⟩ := argsB (after opsA V)
  rw [show (ops : List (HloOp τ sig (Elt F))) = opsA ++ (opsB ++ opsC) from rfl, after_split, after_split, stageC, stageB, stageA,
    b8, b9, b6, b7, a8, a9, a6, a7, a4, a5]
  rfl

/-! ## The side conditions of the run -/

/-- The signature scopes no TensorCore buffer and no semaphore: a program of tensor values only. -/
theorem scopedRefs_eq : (Finset.univ.filter fun b : Ref sig .tc => b.isScoped) = ∅ := by decide
theorem scopedSems_eq : (Finset.univ.filter fun sm : SemLoc sig => sm.isScoped .tc) = ∅ := by decide

/-- Every operation of the first stretch touches TensorCore references only and determines its results. -/
theorem opsA_ok : (opsA : List (HloOp τ sig (Elt F))).Forall fun op => op.bufs ⊆ tcRefs τ sig ∧ op.fresh = ∅ :=
  ⟨⟨nullary_bufs_sub .., rfl⟩, ⟨nullary_bufs_sub .., rfl⟩, ⟨unary_bufs_sub .., rfl⟩, ⟨binary_bufs_sub .., rfl⟩, ⟨nullary_bufs_sub .., rfl⟩,
    ⟨unary_bufs_sub .., rfl⟩, ⟨binary_bufs_sub .., rfl⟩, ⟨nullary_bufs_sub .., rfl⟩, ⟨unary_bufs_sub .., rfl⟩, ⟨binary_bufs_sub .., rfl⟩,
    ⟨ternary_bufs_sub .., rfl⟩, ⟨unary_bufs_sub .., rfl⟩, ⟨binary_bufs_sub .., rfl⟩, ⟨unary_bufs_sub .., rfl⟩, ⟨binary_bufs_sub .., rfl⟩,
    ⟨unary_bufs_sub .., rfl⟩, ⟨unary_bufs_sub .., rfl⟩, ⟨binary_bufs_sub .., rfl⟩, ⟨nullary_bufs_sub .., rfl⟩, ⟨nullary_bufs_sub .., rfl⟩,
    ⟨unary_bufs_sub .., rfl⟩, ⟨binary_bufs_sub .., rfl⟩, ⟨unary_bufs_sub .., rfl⟩, ⟨unary_bufs_sub .., rfl⟩, ⟨binary_bufs_sub .., rfl⟩,
    ⟨ternary_bufs_sub .., rfl⟩, ⟨binary_bufs_sub .., rfl⟩⟩

/-- The same of the second stretch. -/
theorem opsB_ok : (opsB : List (HloOp τ sig (Elt F))).Forall fun op => op.bufs ⊆ tcRefs τ sig ∧ op.fresh = ∅ :=
  ⟨⟨nullary_bufs_sub .., rfl⟩, ⟨unary_bufs_sub .., rfl⟩, ⟨binary_bufs_sub .., rfl⟩, ⟨nullary_bufs_sub .., rfl⟩, ⟨unary_bufs_sub .., rfl⟩,
    ⟨binary_bufs_sub .., rfl⟩, ⟨ternary_bufs_sub .., rfl⟩, ⟨unary_bufs_sub .., rfl⟩, ⟨binary_bufs_sub .., rfl⟩, ⟨nullary_bufs_sub .., rfl⟩,
    ⟨unary_bufs_sub .., rfl⟩, ⟨unary_bufs_sub .., rfl⟩, ⟨ternary_bufs_sub .., rfl⟩, ⟨nullary_bufs_sub .., rfl⟩, ⟨unary_bufs_sub .., rfl⟩,
    ⟨nullary_bufs_sub .., rfl⟩, ⟨unary_bufs_sub .., rfl⟩, ⟨unary_bufs_sub .., rfl⟩, ⟨ternary_bufs_sub .., rfl⟩, ⟨binary_bufs_sub .., rfl⟩,
    ⟨nullary_bufs_sub .., rfl⟩, ⟨unary_bufs_sub .., rfl⟩, ⟨binary_bufs_sub .., rfl⟩, ⟨nullary_bufs_sub .., rfl⟩, ⟨unary_bufs_sub .., rfl⟩,
    ⟨binary_bufs_sub .., rfl⟩, ⟨unary_bufs_sub .., rfl⟩, ⟨unary_bufs_sub .., rfl⟩, ⟨binary_bufs_sub .., rfl⟩, ⟨binary_bufs_sub .., rfl⟩,
    ⟨unary_bufs_sub .., rfl⟩, ⟨binary_bufs_sub .., rfl⟩, ⟨unary_bufs_sub .., rfl⟩, ⟨unary_bufs_sub .., rfl⟩, ⟨binary_bufs_sub .., rfl⟩,
    ⟨nullary_bufs_sub .., rfl⟩, ⟨nullary_bufs_sub .., rfl⟩, ⟨unary_bufs_sub .., rfl⟩, ⟨binary_bufs_sub .., rfl⟩, ⟨unary_bufs_sub .., rfl⟩,
    ⟨unary_bufs_sub .., rfl⟩, ⟨binary_bufs_sub .., rfl⟩, ⟨ternary_bufs_sub .., rfl⟩, ⟨binary_bufs_sub .., rfl⟩, ⟨nullary_bufs_sub .., rfl⟩,
    ⟨binary_bufs_sub .., rfl⟩, ⟨unary_bufs_sub .., rfl⟩, ⟨unary_bufs_sub .., rfl⟩, ⟨nullary_bufs_sub .., rfl⟩, ⟨unary_bufs_sub .., rfl⟩,
    ⟨binary_bufs_sub .., rfl⟩, ⟨unary_bufs_sub .., rfl⟩, ⟨binary_bufs_sub .., rfl⟩⟩

/-- The same of the third stretch. -/
theorem opsC_ok : (opsC : List (HloOp τ sig (Elt F))).Forall fun op => op.bufs ⊆ tcRefs τ sig ∧ op.fresh = ∅ :=
  ⟨⟨nullary_bufs_sub .., rfl⟩, ⟨unary_bufs_sub .., rfl⟩, ⟨binary_bufs_sub .., rfl⟩, ⟨nullary_bufs_sub .., rfl⟩, ⟨unary_bufs_sub .., rfl⟩,
    ⟨binary_bufs_sub .., rfl⟩, ⟨ternary_bufs_sub .., rfl⟩, ⟨unary_bufs_sub .., rfl⟩, ⟨binary_bufs_sub .., rfl⟩, ⟨nullary_bufs_sub .., rfl⟩,
    ⟨unary_bufs_sub .., rfl⟩, ⟨unary_bufs_sub .., rfl⟩, ⟨ternary_bufs_sub .., rfl⟩, ⟨nullary_bufs_sub .., rfl⟩, ⟨unary_bufs_sub .., rfl⟩,
    ⟨nullary_bufs_sub .., rfl⟩, ⟨unary_bufs_sub .., rfl⟩, ⟨unary_bufs_sub .., rfl⟩, ⟨ternary_bufs_sub .., rfl⟩, ⟨binary_bufs_sub .., rfl⟩,
    ⟨nullary_bufs_sub .., rfl⟩, ⟨unary_bufs_sub .., rfl⟩, ⟨binary_bufs_sub .., rfl⟩, ⟨nullary_bufs_sub .., rfl⟩, ⟨unary_bufs_sub .., rfl⟩,
    ⟨binary_bufs_sub .., rfl⟩, ⟨unary_bufs_sub .., rfl⟩, ⟨unary_bufs_sub .., rfl⟩, ⟨binary_bufs_sub .., rfl⟩, ⟨binary_bufs_sub .., rfl⟩,
    ⟨unary_bufs_sub .., rfl⟩, ⟨binary_bufs_sub .., rfl⟩, ⟨unary_bufs_sub .., rfl⟩, ⟨unary_bufs_sub .., rfl⟩, ⟨binary_bufs_sub .., rfl⟩,
    ⟨binary_bufs_sub .., rfl⟩, ⟨nullary_bufs_sub .., rfl⟩, ⟨binary_bufs_sub .., rfl⟩, ⟨unary_bufs_sub .., rfl⟩, ⟨unary_bufs_sub .., rfl⟩,
    ⟨nullary_bufs_sub .., rfl⟩, ⟨unary_bufs_sub .., rfl⟩, ⟨binary_bufs_sub .., rfl⟩, ⟨unary_bufs_sub .., rfl⟩, ⟨binary_bufs_sub .., rfl⟩⟩

/-- The same of the whole line: an operation of it is one of a stretch. -/
theorem ops_ok : ∀ op ∈ (ops : List (HloOp τ sig (Elt F))), op.bufs ⊆ tcRefs τ sig ∧ op.fresh = ∅ := by
  intro op h
  rcases List.mem_append.1 h with h | h
  · exact List.forall_iff_forall_mem.1 opsA_ok op h
  rcases List.mem_append.1 h with h | h
  · exact List.forall_iff_forall_mem.1 opsB_ok op h
  · exact List.forall_iff_forall_mem.1 opsC_ok op h

/-- From any memory with zero counters every weakly fair execution of the reference's @main terminates with the
    result at the composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v83) = Terms.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => by
      obtain ⟨e0, e1, e2, e3, e4, e5, e6, e7, e8, e9⟩ := args (F := F) (launchContents m c)
      exact ⟨(h c main_v83).trans (out_eq (launchContents m c)),
        (h c main_arg0).trans e0, (h c main_arg1).trans e1, (h c main_arg2).trans e2, (h c main_arg3).trans e3, (h c main_arg4).trans e4, (h c main_arg5).trans e5, (h c main_arg6).trans e6, (h c main_arg7).trans e7, (h c main_arg8).trans e8, (h c main_arg9).trans e9⟩)
    (run_seq scopedRefs_eq scopedSems_eq defs main (fun _ => ops) main_eq
      (fun _ => List.forall_iff_forall_mem.2 fun op h => (ops_ok op h).1) m ρ (fun _ op h => (ops_ok op h).2))

end Cert.ReferenceIdeal.Run

end
-- ==== Proof.RefFirst.lean ====
/-
  The reference's first features, index by index: the gather of the embedding table at the indices
  `1 … 50000` reads row `p + 1`; the content projection is the sum over the 300 content coordinates against
  the transposed weight; the reference's rectifier (`x` where `x ≥ 0`) and the specification's (`x` where `0 < x`)
  agree, both being `0` at `0`.
-/
import proofs.«156878_j35648228556867_1_alg».proof.Proof.RefTerms
import proofs.«156878_j35648228556867_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.Lib.KernelVsHost
import Idealize.ShloMosaic.Lib.StableHlo.Predicate
import Idealize.ShloMosaic.PureOps.Ideal.Laws

noncomputable section

namespace Cert.ReferenceIdeal.Terms

open Cert.ReferenceIdeal Cert.ReferenceIdeal.Gen Idealize.ShloMosaic Idealize.ShloMosaic.ValueIdx

open scoped BigOperators

/-! ## The rectifier -/

/-- The rectifier that keeps `x` where `x ≥ 0` and the specification's, which keeps it where `0 < x`, agree:
    where `x ≠ 0` the two comparisons agree, and at `0` both branches are `0`. -/
theorem lrelu_ge_eq (x : EReal) :
    Scalar.select (Ideal.cmp .oge x Cert.Spec.zeroF) x (Cert.Spec.slopeF * x) = Cert.Spec.lrelu x := by
  unfold Cert.Spec.lrelu
  show Scalar.select (Ideal.cmp .oge x (Ideal.ofBits .f32 0x00000000#32)) x _ =
    Scalar.select (Ideal.cmp .ogt x (Ideal.ofBits .f32 0x00000000#32)) x _
  rw [Ideal.ofBits_zero_f32]
  rcases lt_trichotomy x 0 with h | h | h
  · have h1 : Ideal.cmp .oge x 0 = 0#1 := by
      show BitVec.ofBool (decide ((0 : EReal) ≤ x)) = 0#1
      rw [decide_eq_false (not_le.mpr h)]; rfl
    have h2 : Ideal.cmp .ogt x 0 = 0#1 := by
      show BitVec.ofBool (decide ((0 : EReal) < x)) = 0#1
      rw [decide_eq_false (not_lt.mpr h.le)]; rfl
    rw [h1, h2]
  · subst h
    have h1 : Ideal.cmp .oge (0 : EReal) 0 = 1#1 := by
      show BitVec.ofBool (decide ((0 : EReal) ≤ 0)) = 1#1
      rw [decide_eq_true (le_refl _)]; rfl
    have h2 : Ideal.cmp .ogt (0 : EReal) 0 = 0#1 := by
      show BitVec.ofBool (decide ((0 : EReal) < 0)) = 0#1
      rw [decide_eq_false (lt_irrefl _)]; rfl
    rw [h1, h2, select_one, select_zero, mul_zero]
  · have h1 : Ideal.cmp .oge x 0 = 1#1 := by
      show BitVec.ofBool (decide ((0 : EReal) ≤ x)) = 1#1
      rw [decide_eq_true h.le]; rfl
    have h2 : Ideal.cmp .ogt x 0 = 1#1 := by
      show BitVec.ofBool (decide ((0 : EReal) < x)) = 1#1
      rw [decide_eq_true h]; rfl
    rw [h1, h2]

/-! The reads of the non-pointwise operations at an index, in a namespace of their own. -/
namespace First

/-! ## The gather of table rows -/

open Idealize.ShloMosaic.StableHlo.Predicate in
/-- The index column at row `p`: the position plus one (the sum does not wrap and is not negative, so the
    normalisation of negative indices leaves it). -/
theorem embIdx_apply (p : Fin 50000) :
    embIdx (F := Ideal) (ix2 p (0 : Fin 1)) = BitVec.ofNat 32 (p.val + 1) := by
  have hp := p.isLt
  have e : (ix2 p (0 : Fin 1) : (⟨2, ![50000, 1]⟩ : Shape).Idx) = ixP p := by
    funext a; match a with | ⟨0, _⟩ => rfl | ⟨1, _⟩ => rfl
  unfold embIdx
  rw [e, bcast_col1, select_apply]
  have hA : BitVec.ofNat 32 p.val + 1#32 = BitVec.ofNat 32 (p.val + 1) := by
    apply BitVec.eq_of_toNat_eq
    simp only [BitVec.toNat_add, BitVec.toNat_ofNat]
    omega
  show Scalar.select (IntOp.cmpi .slt (BitVec.ofNat 32 p.val + 1#32) 0#32)
    (BitVec.ofNat 32 p.val + 1#32 + 50001#32) (BitVec.ofNat 32 p.val + 1#32) = _
  rw [hA]
  have hc : IntOp.cmpi .slt (BitVec.ofNat 32 (p.val + 1)) 0#32 = 0#1 := by
    refine eq_zero_of_ne_one fun h => ?_
    have h' := (slt_iff_toNat (by simp only [BitVec.toNat_ofNat]; omega) (by decide)).mp h
    simp only [BitVec.toNat_ofNat] at h'
    omega
  rw [hc, select_zero]

/-- On the table's row axis the gather reads the start index of row `p`, signed and clamped into `[0, 50000]`. -/
theorem gather_rows_axis0 {w : Nat} (idx : IVec S50000x1 w) (p : Fin 50000) (q : Fin 128) :
    (gather_S50001x128_S50000x1_S50000x128_1_0_n_n_0_1_1128.operandIdx (ix2 p q) idx 0).val
      = min (idx (ix2 p (0 : Fin 1))).toInt.toNat 50000 := by
  show gather_S50001x128_S50000x1_S50000x128_1_0_n_n_0_1_1128.start (ix2 p q) idx 0
    + gather_S50001x128_S50000x1_S50000x128_1_0_n_n_0_1_1128.batchCoord (ix2 p q) 0
    + gather_S50001x128_S50000x1_S50000x128_1_0_n_n_0_1_1128.offCoord (ix2 p q) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ gather_S50001x128_S50000x1_S50000x128_1_0_n_n_0_1_1128.startIndexMap from
    List.mem_singleton.mpr rfl)]
  have hsi : gather_S50001x128_S50000x1_S50000x128_1_0_n_n_0_1_1128.siIdx (ix2 p q)
      ⟨List.idxOf (0 : Fin 2) gather_S50001x128_S50000x1_S50000x128_1_0_n_n_0_1_1128.startIndexMap,
        List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  rfl

/-- On the table's column axis the gather reads column `q`. -/
theorem gather_rows_axis1 {w : Nat} (idx : IVec S50000x1 w) (p : Fin 50000) (q : Fin 128) :
    (gather_S50001x128_S50000x1_S50000x128_1_0_n_n_0_1_1128.operandIdx (ix2 p q) idx 1).val = q.val := by
  show gather_S50001x128_S50000x1_S50000x128_1_0_n_n_0_1_1128.start (ix2 p q) idx 1
    + gather_S50001x128_S50000x1_S50000x128_1_0_n_n_0_1_1128.batchCoord (ix2 p q) 1
    + gather_S50001x128_S50000x1_S50000x128_1_0_n_n_0_1_1128.offCoord (ix2 p q) 1 = _
  rw [GatherDims.batchCoord_eq_zero _ _ _ List.not_mem_nil]
  unfold GatherDims.start GatherDims.offCoord
  rw [dif_neg (show ¬(1 : Fin 2) ∈ gather_S50001x128_S50000x1_S50000x128_1_0_n_n_0_1_1128.startIndexMap by decide),
    dif_pos (show (1 : Fin 2) ∈ gather_S50001x128_S50000x1_S50000x128_1_0_n_n_0_1_1128.sKept by decide)]
  simp only [Nat.add_zero, Nat.zero_add]
  rfl

/-- THE ROW GATHER READ AT `(p, q)`: the table at the row the start index of `p` names, read signed and clamped
    into the table, and column `q`. -/
theorem gather_rows_apply {α : Type} {w : Nat} (x : S50001x128.Idx → α) (idx : IVec S50000x1 w) (p : Fin 50000) (q : Fin 128) :
    Host.gather gather_S50001x128_S50000x1_S50000x128_1_0_n_n_0_1_1128 x idx (ix2 p q)
      = x (ix2 (⟨min (idx (ix2 p (0 : Fin 1))).toInt.toNat 50000, by omega⟩ : Fin 50001) q) := by
  unfold Host.gather
  congr 1
  funext a
  refine Fin.ext ?_
  match a with
  | ⟨0, _⟩ => exact gather_rows_axis0 idx p q
  | ⟨1, _⟩ => exact gather_rows_axis1 idx p q

open Idealize.ShloMosaic.StableHlo.Predicate in
/-- The gathered embedding at `(p, q)` is the table's row `p + 1`. -/
theorem gather_emb_apply (emb : FArr (F := Ideal) S50001x128) (p : Fin 50000) (q : Fin 128) :
    Host.gather gather_S50001x128_S50000x1_S50000x128_1_0_n_n_0_1_1128 emb (embIdx (F := Ideal)) (ix2 p q)
      = emb (ix2 (⟨p.val + 1, by omega⟩ : Fin 50001) q) := by
  have hp := p.isLt
  rw [gather_rows_apply]
  congr 2
  refine Fin.ext ?_
  show min (embIdx (F := Ideal) (ix2 p (0 : Fin 1))).toInt.toNat 50000 = p.val + 1
  rw [embIdx_apply, toInt_ofNat_small _ (by omega)]
  show min (p.val + 1) 50000 = p.val + 1
  omega

/-! ## The content projection -/

theorem lhs_proj_0 (i : S50000x128.Idx) (k : dot_S50000x300_S300x128_S50000x128_1_0_0_1_n_n.contr.Idx) :
    (dot_S50000x300_S300x128_S50000x128_1_0_0_1_n_n.lhsIdx i k 0).val = (i 0).val := by
  unfold DotDims.lhsIdx
  rw [dif_neg (show ¬(0 : Fin S50000x300.rank) ∈ dot_S50000x300_S300x128_S50000x128_1_0_0_1_n_n.lhsBatch by decide),
    dif_pos (show (0 : Fin S50000x300.rank) ∈ dot_S50000x300_S300x128_S50000x128_1_0_0_1_n_n.lhsNonContracting by decide)]
  rfl
theorem lhs_proj_1 (i : S50000x128.Idx) (k : dot_S50000x300_S300x128_S50000x128_1_0_0_1_n_n.contr.Idx) :
    (dot_S50000x300_S300x128_S50000x128_1_0_0_1_n_n.lhsIdx i k 1).val = (k ⟨0, by decide⟩).val :=
  dot_S50000x300_S300x128_S50000x128_1_0_0_1_n_n.lhsIdx_val_of_single rfl i k
theorem rhs_proj_0 (i : S50000x128.Idx) (k : dot_S50000x300_S300x128_S50000x128_1_0_0_1_n_n.contr.Idx) :
    (dot_S50000x300_S300x128_S50000x128_1_0_0_1_n_n.rhsIdx i k 0).val = (k ⟨0, by decide⟩).val :=
  dot_S50000x300_S300x128_S50000x128_1_0_0_1_n_n.rhsIdx_val_of_single rfl i k
theorem rhs_proj_1 (i : S50000x128.Idx) (k : dot_S50000x300_S300x128_S50000x128_1_0_0_1_n_n.contr.Idx) :
    (dot_S50000x300_S300x128_S50000x128_1_0_0_1_n_n.rhsIdx i k 1).val = (i 1).val := by
  unfold DotDims.rhsIdx
  rw [dif_neg (show ¬(1 : Fin S300x128.rank) ∈ dot_S50000x300_S300x128_S50000x128_1_0_0_1_n_n.rhsBatch by decide),
    dif_pos (show (1 : Fin S300x128.rank) ∈ dot_S50000x300_S300x128_S50000x128_1_0_0_1_n_n.rhsNonContracting by decide)]
  rfl

/-- THE PROJECTION READ AT `(p, q)`: the sum over the 300 content coordinates of row `p` of the content against
    column `q` of the weight (content axis first). -/
theorem proj_apply (content : FVec Ideal S50000x300 .f32) (w : FVec Ideal S300x128 .f32) (p : Fin 50000) (q : Fin 128) :
    Host.dotGeneral (F := Ideal) dot_S50000x300_S300x128_S50000x128_1_0_0_1_n_n none content w (ix2 p q)
      = ∑ k : Fin 300, content (ix2 p k) * w (ix2 k q) := by
  simp only [Host.dotGeneral]
  rw [Ideal.dotGeneral_apply,
    ← Equiv.sum_comp (contrEquiv1 dot_S50000x300_S300x128_S50000x128_1_0_0_1_n_n 300 rfl rfl).symm]
  refine Finset.sum_congr rfl fun k _ => ?_
  have hk := contrEquiv1_symm_val dot_S50000x300_S300x128_S50000x128_1_0_0_1_n_n 300 rfl rfl k
  have el : dot_S50000x300_S300x128_S50000x128_1_0_0_1_n_n.lhsIdx (ix2 p q)
      ((contrEquiv1 dot_S50000x300_S300x128_S50000x128_1_0_0_1_n_n 300 rfl rfl).symm k) = ix2 p k :=
    funext fun a => Fin.ext (by
      match a with
      | ⟨0, _⟩ => exact lhs_proj_0 _ _
      | ⟨1, _⟩ => exact (lhs_proj_1 _ _).trans hk)
  have er : dot_S50000x300_S300x128_S50000x128_1_0_0_1_n_n.rhsIdx (ix2 p q)
      ((contrEquiv1 dot_S50000x300_S300x128_S50000x128_1_0_0_1_n_n 300 rfl rfl).symm k) = ix2 k q :=
    funext fun a => Fin.ext (by
      match a with
      | ⟨0, _⟩ => exact (rhs_proj_0 _ _).trans hk
      | ⟨1, _⟩ => exact rhs_proj_1 _ _)
  rw [el, er]

/-! ## The bias and the rectifier at an index -/

open Idealize.ShloMosaic.StableHlo.Predicate in
/-- The bias laid along the columns reads, at `(p, q)`, the bias at `q`. -/
theorem bias_apply {α : Type} (b : S128.Idx → α) (p : Fin 50000) (q : Fin 128) :
    broadcastInDim S50000x128 ![0, 1] bcast_S1x128_S50000x128_0_1 (broadcastInDim S1x128 ![1] bcast_S128_S1x128_1 b) (ix2 p q)
      = b (ix1 q) := by
  have e : (ix2 p q : (⟨2, ![50000, 128]⟩ : Shape).Idx) = ij p q := by
    funext a; match a with | ⟨0, _⟩ => rfl | ⟨1, _⟩ => rfl
  have e1 : (Shape.Idx.ofFin q : (⟨1, ![128]⟩ : Shape).Idx) = ix1 q := by
    funext a; match a with | ⟨0, _⟩ => rfl
  rw [e, bcast_cols, e1]

/-- The reference's rectifier at an index: `x` where `x ≥ 0`, the slope times `x` elsewhere. -/
theorem lreluR_apply (x : FArr (F := Ideal) S50000x128) (i : S50000x128.Idx) :
    lreluR x i = Scalar.select (Ideal.cmp .oge (x i) Cert.Spec.zeroF) (x i) (Cert.Spec.slopeF * x i) := rfl

end First

/-! ## The first features -/

open First in
/-- The reference's first features are the specification's. -/
theorem firstR_eq (emb : FArr (F := Ideal) S50001x128) (content : FArr (F := Ideal) S50000x300) (pw : FArr (F := Ideal) S128x300)
    (pb : FArr (F := Ideal) S128) :
    firstR emb content pw pb = Cert.Spec.first emb content (wt0 pw) pb := by
  funext i
  obtain ⟨p, q, rfl⟩ : ∃ (p : Fin 50000) (q : Fin 128), i = ix2 p q := ⟨i 0, i 1, eq_ix2 i⟩
  unfold firstR Cert.Spec.first Cert.Spec.mixK
  rw [addf_apply, gather_emb_apply, lreluR_apply, addf_apply, proj_apply, bias_apply, lrelu_ge_eq]

end Cert.ReferenceIdeal.Terms

end
-- ==== Proof.RefLayer.lean ====
/-
  One layer of the reference, index by index: the product of the concatenation `[h, mean]` with the
  transposed weight splits into the sum over the first 128 input coordinates (against `h`) and over the last
  128 (against the neighbours' mean) — a finite sum over 256 terms cut in two, which needs only that addition
  of extended reals is commutative and associative —; the in-degree broadcast along the row is the degree of
  the row's node; the row norm is the square root of the row's sum of squares.
-/
import proofs.«156878_j35648228556867_1_alg».proof.Proof.RefTerms
import proofs.«156878_j35648228556867_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.Lib.KernelVsHost
import Idealize.ShloMosaic.Lib.StableHlo.Predicate
import Idealize.ShloMosaic.PureOps.Ideal.Laws

noncomputable section

open scoped BigOperators

namespace Cert.ReferenceIdeal.Terms

open Cert.ReferenceIdeal Cert.ReferenceIdeal.Gen Idealize.ShloMosaic Idealize.ShloMosaic.ValueIdx

/-! ## The rectifier

The reference compares with `≥`, the specification with `>`: the two differ only at zero, where both branches are zero. -/

/-- The rectifier with the comparison `0 ≤ x` is the rectifier with `0 < x`. -/
theorem lrelu_ge_eq' (x : EReal) :
    Scalar.select (Ideal.cmp .oge x Cert.Spec.zeroF) x (Cert.Spec.slopeF * x) = Cert.Spec.lrelu x := by
  have hz : Cert.Spec.zeroF = 0 := Ideal.ofBits_zero_f32
  unfold Cert.Spec.lrelu
  rw [hz]
  unfold Ideal.cmp Scalar.select
  by_cases h : (0 : EReal) < x
  · have h' : (0 : EReal) ≤ x := le_of_lt h
    simp [h, h']
  · by_cases h0 : (0 : EReal) ≤ x
    · have hx : x = 0 := le_antisymm (not_lt.mp h) h0
      subst hx
      simp
    · simp [h, h0]

/-- The reference's rectifier at an entry. -/
theorem lreluR_apply (x : FArr (F := Ideal) S50000x128) (p : Fin 50000) (q : Fin 128) :
    lreluR x (ix2 p q) = Cert.Spec.lrelu (x (ix2 p q)) := by
  unfold lreluR
  rw [select_apply, cmpf_apply, mulf_apply, broadcastInDim_scalar_apply, broadcastInDim_scalar_apply]
  exact lrelu_ge_eq' (x (ix2 p q))

/-! ## Broadcasts at an entry -/

/-- A column `[50000, 1]` broadcast along the rows, at an entry: the column's entry of that row. -/
theorem bcastCol_apply {α : Type} (hb : S50000x1.BroadcastsInDim S50000x128 ![0, 1]) (v : S50000x1.Idx → α)
    (p : Fin 50000) (q : Fin 128) :
    broadcastInDim S50000x128 ![0, 1] hb v (ix2 p q) = v (ix2 p (0 : Fin 1)) := by
  refine broadcastInDim_apply _ hb v (ix2 p q) (ix2 p (0 : Fin 1)) fun a => ?_
  match a with
  | ⟨0, _⟩ => rfl
  | ⟨1, _⟩ => rfl

/-- A vector `[50000]` made a column, at an entry: the vector's entry of that row. -/
theorem bcastVec_apply {α : Type} (hb : S50000.BroadcastsInDim S50000x1 ![0]) (v : S50000.Idx → α)
    (p : Fin 50000) (u : Fin 1) :
    broadcastInDim S50000x1 ![0] hb v (ix2 p u) = v (ix1 p) := by
  refine broadcastInDim_apply _ hb v (ix2 p u) (ix1 p) fun a => ?_
  match a with
  | ⟨0, _⟩ => rfl

/-- A row `[1, 128]` broadcast down the rows, at an entry: the row's entry of that column. -/
theorem bcastRow_apply {α : Type} (hb : S1x128.BroadcastsInDim S50000x128 ![0, 1]) (v : S1x128.Idx → α)
    (p : Fin 50000) (q : Fin 128) :
    broadcastInDim S50000x128 ![0, 1] hb v (ix2 p q) = v (ix2 (0 : Fin 1) q) := by
  refine broadcastInDim_apply _ hb v (ix2 p q) (ix2 (0 : Fin 1) q) fun a => ?_
  match a with
  | ⟨0, _⟩ => rfl
  | ⟨1, _⟩ => rfl

/-- A vector `[128]` made a row, at an entry: the vector's entry of that column. -/
theorem bcastVecRow_apply {α : Type} (hb : S128.BroadcastsInDim S1x128 ![1]) (v : S128.Idx → α)
    (u : Fin 1) (q : Fin 128) :
    broadcastInDim S1x128 ![1] hb v (ix2 u q) = v (ix1 q) := by
  refine broadcastInDim_apply _ hb v (ix2 u q) (ix1 q) fun a => ?_
  match a with
  | ⟨0, _⟩ => rfl

/-! ## The row norm -/

/-- The source index of a row sum: row `p`, column `k`. -/
theorem lift_row (hR : S50000x128.Reduces [1] S50000) (p : Fin 50000) (k : Fin 128) :
    hR.lift (ix1 p) k = ix2 p k :=
  funext fun a => Fin.ext (by match a with | ⟨0, _⟩ => rfl | ⟨1, _⟩ => rfl)

/-- The host's square root at an entry. -/
theorem hostSqrt_apply {s : Shape} {φ : FTy} (y : FVec Ideal s φ) (i : s.Idx) : Host.sqrt y i = Ideal.sqrt (y i) := rfl

/-- The reference's row normalisation at an entry: the entry over the root of the row's sum of squares, floored. -/
theorem normR_apply (x : FArr (F := Ideal) S50000x128) (p : Fin 50000) (q : Fin 128) :
    normR x (ix2 p q) = Ideal.div (x (ix2 p q))
      (max (Ideal.sqrt (∑ j : Fin 128, x (ix2 p j) * x (ix2 p j))) Cert.Spec.epsF) := by
  unfold normR
  rw [hostDivf_apply, bcastCol_apply, maximumf_apply, broadcastInDim_scalar_apply, constant_apply, hostSqrt_apply,
    bcastVec_apply, hostReduceAdd_apply,
    Ideal.hostReduceAdd_single reducesTo_S50000x128_S50000_d1 (by decide), constant_apply, Ideal.ofBits_zero_f32, zero_add]
  refine congrArg (fun s => Ideal.div (x (ix2 p q)) (max (Ideal.sqrt s) Cert.Spec.epsF)) ?_
  refine Finset.sum_congr rfl fun k _ => ?_
  rw [mulf_apply]
  exact congrArg (fun i => x i * x i) (lift_row _ p k)

/-! ## The product with the transposed weight

The host's product at entry `(p, q)` is the sum over the one contracted coordinate `k` of the left operand at `(p, k)`
times the right operand at `(k, q)`. -/

theorem lhs_dot_0 (i : S50000x128.Idx) (c : dot_S50000x256_S256x128_S50000x128_1_0_0_1_n_n.contr.Idx) :
    (dot_S50000x256_S256x128_S50000x128_1_0_0_1_n_n.lhsIdx i c 0).val = (i 0).val := by
  unfold DotDims.lhsIdx
  rw [dif_neg (show ¬(0 : Fin S50000x256.rank) ∈ dot_S50000x256_S256x128_S50000x128_1_0_0_1_n_n.lhsBatch by decide),
    dif_pos (show (0 : Fin S50000x256.rank) ∈ dot_S50000x256_S256x128_S50000x128_1_0_0_1_n_n.lhsNonContracting by decide)]
  rfl

theorem lhs_dot_1 (i : S50000x128.Idx) (c : dot_S50000x256_S256x128_S50000x128_1_0_0_1_n_n.contr.Idx) :
    (dot_S50000x256_S256x128_S50000x128_1_0_0_1_n_n.lhsIdx i c 1).val = (c ⟨0, by decide⟩).val :=
  dot_S50000x256_S256x128_S50000x128_1_0_0_1_n_n.lhsIdx_val_of_single rfl i c

theorem rhs_dot_0 (i : S50000x128.Idx) (c : dot_S50000x256_S256x128_S50000x128_1_0_0_1_n_n.contr.Idx) :
    (dot_S50000x256_S256x128_S50000x128_1_0_0_1_n_n.rhsIdx i c 0).val = (c ⟨0, by decide⟩).val :=
  dot_S50000x256_S256x128_S50000x128_1_0_0_1_n_n.rhsIdx_val_of_single rfl i c

theorem rhs_dot_1 (i : S50000x128.Idx) (c : dot_S50000x256_S256x128_S50000x128_1_0_0_1_n_n.contr.Idx) :
    (dot_S50000x256_S256x128_S50000x128_1_0_0_1_n_n.rhsIdx i c 1).val = (i 1).val := by
  unfold DotDims.rhsIdx
  rw [dif_neg (show ¬(1 : Fin S256x128.rank) ∈ dot_S50000x256_S256x128_S50000x128_1_0_0_1_n_n.rhsBatch by decide),
    dif_pos (show (1 : Fin S256x128.rank) ∈ dot_S50000x256_S256x128_S50000x128_1_0_0_1_n_n.rhsNonContracting by decide)]
  rfl

/-- The product at an entry, as a sum over the 256 input coordinates. -/
theorem dot_apply (l : FVec Ideal S50000x256 .f32) (r : FVec Ideal S256x128 .f32) (p : Fin 50000) (q : Fin 128) :
    Host.dotGeneral dot_S50000x256_S256x128_S50000x128_1_0_0_1_n_n none l r (ix2 p q) = ∑ k : Fin 256, l (ix2 p k) * r (ix2 k q) := by
  simp only [Host.dotGeneral]
  rw [Ideal.dotGeneral_apply, ← Equiv.sum_comp (contrEquiv1 dot_S50000x256_S256x128_S50000x128_1_0_0_1_n_n 256 rfl rfl).symm]
  refine Finset.sum_congr rfl fun k _ => ?_
  have hk := contrEquiv1_symm_val dot_S50000x256_S256x128_S50000x128_1_0_0_1_n_n 256 rfl rfl k
  have el : dot_S50000x256_S256x128_S50000x128_1_0_0_1_n_n.lhsIdx (ix2 p q) ((contrEquiv1 dot_S50000x256_S256x128_S50000x128_1_0_0_1_n_n 256 rfl rfl).symm k) = ix2 p k :=
    funext fun a => Fin.ext (by
      match a with
      | ⟨0, _⟩ => exact lhs_dot_0 _ _
      | ⟨1, _⟩ => exact (lhs_dot_1 _ _).trans hk)
  have er : dot_S50000x256_S256x128_S50000x128_1_0_0_1_n_n.rhsIdx (ix2 p q) ((contrEquiv1 dot_S50000x256_S256x128_S50000x128_1_0_0_1_n_n 256 rfl rfl).symm k) = ix2 k q :=
    funext fun a => Fin.ext (by
      match a with
      | ⟨0, _⟩ => exact (rhs_dot_0 _ _).trans hk
      | ⟨1, _⟩ => exact rhs_dot_1 _ _)
  rw [el, er]

/-- A sum over 256 coordinates is the sum over the first 128 plus the sum over the last 128. -/
theorem sum_split (f : Fin 256 → EReal) :
    ∑ k : Fin 256, f k = (∑ k : Fin 128, f ⟨k.val, by omega⟩) + ∑ k : Fin 128, f ⟨128 + k.val, by omega⟩ :=
  Fin.sum_univ_add (a := 128) (b := 128) f

/-! ## The concatenation at a column -/

/-- A column among the first 128 of the concatenation is that column of the first piece. -/
theorem cat_left {α : Type} (x₁ x₂ : S50000x128.Idx → α) (hc : Shape.Concatenates [S50000x128, S50000x128] S50000x256 1)
    (p : Fin 50000) (k : Fin 128) (hk : k.val < 256) :
    concatenate S50000x256 1 [⟨S50000x128, x₁⟩, ⟨S50000x128, x₂⟩] hc (ix2 p (⟨k.val, hk⟩ : Fin 256)) = x₁ (ix2 p k) := by
  refine concatenate_pair_apply_left (1 : Fin S50000x256.rank) x₁ x₂ hc _ rfl (ix2 p k) fun b => ?_
  match b with
  | ⟨0, _⟩ => rfl
  | ⟨1, _⟩ => rfl

/-- A column among the last 128 of the concatenation is the column 128 places earlier of the second piece. -/
theorem cat_right {α : Type} (x₁ x₂ : S50000x128.Idx → α) (hc : Shape.Concatenates [S50000x128, S50000x128] S50000x256 1)
    (p : Fin 50000) (k : Fin 128) (hk : 128 + k.val < 256) :
    concatenate S50000x256 1 [⟨S50000x128, x₁⟩, ⟨S50000x128, x₂⟩] hc (ix2 p (⟨128 + k.val, hk⟩ : Fin 256)) = x₂ (ix2 p k) := by
  refine concatenate_pair_apply_right (1 : Fin S50000x256.rank) x₁ x₂ hc _ rfl rfl (ix2 p k) (fun b hb => ?_) ?_
  · match b, hb with
    | ⟨0, _⟩, _ => rfl
    | ⟨1, _⟩, hb => exact absurd rfl hb
  · exact Nat.add_comm _ _

/-! ## The layer's linear part at an entry -/

/-- The reference's linear part at entry `(p, q)` is the specification's: own features through the first 128 rows of the
    transposed weight, the neighbours' mean through the last 128, plus the bias. -/
theorem linR_apply (src dst : IArr (F := Ideal) S1650000) (w : FArr (F := Ideal) S128x256) (b : FArr (F := Ideal) S128)
    (h : FArr (F := Ideal) S50000x128) (p : Fin 50000) (q : Fin 128) :
    linR src dst w b h (ix2 p q) =
      Cert.Spec.sageLin 50000 h (agg src dst h) (fun j => deg dst (ix1 (j 0)))
        (fun j => wt w (ix2 (⟨(j 0).val, by have := idx2_lt0 j; omega⟩ : Fin 256) (j 1)))
        (fun j => wt w (ix2 (⟨128 + (j 0).val, by have := idx2_lt0 j; omega⟩ : Fin 256) (j 1))) b p q := by
  unfold linR Cert.Spec.sageLin
  rw [addf_apply, bcastRow_apply, bcastVecRow_apply, dot_apply, sum_split]
  refine congrArg₂ (· + ·) (congrArg₂ (· + ·) (Finset.sum_congr rfl fun k _ => ?_) (Finset.sum_congr rfl fun k _ => ?_)) rfl
  · rw [cat_left]
  · rw [cat_right, hostDivf_apply, subf_apply, bcastCol_apply, bcastVec_apply, maximumf_apply, subf_apply,
      broadcastInDim_scalar_apply, constant_apply]
    rfl

/-! ## The layer -/

/-- The specification's layer at an entry. -/
theorem layer_apply (act : Bool) (ag : Cert.Spec.Mat 50000 128 → Cert.Spec.Mat 50000 128) (dg : Cert.Spec.Vct 50000)
    (wm : Cert.Spec.Mat 256 128) (b : Cert.Spec.Vct 128) (h : Cert.Spec.Mat 50000 128) (p : Fin 50000) (q : Fin 128) :
    Cert.Spec.layer act ag dg wm b h (ix2 p q) =
      Cert.Spec.sageK act 50000 h (ag h) (fun j => dg (ix1 (j 0)))
        (fun j => wm (ix2 (⟨(j 0).val, by have := idx2_lt0 j; omega⟩ : Fin 256) (j 1)))
        (fun j => wm (ix2 (⟨128 + (j 0).val, by have := idx2_lt0 j; omega⟩ : Fin 256) (j 1))) b p q := rfl

/-- With an activation the layer's entry before the norm is the rectified linear part. -/
theorem sageAct_true (n : Nat) (h hagg : Cert.Spec.Mat n 128) (wcol : Cert.Spec.Mat n 1) (w1 w2 : Cert.Spec.Mat 128 128)
    (b : Cert.Spec.Vct 128) (p : Fin n) (q : Fin 128) :
    Cert.Spec.sageAct true n h hagg wcol w1 w2 b p q = Cert.Spec.lrelu (Cert.Spec.sageLin n h hagg wcol w1 w2 b p q) := rfl

/-- Without one it is the linear part. -/
theorem sageAct_false (n : Nat) (h hagg : Cert.Spec.Mat n 128) (wcol : Cert.Spec.Mat n 1) (w1 w2 : Cert.Spec.Mat 128 128)
    (b : Cert.Spec.Vct 128) (p : Fin n) (q : Fin 128) :
    Cert.Spec.sageAct false n h hagg wcol w1 w2 b p q = Cert.Spec.sageLin n h hagg wcol w1 w2 b p q := rfl

/-- The rectified layer of the reference is the specification's. -/
theorem layerR_act_eq (src dst : IArr (F := Ideal) S1650000) (w : FArr (F := Ideal) S128x256) (b : FArr (F := Ideal) S128)
    (h : FArr (F := Ideal) S50000x128) :
    normR (lreluR (linR src dst w b h)) = Cert.Spec.layer true (agg src dst) (deg dst) (wt w) b h := by
  funext i
  obtain ⟨p, q, rfl⟩ : ∃ (p : Fin 50000) (q : Fin 128), i = ix2 p q := ⟨i 0, i 1, eq_ix2 i⟩
  rw [normR_apply, layer_apply]
  unfold Cert.Spec.sageK
  simp only [lreluR_apply, linR_apply, sageAct_true]

/-- The linear layer of the reference is the specification's. -/
theorem layerR_lin_eq (src dst : IArr (F := Ideal) S1650000) (w : FArr (F := Ideal) S128x256) (b : FArr (F := Ideal) S128)
    (h : FArr (F := Ideal) S50000x128) :
    normR (linR src dst w b h) = Cert.Spec.layer false (agg src dst) (deg dst) (wt w) b h := by
  funext i
  obtain ⟨p, q, rfl⟩ : ∃ (p : Fin 50000) (q : Fin 128), i = ix2 p q := ⟨i 0, i 1, eq_ix2 i⟩
  rw [normR_apply, layer_apply]
  unfold Cert.Spec.sageK
  simp only [linR_apply, sageAct_false]

end Cert.ReferenceIdeal.Terms

end
-- ==== Proof.RefValue.lean ====
/-
  The reference's result is the model: its first features and its two layers are the specification's.
-/
import proofs.«156878_j35648228556867_1_alg».proof.Proof.RefFirst
import proofs.«156878_j35648228556867_1_alg».proof.Proof.RefLayer

noncomputable section

namespace Cert.ReferenceIdeal.Terms

open Cert.ReferenceIdeal Idealize.ShloMosaic

/-- The reference's composed result is the model of the shared host terms. -/
theorem refOut_eq (emb : FArr (F := Ideal) S50001x128) (content : FArr (F := Ideal) S50000x300) (pw : FArr (F := Ideal) S128x300)
    (pb : FArr (F := Ideal) S128) (w1 : FArr (F := Ideal) S128x256) (b1 : FArr (F := Ideal) S128) (w2 : FArr (F := Ideal) S128x256)
    (b2 : FArr (F := Ideal) S128) (src dst : IArr (F := Ideal) S1650000) :
    refOut emb content pw pb w1 b1 w2 b2 src dst
      = Cert.Spec.model (agg src dst) (deg dst) (wt0 pw) (wt w1) (wt w2) emb content pb b1 b2 := by
  unfold refOut Cert.Spec.model
  rw [firstR_eq, layerR_act_eq, layerR_lin_eq]

end Cert.ReferenceIdeal.Terms

end
-- ==== Proof.Bridge.lean ====
/-
  The host terms the two programs share are the same functions: each program prints the same operations with
  the same dimension numbers, and the side conditions its records carry are propositions.
-/
import proofs.«156878_j35648228556867_1_alg».proof.Proof.KernelTerms
import proofs.«156878_j35648228556867_1_alg».proof.Proof.RefTerms

noncomputable section

namespace Cert.Bridge

open Idealize.ShloMosaic

variable {F : FTy → Type} [FloatOps F]

theorem agg_eq (src dst : Cert.KernelIdeal.Terms.IArr (F := F) Cert.KernelIdeal.S1650000) :
    Cert.KernelIdeal.Terms.agg (F := F) src dst = Cert.ReferenceIdeal.Terms.agg (F := F) src dst := rfl
theorem deg_eq (dst : Cert.KernelIdeal.Terms.IArr (F := F) Cert.KernelIdeal.S1650000) :
    Cert.KernelIdeal.Terms.deg (F := F) dst = Cert.ReferenceIdeal.Terms.deg (F := F) dst := rfl
theorem wt0_eq (w : Cert.KernelIdeal.Terms.FArr (F := F) Cert.KernelIdeal.S128x300) :
    Cert.KernelIdeal.Terms.wt0 (F := F) w = Cert.ReferenceIdeal.Terms.wt0 (F := F) w := rfl
theorem wt_eq (w : Cert.KernelIdeal.Terms.FArr (F := F) Cert.KernelIdeal.S128x256) :
    Cert.KernelIdeal.Terms.wt (F := F) w = Cert.ReferenceIdeal.Terms.wt (F := F) w := rfl

end Cert.Bridge

end
-- ==== Proof.lean ====
/-
  The certificate of a two-layer graph convolution network over 50000 nodes and 1650000 edges.

  Both programs compute, over the extended reals, the model of Proof/Spec.lean: the mixed embedding of every
  node (its embedding row plus the leaky-rectified content projection), then two layers, each the mean of a
  node's other in-neighbours beside the node's own features through the two halves of the layer's weight, the
  bias, the rectifier in the first layer, and the row divided by its norm. The edge aggregation (gather the
  source rows, add them at the destination rows), the in-degree and the transposed weights are the same host
  operations in both programs and are carried as opaque functions.

  The kernel program runs three launches of 25 row blocks each between stretches of host operations; each
  launch leaves, block by block, the specification's function of the arrays it finds (Proof/MixBlock.lean,
  Proof/SageBlock.lean), and the buffer contents folded through the run give the composed result
  (Proof/KernelFold.lean, Proof/KernelModel.lean). The reference is a straight line of host operations whose
  result is read index by index (Proof/RefRun.lean, Proof/RefFirst.lean, Proof/RefLayer.lean): the gather of the
  embedding table at the indices 1 … 50000 is its slice from row 1, the product with the concatenation of own
  features and neighbours' mean is the sum of the two half products (a finite sum cut in two: addition of
  extended reals is commutative and associative, no finiteness is used), and the two spellings of the
  rectifier, `x` where `0 < x` and `x` where `0 ≤ x`, agree because both give `0` at `0`.
-/
import proofs.«156878_j35648228556867_1_alg».proof.Defs
import proofs.«156878_j35648228556867_1_alg».proof.Proof.Gen.Kernel
import proofs.«156878_j35648228556867_1_alg».proof.Proof.Gen.Kernel.Skeleton
import proofs.«156878_j35648228556867_1_alg».proof.Proof.Gen.Kernel.Launch
import proofs.«156878_j35648228556867_1_alg».proof.Proof.Gen.Kernel.Points
import proofs.«156878_j35648228556867_1_alg».proof.Proof.Gen.Kernel.Frame
import proofs.«156878_j35648228556867_1_alg».proof.Proof.Gen.KernelIdeal
import proofs.«156878_j35648228556867_1_alg».proof.Proof.Gen.KernelIdeal.Skeleton
import proofs.«156878_j35648228556867_1_alg».proof.Proof.Gen.KernelIdeal.Launch
import proofs.«156878_j35648228556867_1_alg».proof.Proof.Gen.KernelIdeal.Points
import proofs.«156878_j35648228556867_1_alg».proof.Proof.Gen.KernelIdeal.Frame
import proofs.«156878_j35648228556867_1_alg».proof.Proof.Gen.ReferenceIdeal
import proofs.«156878_j35648228556867_1_alg».proof.Proof.Gen.Pre_finite_inputs
import proofs.«156878_j35648228556867_1_alg».proof.Proof.KernelRun
import proofs.«156878_j35648228556867_1_alg».proof.Proof.KernelFold
import proofs.«156878_j35648228556867_1_alg».proof.Proof.KernelModel
import proofs.«156878_j35648228556867_1_alg».proof.Proof.RefRun
import proofs.«156878_j35648228556867_1_alg».proof.Proof.RefValue
import proofs.«156878_j35648228556867_1_alg».proof.Proof.Bridge
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Run.run (F := Ideal) m ρ)

/-- From memories agreeing on the arguments both programs end with the model of the arguments. -/
theorem algebraic : Cert.algebraic_KernelIdeal_ReferenceIdeal := by
  intro m ρ m' ρ' _ hagree
  refine ⟨fun c => Cert.KernelIdeal.Terms.kOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Fold.out_eq m ρ c), (h c).2⟩)
      (Cert.KernelIdeal.Valued.run_valued (F := Ideal) m ρ)
  · refine (θ_run Cert.ReferenceIdeal.defs _ _).mono (fun r h c => ⟨(h c).1.trans ?_, (h c).2⟩)
      (Cert.ReferenceIdeal.Run.run (F := Ideal) m' ρ')
    obtain ⟨e0, e1, e2, e3, e4, e5, e6, e7, e8, e9⟩ := hagree c
    show Cert.ReferenceIdeal.Terms.refOut _ _ _ _ _ _ _ _ _ _ = Cert.KernelIdeal.Terms.kOut _ _ _ _ _ _ _ _ _ _
    rw [e0, e1, e2, e3, e4, e5, e6, e7, e8, e9, Cert.ReferenceIdeal.Terms.refOut_eq, Cert.KernelIdeal.Terms.kOut_eq,
      Cert.Bridge.agg_eq, Cert.Bridge.deg_eq, Cert.Bridge.wt0_eq, Cert.Bridge.wt_eq, Cert.Bridge.wt_eq]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
